-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x300x81 : Shape := ⟨3, ![2, 300, 81]⟩
abbrev S2x300x256x256 : Shape := ⟨4, ![2, 300, 256, 256]⟩
abbrev S2x300x4 : Shape := ⟨3, ![2, 300, 4]⟩
abbrev S50x4 : Shape := ⟨2, ![50, 4]⟩
abbrev S50 : Shape := ⟨1, ![50]⟩
abbrev S50x256x256 : Shape := ⟨3, ![50, 256, 256]⟩
abbrev S2 : Shape := ⟨1, ![2]⟩
abbrev S_ : Shape := ⟨0, ![]⟩

class Facts : Prop where
  bcast_S_S2x300x81 : S_.BroadcastsInDim S2x300x81 (![] : Fin 0 → Fin S2x300x81.rank)
  reducesTo_S2x300x81_S_d0_1_2 : S2x300x81.ReducesTo [0, 1, 2] S_
  h_S_ : 0 < S_.numel
  bcast_S_S2x300x256x256 : S_.BroadcastsInDim S2x300x256x256 (![] : Fin 0 → Fin S2x300x256x256.rank)
  reducesTo_S2x300x256x256_S_d0_1_2_3 : S2x300x256x256.ReducesTo [0, 1, 2, 3] S_
  bcast_S_S2x300x4 : S_.BroadcastsInDim S2x300x4 (![] : Fin 0 → Fin S2x300x4.rank)
  reducesTo_S2x300x4_S_d0_1_2 : S2x300x4.ReducesTo [0, 1, 2] S_
  bcast_S_S50x4 : S_.BroadcastsInDim S50x4 (![] : Fin 0 → Fin S50x4.rank)
  reducesTo_S50x4_S_d0_1 : S50x4.ReducesTo [0, 1] S_
  bcast_S_S50 : S_.BroadcastsInDim S50 (![] : Fin 0 → Fin S50.rank)
  reducesTo_S50_S_d0 : S50.ReducesTo [0] S_
  bcast_S_S50x256x256 : S_.BroadcastsInDim S50x256x256 (![] : Fin 0 → Fin S50x256x256.rank)
  reducesTo_S50x256x256_S_d0_1_2 : S50x256x256.ReducesTo [0, 1, 2] S_

variable [Facts]

def fn_part1 {F : FTy → Type} [FloatOps F] (main_arg4 : IVec S50 32) (main_arg5 : IVec S50x256x256 32) (main_v13 : IVec S_ 1) (main_v16 : IVec S50x4 1) : IVec S_ 1 :=
  let main_c_5 : IVec S_ 1 := constantI S_ 1 1#1
  let main_v17 : IVec S_ 1 := (fun x v => Host.reduce IntOp.andi x v reducesTo_S50x4_S_d0_1 h_S_) main_v16 main_c_5
  let main_v18 : IVec S_ 1 := andi main_v13 main_v17
  let main_c_6 : IVec S_ 32 := constantI S_ 32 4294967215#32
  let main_v19 : IVec S50 32 := broadcastInDim S50 ![] bcast_S_S50 main_c_6
  let main_v20 : IVec S50 1 := cmpi .sge main_arg4 main_v19
  let main_c_7 : IVec S_ 32 := constantI S_ 32 81#32
  let main_v21 : IVec S50 32 := broadcastInDim S50 ![] bcast_S_S50 main_c_7
  let main_v22 : IVec S50 1 := cmpi .slt main_arg4 main_v21
  let main_v23 : IVec S50 1 := andi main_v20 main_v22
  let main_c_8 : IVec S_ 1 := constantI S_ 1 1#1
  let main_v24 : IVec S_ 1 := (fun x v => Host.reduce IntOp.andi x v reducesTo_S50_S_d0 h_S_) main_v23 main_c_8
  let main_v25 : IVec S_ 1 := andi main_v18 main_v24
  let main_c_9 : IVec S_ 32 := constantI S_ 32 0#32
  let main_v26 : IVec S50x256x256 32 := broadcastInDim S50x256x256 ![] bcast_S_S50x256x256 main_c_9
  let main_v27 : IVec S50x256x256 1 := cmpi .sge main_arg5 main_v26
  let main_c_10 : IVec S_ 32 := constantI S_ 32 1#32
  let main_v28 : IVec S50x256x256 32 := broadcastInDim S50x256x256 ![] bcast_S_S50x256x256 main_c_10
  let main_v29 : IVec S50x256x256 1 := cmpi .sle main_arg5 main_v28
  let main_v30 : IVec S50x256x256 1 := andi main_v27 main_v29
  let main_c_11 : IVec S_ 1 := constantI S_ 1 1#1
  let main_v31 : IVec S_ 1 := (fun x v => Host.reduce IntOp.andi x v reducesTo_S50x256x256_S_d0_1_2 h_S_) main_v30 main_c_11
  let main_v32 : IVec S_ 1 := andi main_v25 main_v31
  main_v32

def fn {F : FTy → Type} [FloatOps F] (main_arg0 : FVec F S2x300x81 .f32) (main_arg1 : FVec F S2x300x256x256 .f32) (main_arg2 : FVec F S2x300x4 .f32) (main_arg3 : FVec F S50x4 .f32) (main_arg4 : IVec S50 32) (main_arg5 : IVec S50x256x256 32) (main_arg6 : IVec S2 32) : IVec S_ 1 :=
  let main_v0 : FVec F S2x300x81 .f32 := Host.absf main_arg0
  let main_cst : FVec F S_ .f32 := constant S_ .f32 0x7F800000#32
  let main_v1 : FVec F S2x300x81 .f32 := broadcastInDim S2x300x81 ![] bcast_S_S2x300x81 main_cst
  let main_v2 : IVec S2x300x81 1 := cmpf .olt main_v0 main_v1
  let main_c : IVec S_ 1 := constantI S_ 1 1#1
  let main_v3 : IVec S_ 1 := (fun x v => Host.reduce IntOp.andi x v reducesTo_S2x300x81_S_d0_1_2 h_S_) main_v2 main_c
  let main_v4 : FVec F S2x300x256x256 .f32 := Host.absf main_arg1
  let main_cst_0 : FVec F S_ .f32 := constant S_ .f32 0x7F800000#32
  let main_v5 : FVec F S2x300x256x256 .f32 := broadcastInDim S2x300x256x256 ![] bcast_S_S2x300x256x256 main_cst_0
  let main_v6 : IVec S2x300x256x256 1 := cmpf .olt main_v4 main_v5
  let main_c_1 : IVec S_ 1 := constantI S_ 1 1#1
  let main_v7 : IVec S_ 1 := (fun x v => Host.reduce IntOp.andi x v reducesTo_S2x300x256x256_S_d0_1_2_3 h_S_) main_v6 main_c_1
  let main_v8 : IVec S_ 1 := andi main_v3 main_v7
  let main_v9 : FVec F S2x300x4 .f32 := Host.absf main_arg2
  let main_cst_2 : FVec F S_ .f32 := constant S_ .f32 0x7F800000#32
  let main_v10 : FVec F S2x300x4 .f32 := broadcastInDim S2x300x4 ![] bcast_S_S2x300x4 main_cst_2
  let main_v11 : IVec S2x300x4 1 := cmpf .olt main_v9 main_v10
  let main_c_3 : IVec S_ 1 := constantI S_ 1 1#1
  let main_v12 : IVec S_ 1 := (fun x v => Host.reduce IntOp.andi x v reducesTo_S2x300x4_S_d0_1_2 h_S_) main_v11 main_c_3
  let main_v13 : IVec S_ 1 := andi main_v8 main_v12
  let main_v14 : FVec F S50x4 .f32 := Host.absf main_arg3
  let main_cst_4 : FVec F S_ .f32 := constant S_ .f32 0x7F800000#32
  let main_v15 : FVec F S50x4 .f32 := broadcastInDim S50x4 ![] bcast_S_S50x4 main_cst_4
  let main_v16 : IVec S50x4 1 := cmpf .olt main_v14 main_v15
  fn_part1 (F := F) main_arg4 main_arg5 main_v13 main_v16
-- ==== Kernel.lean ====
abbrev S2x300x81 : Shape := ⟨3, ![2, 300, 81]⟩
abbrev S2x300x256x256 : Shape := ⟨4, ![2, 300, 256, 256]⟩
abbrev S2x300x4 : Shape := ⟨3, ![2, 300, 4]⟩
abbrev S50x4 : Shape := ⟨2, ![50, 4]⟩
abbrev S50 : Shape := ⟨1, ![50]⟩
abbrev S50x256x256 : Shape := ⟨3, ![50, 256, 256]⟩
abbrev S2 : Shape := ⟨1, ![2]⟩
abbrev S600x65536 : Shape := ⟨2, ![600, 65536]⟩
abbrev S50x65536 : Shape := ⟨2, ![50, 65536]⟩
abbrev S_ : Shape := ⟨0, ![]⟩
abbrev S128x65536 : Shape := ⟨2, ![128, 65536]⟩
abbrev S128 : Shape := ⟨1, ![128]⟩
abbrev S1x128 : Shape := ⟨2, ![1, 128]⟩
abbrev S600x128 : Shape := ⟨2, ![600, 128]⟩
abbrev S160x4096 : Shape := ⟨2, ![160, 4096]⟩
abbrev S160x128 : Shape := ⟨2, ![160, 128]⟩
abbrev S128x4096 : Shape := ⟨2, ![128, 4096]⟩
abbrev S160 : Shape := ⟨1, ![160]⟩
abbrev S160x1 : Shape := ⟨2, ![160, 1]⟩
abbrev S600x50 : Shape := ⟨2, ![600, 50]⟩
abbrev S600x81 : Shape := ⟨2, ![600, 81]⟩
abbrev S600 : Shape := ⟨1, ![600]⟩
abbrev S600x1 : Shape := ⟨2, ![600, 1]⟩
abbrev S50x1 : Shape := ⟨2, ![50, 1]⟩
abbrev S1 : Shape := ⟨1, ![1]⟩
abbrev S1x1 : Shape := ⟨2, ![1, 1]⟩
abbrev S600x4 : Shape := ⟨2, ![600, 4]⟩
abbrev S600x1x4 : Shape := ⟨3, ![600, 1, 4]⟩
abbrev S1x50x4 : Shape := ⟨3, ![1, 50, 4]⟩
abbrev S600x50x4 : Shape := ⟨3, ![600, 50, 4]⟩
abbrev S2x300x50 : Shape := ⟨3, ![2, 300, 50]⟩

abbrev nBuf : Space → Nat
  | .hbm => 131
  | .vmem => 12
  | .smem => 0
  | _ => 0

abbrev hbmTy0_0 (i : Nat) : BufTy := match i % 128 with
  | 0 => ⟨S2x300x81, .f32⟩
  | 1 => ⟨S2x300x256x256, .f32⟩
  | 2 => ⟨S2x300x4, .f32⟩
  | 3 => ⟨S50x4, .f32⟩
  | 4 => ⟨S50, .i32⟩
  | 5 => ⟨S50x256x256, .i32⟩
  | 6 => ⟨S2, .i32⟩
  | 7 => ⟨S600x65536, .f32⟩
  | 8 => ⟨S50x65536, .i32⟩
  | 9 => ⟨S50x65536, .bf16⟩
  | 10 => ⟨S_, .i32⟩
  | 11 => ⟨S_, .bf16⟩
  | 12 => ⟨S128x65536, .bf16⟩
  | 13 => ⟨S50x65536, .i32⟩
  | 14 => ⟨S_, .i32⟩
  | 15 => ⟨S50, .i32⟩
  | 16 => ⟨S50, .f32⟩
  | 17 => ⟨S_, .i32⟩
  | 18 => ⟨S_, .f32⟩
  | 19 => ⟨S128, .f32⟩
  | 20 => ⟨S1x128, .f32⟩
  | 21 => ⟨S600x128, .f32⟩
  | 22 => ⟨S600x128, .f32⟩
  | 23 => ⟨S600x50, .f32⟩
  | 24 => ⟨S600x50, .f32⟩
  | 25 => ⟨S600x81, .f32⟩
  | 26 => ⟨S_, .f32⟩
  | 27 => ⟨S600, .f32⟩
  | 28 => ⟨S_, .f32⟩
  | 29 => ⟨S600, .f32⟩
  | 30 => ⟨S600, .f32⟩
  | 31 => ⟨S600x1, .f32⟩
  | 32 => ⟨S600x81, .f32⟩
  | 33 => ⟨S600x81, .f32⟩
  | 34 => ⟨S600x81, .f32⟩
  | 35 => ⟨S_, .f32⟩
  | 36 => ⟨S600, .f32⟩
  | 37 => ⟨S600x1, .f32⟩
  | 38 => ⟨S600x81, .f32⟩
  | 39 => ⟨S600x81, .f32⟩
  | 40 => ⟨S_, .i32⟩
  | 41 => ⟨S50, .i32⟩
  | 42 => ⟨S50, .i1⟩
  | 43 => ⟨S_, .i32⟩
  | 44 => ⟨S50, .i32⟩
  | 45 => ⟨S50, .i32⟩
  | 46 => ⟨S50, .i32⟩
  | 47 => ⟨S50x1, .i32⟩
  | 48 => ⟨S1, .i32⟩
  | 49 => ⟨S_, .i32⟩
  | 50 => ⟨S50x1, .i32⟩
  | 51 => ⟨S50x1, .i1⟩
  | 52 => ⟨S1x1, .i32⟩
  | 53 => ⟨S50x1, .i32⟩
  | 54 => ⟨S50x1, .i1⟩
  | 55 => ⟨S50x1, .i1⟩
  | 56 => ⟨S_, .i1⟩
  | 57 => ⟨S50, .i1⟩
  | 58 => ⟨S600x50, .f32⟩
  | 59 => ⟨S600x50, .i1⟩
  | 60 => ⟨S_, .f32⟩
  | 61 => ⟨S600x50, .f32⟩
  | 62 => ⟨S600x50, .f32⟩
  | 63 => ⟨S600x50, .f32⟩
  | 64 => ⟨S600x4, .f32⟩
  | 65 => ⟨S2, .f32⟩
  | 66 => ⟨S50x1, .f32⟩
  | 67 => ⟨S50, .f32⟩
  | 68 => ⟨S50x1, .f32⟩
  | 69 => ⟨S50, .f32⟩
  | 70 => ⟨S_, .f32⟩
  | 71 => ⟨S50, .f32⟩
  | 72 => ⟨S50, .f32⟩
  | 73 => ⟨S50, .f32⟩
  | 74 => ⟨S1, .f32⟩
  | 75 => ⟨S_, .f32⟩
  | 76 => ⟨S50, .f32⟩
  | 77 => ⟨S50, .f32⟩
  | 78 => ⟨S50x1, .f32⟩
  | 79 => ⟨S50, .f32⟩
  | 80 => ⟨S50x1, .f32⟩
  | 81 => ⟨S50, .f32⟩
  | 82 => ⟨S_, .f32⟩
  | 83 => ⟨S50, .f32⟩
  | 84 => ⟨S50, .f32⟩
  | 85 => ⟨S50, .f32⟩
  | 86 => ⟨S1, .f32⟩
  | 87 => ⟨S_, .f32⟩
  | 88 => ⟨S50, .f32⟩
  | 89 => ⟨S50, .f32⟩
  | 90 => ⟨S50x1, .f32⟩
  | 91 => ⟨S50, .f32⟩
  | 92 => ⟨S1, .f32⟩
  | 93 => ⟨S_, .f32⟩
  | 94 => ⟨S50, .f32⟩
  | 95 => ⟨S50, .f32⟩
  | 96 => ⟨S50x1, .f32⟩
  | 97 => ⟨S50, .f32⟩
  | 98 => ⟨S1, .f32⟩
  | 99 => ⟨S_, .f32⟩
  | 100 => ⟨S50, .f32⟩
  | 101 => ⟨S50, .f32⟩
  | 102 => ⟨S50x1, .f32⟩
  | 103 => ⟨S50x1, .f32⟩
  | 104 => ⟨S50x1, .f32⟩
  | 105 => ⟨S50x1, .f32⟩
  | 106 => ⟨S50x4, .f32⟩
  | 107 => ⟨S600x1x4, .f32⟩
  | 108 => ⟨S1x50x4, .f32⟩
  | 109 => ⟨S600x50x4, .f32⟩
  | 110 => ⟨S600x50x4, .f32⟩
  | 111 => ⟨S600x50x4, .f32⟩
  | 112 => ⟨S600x50x4, .f32⟩
  | 113 => ⟨S_, .f32⟩
  | 114 => ⟨S600x50, .f32⟩
  | 115 => ⟨S_, .f32⟩
  | 116 => ⟨S600x50, .f32⟩
  | 117 => ⟨S600x50, .f32⟩
  | 118 => ⟨S_, .f32⟩
  | 119 => ⟨S600x50, .f32⟩
  | 120 => ⟨S600x50, .f32⟩
  | 121 => ⟨S600x50, .f32⟩
  | 122 => ⟨S_, .f32⟩
  | 123 => ⟨S600x50, .f32⟩
  | 124 => ⟨S600x50, .f32⟩
  | 125 => ⟨S600x50, .f32⟩
  | 126 => ⟨S_, .f32⟩
  | 127 => ⟨S600x50, .f32⟩
  | _ => ⟨S2x300x81, .f32⟩

abbrev hbmTy0_1 (i : Nat) : BufTy := match i % 128 with
  | 0 => ⟨S600x50, .f32⟩
  | 1 => ⟨S600x50, .f32⟩
  | 2 => ⟨S2x300x50, .f32⟩
  | _ => ⟨S2x300x81, .f32⟩

abbrev hbmTy (i : Nat) : BufTy := match i / 128 with
  | 0 => hbmTy0_0 i
  | 1 => hbmTy0_1 i
  | _ => ⟨S2x300x81, .f32⟩

abbrev bufTy : (tb : Table) → Fin (tcTables nBuf tb) → BufTy
  | .hbm, ⟨i, _⟩ => hbmTy i
  | .local _ .vmem, ⟨0, _⟩ => ⟨S160x4096, .f32⟩
  | .local _ .vmem, ⟨1, _⟩ => ⟨S160x4096, .f32⟩
  | .local _ .vmem, ⟨2, _⟩ => ⟨S128x65536, .bf16⟩
  | .local _ .vmem, ⟨3, _⟩ => ⟨S1x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S160x128, .f32⟩
  | _, _ => ⟨S2x300x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_5 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_6 : Ref sig .tc := ⟨.hbm, 113, rfl⟩
abbrev main_v73 : Ref sig .tc := ⟨.hbm, 114, rfl⟩
abbrev main_cst_7 : Ref sig .tc := ⟨.hbm, 115, rfl⟩
abbrev main_v74 : Ref sig .tc := ⟨.hbm, 116, rfl⟩
abbrev main_v75 : Ref sig .tc := ⟨.hbm, 117, rfl⟩
abbrev main_cst_8 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_9 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_10 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c4096_i32 : BitVec 32 := 4096#32
  let v25 : BitVec 32 := Scalar.muli arg1 c4096_i32
  v25
def k0_off1 (i : grid0.Coords) : Fin 2 → Nat :=
  let c0_7 : Index := 0#32
  let arg1 : BitVec 32 := BitVec.ofNat 32 (i 1).val
  let c4096_i32 : BitVec 32 := 4096#32
  let v25 : BitVec 32 := Scalar.muli arg1 c4096_i32
  let v26 : BitVec 32 := v25
  let v27 : Index := Scalar.indexCast v26
  ![0, v27.toNat]
def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_28 : BitVec 32 := 0#32
  let v64 : BitVec 1 := Scalar.cmpi .ne v63 c0_i32_28
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S160x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x65536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S160x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S160x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x300x256x256_S600x65536 : S2x300x256x256.ShapeCasts S600x65536
  shapeCasts_S50x256x256_S50x65536 : S50x256x256.ShapeCasts S50x65536
  pads_S50x65536_S128x65536_0780_000 : S50x65536.Pads (![0, 0] : Fin 2 → Nat) ![78, 0] ![0, 0] S128x65536
  h_S_ : 0 < S_.numel
  reducesTo_S50x65536_S50_d1 : S50x65536.ReducesTo [1] S50
  pads_S50_S128_0780 : S50.Pads (![0] : Fin 1 → Nat) ![78] ![0] S128
  bcast_S128_S1x128_1 : S128.BroadcastsInDim S1x128 (![1] : Fin 1 → Fin S1x128.rank)
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S160x4096_S160x4096_0_0 : ∀ a, (![0, 0] : Fin 2 → Nat) a + S160x4096.size a ≤ S160x4096.size a
  h_S160x4096 : 0 < S160x4096.numel
  shapeCasts_S160x4096_S160x4096 : S160x4096.ShapeCasts S160x4096
  h_S128x4096 : 0 < S128x4096.numel
  shapeCasts_S128x4096_S128x4096 : S128x4096.ShapeCasts S128x4096
  bitsLt_bf16_f32 : FTy.bits .bf16 < FTy.bits .f32
  reduces_S160x4096_S160 : S160x4096.Reduces [1] S160
  shapeCasts_S160_S160x1 : S160.ShapeCasts S160x1
  shapeCasts_S160x1_S160x1 : S160x1.ShapeCasts S160x1
  broadcasts_S160x1_S160x128 : S160x1.Broadcasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S160x128 : S1x128.Broadcasts S160x128
  slices_S600x128_S600x50_0_0 : S600x128.Slices ![0, 0] S600x50
  shapeCasts_S2x300x81_S600x81 : S2x300x81.ShapeCasts S600x81
  reducesTo_S600x81_S600_d1 : S600x81.ReducesTo [1] S600
  bcast_S_S600 : S_.BroadcastsInDim S600 (![] : Fin 0 → Fin S600.rank)
  bcast_S600_S600x1_0 : S600.BroadcastsInDim S600x1 (![0] : Fin 1 → Fin S600x1.rank)
  bcast_S600x1_S600x81_0_1 : S600x1.BroadcastsInDim S600x81 (![0, 1] : Fin 2 → Fin S600x81.rank)
  bcast_S_S50 : S_.BroadcastsInDim S50 (![] : Fin 0 → Fin S50.rank)
  bcast_S50_S50x1_0 : S50.BroadcastsInDim S50x1 (![0] : Fin 1 → Fin S50x1.rank)
  bcast_S_S50x1 : S_.BroadcastsInDim S50x1 (![] : Fin 0 → Fin S50x1.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  reducesTo_S50x1_S50_d1 : S50x1.ReducesTo [1] S50
  bcast_S50_S600x50_1 : S50.BroadcastsInDim S600x50 (![1] : Fin 1 → Fin S600x50.rank)
  bcast_S_S600x50 : S_.BroadcastsInDim S600x50 (![] : Fin 0 → Fin S600x50.rank)
  shapeCasts_S2x300x4_S600x4 : S2x300x4.ShapeCasts S600x4
  slices_S50x4_S50x1_0_0 : S50x4.Slices ![0, 0] S50x1
  shapeCasts_S50x1_S50 : S50x1.ShapeCasts S50
  slices_S50x4_S50x1_0_2 : S50x4.Slices ![0, 2] S50x1
  slices_S2_S1_1 : S2.Slices ![1] S1
  shapeCasts_S1_S_ : S1.ShapeCasts S_
  slices_S50x4_S50x1_0_1 : S50x4.Slices ![0, 1] S50x1
  slices_S50x4_S50x1_0_3 : S50x4.Slices ![0, 3] S50x1
  slices_S2_S1_0 : S2.Slices ![0] S1
  concatenates_S50x1_S50x1_S50x1_S50x1_S50x4_d1 : Shape.Concatenates [S50x1, S50x1, S50x1, S50x1] S50x4 1
  bcast_S600x4_S600x1x4_0_2 : S600x4.BroadcastsInDim S600x1x4 (![0, 2] : Fin 2 → Fin S600x1x4.rank)
  bcast_S50x4_S1x50x4_1_2 : S50x4.BroadcastsInDim S1x50x4 (![1, 2] : Fin 2 → Fin S1x50x4.rank)
  bcast_S600x1x4_S600x50x4_0_1_2 : S600x1x4.BroadcastsInDim S600x50x4 (![0, 1, 2] : Fin 3 → Fin S600x50x4.rank)
  bcast_S1x50x4_S600x50x4_0_1_2 : S1x50x4.BroadcastsInDim S600x50x4 (![0, 1, 2] : Fin 3 → Fin S600x50x4.rank)
  reducesTo_S600x50x4_S600x50_d2 : S600x50x4.ReducesTo [2] S600x50
  shapeCasts_S600x50_S2x300x50 : S600x50.ShapeCasts S2x300x50
  dot_S160x4096_S128x4096_S160x128_1_1_0_0_n_n_wf : DotDims.WF S160x4096 S128x4096 S160x128 [1] [1] [0] [0] [] []
  gather_S600x81_S50x1_S600x50_0_1_n_n_1_1_6001_wf : GatherDims.WF S600x81 S50x1 S600x50 [0] [1] [] [1] [] 1 ![600, 1]
  hrank0 : 0 < grid0.rank
  k0_mult1_dvd : ∀ i : grid0.Coords, 128 ∣ (k0_mult1 i).toNat
  k0_off1_inb : ∀ i : grid0.Coords, ∀ a, (k0_off1 i) a + S128x4096.size a ≤ S128x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S160x4096.size a < S600x65536.size a
  hwx0_0 : ∀ i : grid0.Coords, EltTy.bits .f32 = 32 ∨ (Rect.unit (s := S600x65536) (fun a => cc0_transform_0 i a * S160x4096.size a) (fun a => (Pipeline.Clip.of (cc0_transform_0 i a) (S160x4096.size a) (S600x65536.size a)).extent (S160x4096.size a)) fun a => Pipeline.Clip.inb (Pipeline.Clip.ok_of (hstart0_0 i a))).WholeWords (EltTy.packing .f32)
  hwxs0_0 : ∀ i : grid0.Coords, EltTy.bits .f32 = 32 ∨ (Rect.unit (s := S160x4096) (fun _ => 0) (fun a => (Pipeline.Clip.of (cc0_transform_0 i a) (S160x4096.size a) (S600x65536.size a)).extent (S160x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x65536.size a ≤ S128x65536.size a
  hwx0_1 : ∀ i : grid0.Coords, EltTy.bits .bf16 = 32 ∨ (Rect.block (s := S128x65536) S128x65536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S160x128.size a < S600x128.size a
  hwx0_3 : ∀ i : grid0.Coords, EltTy.bits .f32 = 32 ∨ (Rect.unit (s := S600x128) (fun a => cc0_transform_3 i a * S160x128.size a) (fun a => (Pipeline.Clip.of (cc0_transform_3 i a) (S160x128.size a) (S600x128.size a)).extent (S160x128.size a)) fun a => Pipeline.Clip.inb (Pipeline.Clip.ok_of (hstart0_3 i a))).WholeWords (EltTy.packing .f32)
  hwxs0_3 : ∀ i : grid0.Coords, EltTy.bits .f32 = 32 ∨ (Rect.unit (s := S160x128) (fun _ => 0) (fun a => (Pipeline.Clip.of (cc0_transform_3 i a) (S160x128.size a) (S600x128.size a)).extent (S160x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S160x128.size a < S600x128.size a
  hwx0_4 : ∀ i : grid0.Coords, EltTy.bits .f32 = 32 ∨ (Rect.unit (s := S600x128) (fun a => cc0_transform_4 i a * S160x128.size a) (fun a => (Pipeline.Clip.of (cc0_transform_4 i a) (S160x128.size a) (S600x128.size a)).extent (S160x128.size a)) fun a => Pipeline.Clip.inb (Pipeline.Clip.ok_of (hstart0_4 i a))).WholeWords (EltTy.packing .f32)
  hwxs0_4 : ∀ i : grid0.Coords, EltTy.bits .f32 = 32 ∨ (Rect.unit (s := S160x128) (fun _ => 0) (fun a => (Pipeline.Clip.of (cc0_transform_4 i a) (S160x128.size a) (S600x128.size a)).extent (S160x128.size a)) fun a => (Nat.zero_add _).trans_le (Pipeline.Clip.extent_le (Pipeline.Clip.ok_of (hstart0_4 i a)))).WholeWords (EltTy.packing .f32)

variable [Facts₀]

def dot_S160x4096_S128x4096_S160x128_1_1_0_0_n_n : DotDims S160x4096 S128x4096 S160x128 where
  lhsContracting := [1]
  rhsContracting := [1]
  lhsNonContracting := [0]
  rhsNonContracting := [0]
  lhsBatch := []
  rhsBatch := []
  wf := dot_S160x4096_S128x4096_S160x128_1_1_0_0_n_n_wf
def gather_S600x81_S50x1_S600x50_0_1_n_n_1_1_6001 : GatherDims S600x81 S50x1 S600x50 where
  offsetDims := [0]
  collapsedSliceDims := [1]
  operandBatchingDims := []
  startIndicesBatchingDims := []
  startIndexMap := [1]
  indexVectorDim := 1
  sliceSizes := ![600, 1]
  wf := gather_S600x81_S50x1_S600x50_0_1_n_n_1_1_6001_wf

abbrev win0_0 : Pipeline.Window sig grid0 :=
  Pipeline.Window.ofSpecClip (Memref.whole main_v0) S160x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S128x65536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v9_0) S160x128.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v9_1) S160x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x300x81 : Shape := ⟨3, ![2, 300, 81]⟩
abbrev S2x300x256x256 : Shape := ⟨4, ![2, 300, 256, 256]⟩
abbrev S2x300x4 : Shape := ⟨3, ![2, 300, 4]⟩
abbrev S50x4 : Shape := ⟨2, ![50, 4]⟩
abbrev S50 : Shape := ⟨1, ![50]⟩
abbrev S50x256x256 : Shape := ⟨3, ![50, 256, 256]⟩
abbrev S2 : Shape := ⟨1, ![2]⟩
abbrev S600x81 : Shape := ⟨2, ![600, 81]⟩
abbrev S_ : Shape := ⟨0, ![]⟩
abbrev S600 : Shape := ⟨1, ![600]⟩
abbrev S600x1 : Shape := ⟨2, ![600, 1]⟩
abbrev S600x65536 : Shape := ⟨2, ![600, 65536]⟩
abbrev S50x65536 : Shape := ⟨2, ![50, 65536]⟩
abbrev S600x4 : Shape := ⟨2, ![600, 4]⟩
abbrev S50x1 : Shape := ⟨2, ![50, 1]⟩
abbrev S600x50 : Shape := ⟨2, ![600, 50]⟩
abbrev S65536x50 : Shape := ⟨2, ![65536, 50]⟩
abbrev S1x50 : Shape := ⟨2, ![1, 50]⟩
abbrev S1 : Shape := ⟨1, ![1]⟩
abbrev S600x1x4 : Shape := ⟨3, ![600, 1, 4]⟩
abbrev S1x50x4 : Shape := ⟨3, ![1, 50, 4]⟩
abbrev S600x50x4 : Shape := ⟨3, ![600, 50, 4]⟩
abbrev S2x300x50 : Shape := ⟨3, ![2, 300, 50]⟩

abbrev nBuf : Space → Nat
  | .hbm => 191
  | .vmem => 0
  | .smem => 0
  | _ => 0

abbrev hbmTy0_0 (i : Nat) : BufTy := match i % 128 with
  | 0 => ⟨S2x300x81, .f32⟩
  | 1 => ⟨S2x300x256x256, .f32⟩
  | 2 => ⟨S2x300x4, .f32⟩
  | 3 => ⟨S50x4, .f32⟩
  | 4 => ⟨S50, .i32⟩
  | 5 => ⟨S50x256x256, .i32⟩
  | 6 => ⟨S2, .i32⟩
  | 7 => ⟨S600x81, .f32⟩
  | 8 => ⟨S_, .f32⟩
  | 9 => ⟨S600, .f32⟩
  | 10 => ⟨S_, .f32⟩
  | 11 => ⟨S600, .f32⟩
  | 12 => ⟨S600, .f32⟩
  | 13 => ⟨S600x1, .f32⟩
  | 14 => ⟨S600x81, .f32⟩
  | 15 => ⟨S600x81, .f32⟩
  | 16 => ⟨S600x81, .f32⟩
  | 17 => ⟨S_, .f32⟩
  | 18 => ⟨S600, .f32⟩
  | 19 => ⟨S600x1, .f32⟩
  | 20 => ⟨S600x81, .f32⟩
  | 21 => ⟨S600x81, .f32⟩
  | 22 => ⟨S600x65536, .f32⟩
  | 23 => ⟨S50x65536, .i32⟩
  | 24 => ⟨S50x65536, .f32⟩
  | 25 => ⟨S600x4, .f32⟩
  | 26 => ⟨S_, .i32⟩
  | 27 => ⟨S50, .i32⟩
  | 28 => ⟨S50, .i1⟩
  | 29 => ⟨S_, .i32⟩
  | 30 => ⟨S50, .i32⟩
  | 31 => ⟨S50, .i32⟩
  | 32 => ⟨S50, .i32⟩
  | 33 => ⟨S50x1, .i32⟩
  | 34 => ⟨S600x50, .f32⟩
  | 35 => ⟨S600x50, .f32⟩
  | 36 => ⟨S600x65536, .f32⟩
  | 37 => ⟨S600x65536, .f32⟩
  | 38 => ⟨S_, .f32⟩
  | 39 => ⟨S600x65536, .f32⟩
  | 40 => ⟨S600x65536, .f32⟩
  | 41 => ⟨S_, .f32⟩
  | 42 => ⟨S600x65536, .f32⟩
  | 43 => ⟨S600x65536, .f32⟩
  | 44 => ⟨S600x65536, .f32⟩
  | 45 => ⟨S_, .f32⟩
  | 46 => ⟨S600x65536, .f32⟩
  | 47 => ⟨S600x65536, .f32⟩
  | 48 => ⟨S600x65536, .f32⟩
  | 49 => ⟨S600x65536, .f32⟩
  | 50 => ⟨S600x65536, .i1⟩
  | 51 => ⟨S600x65536, .f32⟩
  | 52 => ⟨S600x65536, .f32⟩
  | 53 => ⟨S600x65536, .f32⟩
  | 54 => ⟨S600x65536, .f32⟩
  | 55 => ⟨S600x65536, .f32⟩
  | 56 => ⟨S600x65536, .f32⟩
  | 57 => ⟨S600x65536, .f32⟩
  | 58 => ⟨S600x65536, .f32⟩
  | 59 => ⟨S_, .f32⟩
  | 60 => ⟨S600x65536, .f32⟩
  | 61 => ⟨S600x65536, .f32⟩
  | 62 => ⟨S_, .f32⟩
  | 63 => ⟨S600x65536, .f32⟩
  | 64 => ⟨S600x65536, .f32⟩
  | 65 => ⟨S_, .f32⟩
  | 66 => ⟨S600x65536, .f32⟩
  | 67 => ⟨S600x65536, .f32⟩
  | 68 => ⟨S600x65536, .f32⟩
  | 69 => ⟨S_, .f32⟩
  | 70 => ⟨S600x65536, .f32⟩
  | 71 => ⟨S600x65536, .f32⟩
  | 72 => ⟨S600x65536, .f32⟩
  | 73 => ⟨S600x65536, .f32⟩
  | 74 => ⟨S600x65536, .i1⟩
  | 75 => ⟨S600x65536, .f32⟩
  | 76 => ⟨S600x65536, .f32⟩
  | 77 => ⟨S600x65536, .f32⟩
  | 78 => ⟨S600x65536, .f32⟩
  | 79 => ⟨S600x65536, .f32⟩
  | 80 => ⟨S600x65536, .f32⟩
  | 81 => ⟨S600x65536, .f32⟩
  | 82 => ⟨S600x65536, .f32⟩
  | 83 => ⟨S_, .f32⟩
  | 84 => ⟨S600x65536, .f32⟩
  | 85 => ⟨S600x65536, .f32⟩
  | 86 => ⟨S_, .f32⟩
  | 87 => ⟨S600x65536, .f32⟩
  | 88 => ⟨S600x65536, .f32⟩
  | 89 => ⟨S600x65536, .f32⟩
  | 90 => ⟨S600x65536, .f32⟩
  | 91 => ⟨S65536x50, .f32⟩
  | 92 => ⟨S600x50, .f32⟩
  | 93 => ⟨S_, .f32⟩
  | 94 => ⟨S600, .f32⟩
  | 95 => ⟨S600x1, .f32⟩
  | 96 => ⟨S600x50, .f32⟩
  | 97 => ⟨S600x50, .f32⟩
  | 98 => ⟨S_, .f32⟩
  | 99 => ⟨S600x50, .f32⟩
  | 100 => ⟨S600x50, .f32⟩
  | 101 => ⟨S65536x50, .f32⟩
  | 102 => ⟨S600x50, .f32⟩
  | 103 => ⟨S_, .f32⟩
  | 104 => ⟨S600, .f32⟩
  | 105 => ⟨S600x1, .f32⟩
  | 106 => ⟨S_, .f32⟩
  | 107 => ⟨S50, .f32⟩
  | 108 => ⟨S1x50, .f32⟩
  | 109 => ⟨S600x50, .f32⟩
  | 110 => ⟨S600x50, .f32⟩
  | 111 => ⟨S600x50, .f32⟩
  | 112 => ⟨S_, .f32⟩
  | 113 => ⟨S600x50, .f32⟩
  | 114 => ⟨S600x50, .f32⟩
  | 115 => ⟨S_, .f32⟩
  | 116 => ⟨S600x50, .f32⟩
  | 117 => ⟨S600x50, .f32⟩
  | 118 => ⟨S_, .f32⟩
  | 119 => ⟨S600x50, .f32⟩
  | 120 => ⟨S600x50, .f32⟩
  | 121 => ⟨S600x50, .f32⟩
  | 122 => ⟨S_, .f32⟩
  | 123 => ⟨S600x50, .f32⟩
  | 124 => ⟨S600x50, .f32⟩
  | 125 => ⟨S2, .f32⟩
  | 126 => ⟨S50x1, .f32⟩
  | 127 => ⟨S50, .f32⟩
  | _ => ⟨S2x300x81, .f32⟩

abbrev hbmTy0_1 (i : Nat) : BufTy := match i % 128 with
  | 0 => ⟨S50x1, .f32⟩
  | 1 => ⟨S50, .f32⟩
  | 2 => ⟨S_, .f32⟩
  | 3 => ⟨S50, .f32⟩
  | 4 => ⟨S50, .f32⟩
  | 5 => ⟨S50, .f32⟩
  | 6 => ⟨S1, .f32⟩
  | 7 => ⟨S_, .f32⟩
  | 8 => ⟨S50, .f32⟩
  | 9 => ⟨S50, .f32⟩
  | 10 => ⟨S50x1, .f32⟩
  | 11 => ⟨S50, .f32⟩
  | 12 => ⟨S50x1, .f32⟩
  | 13 => ⟨S50, .f32⟩
  | 14 => ⟨S_, .f32⟩
  | 15 => ⟨S50, .f32⟩
  | 16 => ⟨S50, .f32⟩
  | 17 => ⟨S50, .f32⟩
  | 18 => ⟨S1, .f32⟩
  | 19 => ⟨S_, .f32⟩
  | 20 => ⟨S50, .f32⟩
  | 21 => ⟨S50, .f32⟩
  | 22 => ⟨S50x1, .f32⟩
  | 23 => ⟨S50, .f32⟩
  | 24 => ⟨S1, .f32⟩
  | 25 => ⟨S_, .f32⟩
  | 26 => ⟨S50, .f32⟩
  | 27 => ⟨S50, .f32⟩
  | 28 => ⟨S50x1, .f32⟩
  | 29 => ⟨S50, .f32⟩
  | 30 => ⟨S1, .f32⟩
  | 31 => ⟨S_, .f32⟩
  | 32 => ⟨S50, .f32⟩
  | 33 => ⟨S50, .f32⟩
  | 34 => ⟨S50x1, .f32⟩
  | 35 => ⟨S50x1, .f32⟩
  | 36 => ⟨S50x1, .f32⟩
  | 37 => ⟨S50x1, .f32⟩
  | 38 => ⟨S50x4, .f32⟩
  | 39 => ⟨S600x1x4, .f32⟩
  | 40 => ⟨S1x50x4, .f32⟩
  | 41 => ⟨S600x50x4, .f32⟩
  | 42 => ⟨S600x50x4, .f32⟩
  | 43 => ⟨S600x50x4, .f32⟩
  | 44 => ⟨S600x50x4, .f32⟩
  | 45 => ⟨S_, .f32⟩
  | 46 => ⟨S600x50, .f32⟩
  | 47 => ⟨S_, .f32⟩
  | 48 => ⟨S600x50, .f32⟩
  | 49 => ⟨S600x50, .f32⟩
  | 50 => ⟨S_, .f32⟩
  | 51 => ⟨S600x50, .f32⟩
  | 52 => ⟨S600x50, .f32⟩
  | 53 => ⟨S600x50, .f32⟩
  | 54 => ⟨S_, .f32⟩
  | 55 => ⟨S600x50, .f32⟩
  | 56 => ⟨S600x50, .f32⟩
  | 57 => ⟨S600x50, .f32⟩
  | 58 => ⟨S_, .f32⟩
  | 59 => ⟨S600x50, .f32⟩
  | 60 => ⟨S600x50, .f32⟩
  | 61 => ⟨S600x50, .f32⟩
  | 62 => ⟨S2x300x50, .f32⟩
  | _ => ⟨S2x300x81, .f32⟩

abbrev hbmTy (i : Nat) : BufTy := match i / 128 with
  | 0 => hbmTy0_0 i
  | 1 => hbmTy0_1 i
  | _ => ⟨S2x300x81, .f32⟩

abbrev bufTy : (tb : Table) → Fin (tcTables nBuf tb) → BufTy
  | .hbm, ⟨i, _⟩ => hbmTy i
  | _, _ => ⟨S2x300x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v39 : Ref sig .tc := ⟨.hbm, 82, rfl⟩
abbrev main_cst_8 : Ref sig .tc := ⟨.hbm, 83, rfl⟩
abbrev main_v40 : Ref sig .tc := ⟨.hbm, 84, rfl⟩
abbrev main_v41 : Ref sig .tc := ⟨.hbm, 85, rfl⟩
abbrev main_cst_9 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_10 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_cst_13 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_v64 : Ref sig .tc := ⟨.hbm, 114, rfl⟩
abbrev main_cst_15 : Ref sig .tc := ⟨.hbm, 115, rfl⟩
abbrev main_v65 : Ref sig .tc := ⟨.hbm, 116, rfl⟩
abbrev main_v66 : Ref sig .tc := ⟨.hbm, 117, rfl⟩
abbrev main_cst_16 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_17 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_18 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_20 : Ref sig .tc := ⟨.hbm, 173, rfl⟩
abbrev main_v118 : Ref sig .tc := ⟨.hbm, 174, rfl⟩
abbrev main_cst_21 : Ref sig .tc := ⟨.hbm, 175, rfl⟩
abbrev main_v119 : Ref sig .tc := ⟨.hbm, 176, rfl⟩
abbrev main_v120 : Ref sig .tc := ⟨.hbm, 177, rfl⟩
abbrev main_cst_22 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_23 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_24 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩

abbrev nD : Nat := 1
abbrev τ : Topo := Topo.v7x

variable {F : FTy → Type} [FloatOps F]

class Facts₀ : Prop where
  shapeCasts_S2x300x81_S600x81 : S2x300x81.ShapeCasts S600x81
  reducesTo_S600x81_S600_d1 : S600x81.ReducesTo [1] S600
  h_S_ : 0 < S_.numel
  bcast_S_S600 : S_.BroadcastsInDim S600 (![] : Fin 0 → Fin S600.rank)
  bcast_S600_S600x1_0 : S600.BroadcastsInDim S600x1 (![0] : Fin 1 → Fin S600x1.rank)
  bcast_S600x1_S600x81_0_1 : S600x1.BroadcastsInDim S600x81 (![0, 1] : Fin 2 → Fin S600x81.rank)
  shapeCasts_S2x300x256x256_S600x65536 : S2x300x256x256.ShapeCasts S600x65536
  shapeCasts_S50x256x256_S50x65536 : S50x256x256.ShapeCasts S50x65536
  shapeCasts_S2x300x4_S600x4 : S2x300x4.ShapeCasts S600x4
  bcast_S_S50 : S_.BroadcastsInDim S50 (![] : Fin 0 → Fin S50.rank)
  bcast_S50_S50x1_0 : S50.BroadcastsInDim S50x1 (![0] : Fin 1 → Fin S50x1.rank)
  bcast_S_S600x65536 : S_.BroadcastsInDim S600x65536 (![] : Fin 0 → Fin S600x65536.rank)
  transposes_S50x65536_S65536x50_1_0 : S50x65536.Transposes [1, 0] S65536x50
  reducesTo_S600x65536_S600_d1 : S600x65536.ReducesTo [1] S600
  bcast_S600x1_S600x50_0_1 : S600x1.BroadcastsInDim S600x50 (![0, 1] : Fin 2 → Fin S600x50.rank)
  bcast_S_S600x50 : S_.BroadcastsInDim S600x50 (![] : Fin 0 → Fin S600x50.rank)
  reducesTo_S50x65536_S50_d1 : S50x65536.ReducesTo [1] S50
  bcast_S50_S1x50_1 : S50.BroadcastsInDim S1x50 (![1] : Fin 1 → Fin S1x50.rank)
  bcast_S1x50_S600x50_0_1 : S1x50.BroadcastsInDim S600x50 (![0, 1] : Fin 2 → Fin S600x50.rank)
  slices_S50x4_S50x1_0_0 : S50x4.Slices ![0, 0] S50x1
  shapeCasts_S50x1_S50 : S50x1.ShapeCasts S50
  slices_S50x4_S50x1_0_2 : S50x4.Slices ![0, 2] S50x1
  slices_S2_S1_1 : S2.Slices ![1] S1
  shapeCasts_S1_S_ : S1.ShapeCasts S_
  slices_S50x4_S50x1_0_1 : S50x4.Slices ![0, 1] S50x1
  slices_S50x4_S50x1_0_3 : S50x4.Slices ![0, 3] S50x1
  slices_S2_S1_0 : S2.Slices ![0] S1
  concatenates_S50x1_S50x1_S50x1_S50x1_S50x4_d1 : Shape.Concatenates [S50x1, S50x1, S50x1, S50x1] S50x4 1
  bcast_S600x4_S600x1x4_0_2 : S600x4.BroadcastsInDim S600x1x4 (![0, 2] : Fin 2 → Fin S600x1x4.rank)
  bcast_S50x4_S1x50x4_1_2 : S50x4.BroadcastsInDim S1x50x4 (![1, 2] : Fin 2 → Fin S1x50x4.rank)
  bcast_S600x1x4_S600x50x4_0_1_2 : S600x1x4.BroadcastsInDim S600x50x4 (![0, 1, 2] : Fin 3 → Fin S600x50x4.rank)
  bcast_S1x50x4_S600x50x4_0_1_2 : S1x50x4.BroadcastsInDim S600x50x4 (![0, 1, 2] : Fin 3 → Fin S600x50x4.rank)
  reducesTo_S600x50x4_S600x50_d2 : S600x50x4.ReducesTo [2] S600x50
  shapeCasts_S600x50_S2x300x50 : S600x50.ShapeCasts S2x300x50
  gather_S600x81_S50x1_S600x50_0_1_n_n_1_1_6001_wf : GatherDims.WF S600x81 S50x1 S600x50 [0] [1] [] [1] [] 1 ![600, 1]
  dot_S600x65536_S65536x50_S600x50_1_0_0_1_n_n_wf : DotDims.WF S600x65536 S65536x50 S600x50 [1] [0] [0] [1] [] []

variable [Facts₀]

def gather_S600x81_S50x1_S600x50_0_1_n_n_1_1_6001 : GatherDims S600x81 S50x1 S600x50 where
  offsetDims := [0]
  collapsedSliceDims := [1]
  operandBatchingDims := []
  startIndicesBatchingDims := []
  startIndexMap := [1]
  indexVectorDim := 1
  sliceSizes := ![600, 1]
  wf := gather_S600x81_S50x1_S600x50_0_1_n_n_1_1_6001_wf
def dot_S600x65536_S65536x50_S600x50_1_0_0_1_n_n : DotDims S600x65536 S65536x50 S600x50 where
  lhsContracting := [1]
  rhsContracting := [0]
  lhsNonContracting := [0]
  rhsNonContracting := [1]
  lhsBatch := []
  rhsBatch := []
  wf := dot_S600x65536_S65536x50_S600x50_1_0_0_1_n_n_wf

class Facts : Prop extends Facts₀ where

variable [Facts]
-- ==== Proof.Conds.lean ====
/-
  The two branch conditions of the mask/dice kernel's body, as propositions over a grid point's coordinates, and
  where on the 4 x 16 grid each holds. Point t is (n, l) = (t / 16, t % 16): n is the block of 160 query rows, l the
  block of 4096 pixels. The accumulators are reset where l = 0 and the two cost blocks are computed and stored where
  l = 15; so a point is in exactly one of three cases: first pixel block, a middle one, the last.
-/
import proofs.«412977_j52527450030676_2_alg».proof.Proof.Gen.KernelIdeal.Launch
import proofs.«412977_j52527450030676_2_alg».proof.Proof.Gen.KernelIdeal.Skeleton
import proofs.«412977_j52527450030676_2_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- "This is the first pixel block" (l = 0): the condition under which the body zeroes its four accumulators. -/
abbrev cond0_0 (i : grid0.Coords) : Prop :=
  (Scalar.cmpi .ne (Scalar.extui (Scalar.cmpi .eq (BitVec.ofNat 32 (i 1).val) 0#32)) 0#32) = 1#1
/-- It holds exactly at the points t with t % 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last pixel block" (l = 15): the condition under which the body computes and stores the two costs. -/
abbrev cond0_1 (i : grid0.Coords) : Prop := k0_cond2 i = 1#1
/-- It holds exactly at the points t with t % 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-- The four accumulators (mask, intersection, negative-sum, probability-sum), whole scoped buffers of the kernel's own. -/
abbrev scM0_0 : Memref sig .tc .vmem S160x128 .f32 := Memref.whole cc0_scratch0
abbrev scM0_1 : Memref sig .tc .vmem S160x128 .f32 := Memref.whole cc0_scratch1
abbrev scM0_2 : Memref sig .tc .vmem S160x128 .f32 := Memref.whole cc0_scratch2
abbrev scM0_3 : Memref sig .tc .vmem S160x128 .f32 := Memref.whole cc0_scratch3

/-- Each window's current staging memref at point t, spelled as the pipeline passes it to the body, and its wholeness. -/
abbrev ms0_0 (t : Fin cfg0.N) : Memref sig .tc .vmem S160x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x65536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.Kit.lean ====
/-
  The launch side of the mask/dice kernel's frame: @main as "five stretches of host operations, the pipelined
  region, three more stretches"; the buffer contents the region finds (the first five stretches run from the
  launch memory); the facts the frame theorem asks of the three later stretches (they touch unscoped
  references only, allocate nothing and write none of the five windows' arrays); the arguments of @main as
  the region finds them (no earlier operation writes one); each window's block at a grid point; where on the
  4 x 16 grid the two output windows are idle, live and written back; and the region's invariant spelled over
  the four accumulators.
-/
import proofs.«412977_j52527450030676_2_alg».proof.Proof.Conds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch memory after
    the five stretches of host operations that precede the region (the two reshapes, the cast and zero-padding of
    the target masks to 128 rows, the per-target pixel sums, their zero-padding and broadcast to one row). -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation of @main allocates a buffer: each stretch's operations have an empty fresh set. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main around the region, at any variants `𝒱₀`: the five stretches before it, the region, the three stretches
    after it; so @main reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The stretches after the region -/

/-- They touch the pipeline's arrays and the buffers that bypass the region only: each operation's buffers are
    unscoped TensorCore references, and with nothing prefetched every such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the first later stretch writes an array of the pipeline: each writes only its own result buffer,
    a value of @main's body that is none of the five arrays. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
/-- Nor does one of the second (the class-probability gather). -/
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 4000000 in
/-- Nor one of the third (the box cost and the weighted sum of the four costs). -/
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)

/-- So the later stretches write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## @main's arguments as the region finds them

No host operation before the region writes an argument of @main (each writes only its own result buffer, a value
of @main's body), so the region finds every argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Where the windows are idle, live and written back

A point is in exactly one of three cases: A, the first pixel block (the accumulators are reset, nothing is stored to
the outputs); B, a middle one (neither); C, the last (the two cost blocks are computed and stored). -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- In case A the first cost output is idle: the body stores nothing into it. -/
theorem idleAt0_3_A : ∀ t : Fin cfg0.N, cond0_0 (grid0.coords t) → ¬cond0_1 (grid0.coords t) → cfg0.idle 3 (grid0.coords t) = true := by decide +kernel
/-- In case A its block is not written back. -/
theorem noFlush0_3_A : ∀ t : Fin cfg0.N, cond0_0 (grid0.coords t) → ¬cond0_1 (grid0.coords t) → (cfg0.win 3).flush t = false := by decide +kernel
/-- In case B the first cost output is idle. -/
theorem idleAt0_3_B : ∀ t : Fin cfg0.N, ¬cond0_0 (grid0.coords t) → ¬cond0_1 (grid0.coords t) → cfg0.idle 3 (grid0.coords t) = true := by decide +kernel
/-- In case B its block is not written back. -/
theorem noFlush0_3_B : ∀ t : Fin cfg0.N, ¬cond0_0 (grid0.coords t) → ¬cond0_1 (grid0.coords t) → (cfg0.win 3).flush t = false := by decide +kernel
/-- In case C the first cost output is live: the body stores into it. -/
theorem liveAt0_3_C : ∀ t : Fin cfg0.N, ¬cond0_0 (grid0.coords t) → cond0_1 (grid0.coords t) → cfg0.idle 3 (grid0.coords t) = false := by decide +kernel

/-- The same five facts for the second cost output. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-- Which windows the configuration calls loose (handed back only on the part of the block that lies inside the
    array): the three whose last row block overhangs the 600 rows — the mask logits and the two cost outputs. -/
theorem loose0_0 : cfg0.loose 0 = true := rfl
theorem loose0_1 : cfg0.loose 1 = false := rfl
theorem loose0_2 : cfg0.loose 2 = false := rfl
theorem loose0_3 : cfg0.loose 3 = true := rfl
theorem loose0_4 : cfg0.loose 4 = true := rfl

/-! ## The region's invariant over the accumulators -/

/-- The frame kit's invariant with the four accumulators as memrefs owned at some contents, beside the core's
    random-number register: what the body obligation hands the body and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunA.lean ====
/-
  The body's run at the first pixel block of a row block (l = 0). The four accumulators may hold anything when the
  body starts: it stores zero over each of them before it reads any, and then adds this block's contribution, so
  each accumulator ends with two stores, the zero fill below the update. The two cost blocks are not touched.
  The lists of stores the run finds for the accumulators are the witness; the property is the body's triple.
-/
import proofs.«412977_j52527450030676_2_alg».proof.Proof.Conds
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    Σ' (LS0 LS1 LS2 : List (View.Piece (Elt F) S160x128 .f32)), { LS3 : List (View.Piece (Elt F) S160x128 .f32) //
      ∀ (xi3 xi4 : Vec F S160x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, fun xi3 xi4 E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.RunB.lean ====
/-
  The body's run at a middle pixel block (0 < l < 15): every accumulator comes in at the contents the block before
  left and goes out with one store, this block's contribution added to what it held. The two cost blocks are not
  touched. The lists of stores the run finds for the accumulators are the witness; the property is the body's triple.
-/
import proofs.«412977_j52527450030676_2_alg».proof.Proof.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    Σ' (LS0 LS1 LS2 : List (View.Piece (Elt F) S160x128 .f32)), { LS3 : List (View.Piece (Elt F) S160x128 .f32) //
      ∀ (xi3 xi4 : Vec F S160x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, fun xi3 xi4 E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.RunC.lean ====
/-
  The body's run at the last pixel block of a row block (l = 15): every accumulator comes in at the contents the
  block before left and gets this block's contribution added; then the two cost blocks, which may hold anything,
  are computed from the finished accumulators and the target sums and stored whole. The lists of stores the run
  finds for the two cost blocks and the four accumulators are the witness; the property is the body's triple.
-/
import proofs.«412977_j52527450030676_2_alg».proof.Proof.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    Σ' (L3 L4 LS0 LS1 LS2 : List (View.Piece (Elt F) S160x128 .f32)), { LS3 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.FrameR.lean ====
/-
  The frame of the mask/dice kernel's program with the two cost outputs forgotten: @main runs to the end, nothing
  faulting, and its seven arguments end as launched.

  The mask logits' window is clipped: its last row block overhangs the 600 query rows by 40, so what the body finds in
  that window's buffer is the array's block on the rows inside the array and words nothing names on the 40 rows past
  it. The four accumulators and the two cost blocks are computed from the whole buffer, those rows included, so at a
  generic float type their contents have no name; the frame claim reads none of them. So the proof data name only
  the three inputs' buffers (the logits' on the rows inside the array), the two outputs are forgotten (handed to the
  body at anything and taken back at anything), and the accumulators live in the region's invariant at anything.
  The body obligation is then the three runs of the body, one per case of its two branches, with every buffer the
  run stores to handed back at some contents. After the region @main goes on with three stretches of host operations;
  they write values of @main's body only, never an argument, so each argument, which bypasses the region, ends at its
  region-entry contents, which are the launch contents.
-/
import proofs.«412977_j52527450030676_2_alg».proof.Proof.Kit
import proofs.«412977_j52527450030676_2_alg».proof.Proof.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows forgotten: the two cost outputs (3 and 4). Nothing the frame claim states reads what the kernel
    leaves in them. -/
def forgets0 : Fin 5 → Bool := fun w => w.val == 3 || w.val == 4

/-- The proof data of the one pipeline on core `c`: the arrays as the region finds them; after the body at point
    `t` the logits' buffer at its block on the rows inside the array (filled out with words nothing reads), the target
    masks' and target sums' buffers at their blocks, the two forgotten outputs at contents nothing names; the
    invariant the four accumulators at anything beside the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (Pipeline.Dat.unnamed (cfg := cfg0) 0 t) (iblk m c 0 t)
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the inputs' buffers, window by window. -/
theorem after0_0 (c : Dev nD) (t : Fin cfg0.N) : (dats m 0 c).after 0 t
    = (cfg0.win 0).fill (grid0.coords t) (Pipeline.Dat.unnamed (cfg := cfg0) 0 t) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- On the rows inside the array the logits' buffer is left at the block. -/
theorem cut_after0_0 (c : Dev nD) (t : Fin cfg0.N) :
    (cfg0.win 0).cut (grid0.coords t) ((dats m 0 c).after 0 t) = iblk m c 0 t := by
  rw [after0_0]; exact (cfg0.win 0).cut_fill _ _ _

/-- The logits' window is fetched at every point: the body finds the block on the rows inside the array and, past
    them, whatever the buffer held (`d`). -/
theorem before0_0 (c : Dev nD) (t : Fin cfg0.N) (d) :
    (dats m 0 c).before 0 t d = (cfg0.win 0).fill (grid0.coords t) d (iblk m c 0 t) := by
  unfold Dat.before; rw [if_pos (fetch0_0 t)]
  unfold Dat.fetched Dat.blockOf iblk; rw [A_eq]

/-- The target masks' and the target sums' windows are uncut and resident (fetched at the first point only): at every
    point the body finds their blocks, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

/-- A buffer the run has stored to, whatever it then holds, is owned at some contents. -/
theorem owns_of_writes (c : Dev nD) {sh : Shape} {e : EltTy} (M : Memref sig .tc .vmem sh e)
    (L : List (View.Piece (Elt F) sh e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  iexists M.view.read (Elt F) (M.view.writes (Elt F) f L)
  iapply (owns_intro (c : Thread nD τ) M fullShare (M.view.writes (Elt F) f L))
  iexact H

/-- What the body is called with at point `t`: the invariant, the core's tallies, each input's buffer at what it then
    holds and each forgotten output's at anything; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns: the logits' buffer stated on the rows inside the array only (the window is clipped), the
    other two inputs' at their blocks, each forgotten output's at anything. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare
        ((cfg0.win 0).fill (grid0.coords t) d ((cfg0.win 0).cut (grid0.coords t) ((dats m 0 c).after 0 t))))
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

set_option maxHeartbeats 2000000 in
/-- The body at any point. The inputs' buffers hold their blocks; the point is in one of the three cases, and that case's
    run applies: it reads the inputs and leaves them in place, takes each accumulator and each output at what it
    holds, whatever that is, and hands each back at some contents; the invariant is the accumulators at anything, so it
    holds again; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cut_after0_0]
  simp only [before0_0, before0_1, before0_2, after0_1, after0_2]
  rw [show (dats m 0 c).Φ t.succ = _ from PhiA0_eq c, show (dats m 0 c).Φ t.castSucc = _ from PhiA0_eq c,
    show (dats m 0 c).owesAt () t.succ = (dats m 0 c).owesAt () t.castSucc from rfl]
  by_cases h0 : cond0_0 (grid0.coords t)
  · by_cases h1 : cond0_1 (grid0.coords t)
    · exfalso; have e0 := (hcond0_0 t).mp h0; have e1 := (hcond0_1 t).mp h1; omega
    · -- the first pixel block: the accumulators are reset
      iintro ⟨⟨⟨Hs0, Hs1, Hs2, Hs3⟩, Hr⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t)).2.2.2.property d3 d4 Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iexists d3; iexact H3
      iexists d4; iexact H4
  · by_cases h1 : cond0_1 (grid0.coords t)
    · -- the last pixel block: the two cost blocks are computed and stored
      iintro ⟨⟨⟨⟨%s0, Hs0⟩, ⟨%s1, Hs1⟩, ⟨%s2, Hs2⟩, ⟨%s3, Hs3⟩⟩, Hr⟩, Ho, ⟨%d0, H0⟩, ⟨%d1, H1⟩, ⟨%d2, H2⟩, H3, H4⟩
      iapply ((kernelRun0_C c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t) s0 s1 s2 s3).2.2.2.2.2.property Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iapply (owns_of_writes c _ _) $$ H3
      iapply (owns_of_writes c _ _) $$ H4
    · -- a middle pixel block: the accumulators gain this block's contribution
      iintro ⟨⟨⟨⟨%s0, Hs0⟩, ⟨%s1, Hs1⟩, ⟨%s2, Hs2⟩, ⟨%s3, Hs3⟩⟩, Hr⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t) s0 s1 s2 s3).2.2.2.property d3 d4 Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iexists d3; iexact H3
      iexists d4; iexact H4

/-- The library's body obligation in its loose form (the logits' window is clipped), the two outputs forgotten, at every
    point. -/
theorem body_obligation (c : Dev nD) :
    BodyObligationLoose (dats (F := F) m 0 c) (defs₀ (F := F)) Variants.none () Set.univ forgets0 := fun t => by
  rw [bigSep_W0, bigSep_W0]
  exact sound_body m c t

/-! ## What the later stretches write -/

/-- @main's seven arguments. -/
def argRefs : Finset (Ref sig .tc) := {main_arg0, main_arg1, main_arg2, main_arg3, main_arg4, main_arg5, main_arg6}

/-- Every reference that is no argument of @main: a set holding everything the stretches after the region write. -/
def T0 : Finset (Ref sig .tc) := argRefsᶜ

/-- Each operation of a stretch after the region writes only its own result buffer, a value of @main's body, never an
    argument. -/
theorem hostOps1_writes : (hostOps1 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))
theorem hostOps1_1_writes : (hostOps1_1 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))
set_option maxHeartbeats 4000000 in
theorem hostOps1_2_writes : (hostOps1_2 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))

/-- So the three stretches write within `T0`. -/
theorem sfx_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- An argument of @main is none of the references the later stretches write. -/
theorem not_mem_T0 {b : Ref sig .tc} (h : b ∈ argRefs) : b ∉ T0 := fun hb => (Finset.mem_compl.mp hb) h

/-! ## The run and the frame -/

set_option backward.isDefEq.respectTransparency.types false in
/-- At the compiled mesh, for any values, from any memory with zero counters: every weakly fair execution of @main on
    the TensorCores terminates, and every final state has every input array of the pipeline unchanged, nothing stated
    of the forgotten outputs, and every other unscoped buffer the later stretches do not write at its region-entry
    contents. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2]) (hsub := sfx_sub) (hfresh := sfx_fresh)
    (hkeep := sfx_keeps) (hT := sfx_writes) (hmain := hmain m Variants.none) (hA := A_eq m) (hΦ := fun _ _ => rfl)

/-- THE FRAME, at any float type: @main runs to the end and each of its seven arguments ends as launched. An argument
    is no array of the pipeline and nothing the later stretches write, so it ends at its region-entry contents, and no
    operation before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), not_mem_T0 (by decide)⟩)).trans (V_main_arg0 m c),
     ((h c).2 main_arg1 (Finset.mem_sdiff.mpr ⟨Pipeline.mem_restRefs_of main_arg1 (by decide) (by decide), not_mem_T0 (by decide)⟩)).trans (V_main_arg1 m c),
     ((h c).2 main_arg2 (Finset.mem_sdiff.mpr ⟨Pipeline.mem_restRefs_of main_arg2 (by decide) (by decide), not_mem_T0 (by decide)⟩)).trans (V_main_arg2 m c),
     ((h c).2 main_arg3 (Finset.mem_sdiff.mpr ⟨Pipeline.mem_restRefs_of main_arg3 (by decide) (by decide), not_mem_T0 (by decide)⟩)).trans (V_main_arg3 m c),
     ((h c).2 main_arg4 (Finset.mem_sdiff.mpr ⟨Pipeline.mem_restRefs_of main_arg4 (by decide) (by decide), not_mem_T0 (by decide)⟩)).trans (V_main_arg4 m c),
     ((h c).2 main_arg5 (Finset.mem_sdiff.mpr ⟨Pipeline.mem_restRefs_of main_arg5 (by decide) (by decide), not_mem_T0 (by decide)⟩)).trans (V_main_arg5 m c),
     ((h c).2 main_arg6 (Finset.mem_sdiff.mpr ⟨Pipeline.mem_restRefs_of main_arg6 (by decide) (by decide), not_mem_T0 (by decide)⟩)).trans (V_main_arg6 m c)⟩)
    (run_main m ρ)

end Cert.KernelIdeal.Hand

end
-- ==== Proof.KConds.lean ====
/-
  The two branch conditions of the mask/dice kernel's body, as propositions over a grid point's coordinates, and
  where on the 4 x 16 grid each holds. Point t is (n, l) = (t / 16, t % 16): n is the block of 160 query rows, l the
  block of 4096 pixels. The accumulators are reset where l = 0 and the two cost blocks are computed and stored where
  l = 15; so a point is in exactly one of three cases: first pixel block, a middle one, the last.
-/
import proofs.«412977_j52527450030676_2_alg».proof.Proof.Gen.Kernel.Launch
import proofs.«412977_j52527450030676_2_alg».proof.Proof.Gen.Kernel.Skeleton
import proofs.«412977_j52527450030676_2_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

/-- "This is the first pixel block" (l = 0): the condition under which the body zeroes its four accumulators. -/
abbrev cond0_0 (i : grid0.Coords) : Prop :=
  (Scalar.cmpi .ne (Scalar.extui (Scalar.cmpi .eq (BitVec.ofNat 32 (i 1).val) 0#32)) 0#32) = 1#1
/-- It holds exactly at the points t with t % 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last pixel block" (l = 15): the condition under which the body computes and stores the two costs. -/
abbrev cond0_1 (i : grid0.Coords) : Prop := k0_cond2 i = 1#1
/-- It holds exactly at the points t with t % 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-- The four accumulators (mask, intersection, negative-sum, probability-sum), whole scoped buffers of the kernel's own. -/
abbrev scM0_0 : Memref sig .tc .vmem S160x128 .f32 := Memref.whole cc0_scratch0
abbrev scM0_1 : Memref sig .tc .vmem S160x128 .f32 := Memref.whole cc0_scratch1
abbrev scM0_2 : Memref sig .tc .vmem S160x128 .f32 := Memref.whole cc0_scratch2
abbrev scM0_3 : Memref sig .tc .vmem S160x128 .f32 := Memref.whole cc0_scratch3

/-- Each window's current staging memref at point t, spelled as the pipeline passes it to the body, and its wholeness. -/
abbrev ms0_0 (t : Fin cfg0.N) : Memref sig .tc .vmem S160x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x65536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S160x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x128 .f32 := win0_4.stage (cfg0.slots t 4)
abbrev hs0_4 (t : Fin cfg0.N) : (ms0_4 t).IsWhole := hstage0_4 ((cfg0.slots t 4).cast nbuf0_4)

end Cert.Kernel.Hand

end
-- ==== Proof.KKit.lean ====
/-
  The launch side of the mask/dice kernel's frame: @main as "five stretches of host operations, the pipelined
  region, three more stretches"; the buffer contents the region finds (the first five stretches run from the
  launch memory); the facts the frame theorem asks of the three later stretches (they touch unscoped
  references only, allocate nothing and write none of the five windows' arrays); the arguments of @main as
  the region finds them (no earlier operation writes one); each window's block at a grid point; where on the
  4 x 16 grid the two output windows are idle, live and written back; and the region's invariant spelled over
  the four accumulators.
-/
import proofs.«412977_j52527450030676_2_alg».proof.Proof.KConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch memory after
    the five stretches of host operations that precede the region (the two reshapes, the cast and zero-padding of
    the target masks to 128 rows, the per-target pixel sums, their zero-padding and broadcast to one row). -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation of @main allocates a buffer: each stretch's operations have an empty fresh set. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main around the region, at any variants `𝒱₀`: the five stretches before it, the region, the three stretches
    after it; so @main reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The stretches after the region -/

/-- They touch the pipeline's arrays and the buffers that bypass the region only: each operation's buffers are
    unscoped TensorCore references, and with nothing prefetched every such reference is one or the other. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the first later stretch writes an array of the pipeline: each writes only its own result buffer,
    a value of @main's body that is none of the five arrays. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
/-- Nor does one of the second (the class-probability gather). -/
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 4000000 in
/-- Nor one of the third (the box cost and the weighted sum of the four costs). -/
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)

/-- So the later stretches write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## @main's arguments as the region finds them

No host operation before the region writes an argument of @main (each writes only its own result buffer, a value
of @main's body), so the region finds every argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Where the windows are idle, live and written back

A point is in exactly one of three cases: A, the first pixel block (the accumulators are reset, nothing is stored to
the outputs); B, a middle one (neither); C, the last (the two cost blocks are computed and stored). -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- In case A the first cost output is idle: the body stores nothing into it. -/
theorem idleAt0_3_A : ∀ t : Fin cfg0.N, cond0_0 (grid0.coords t) → ¬cond0_1 (grid0.coords t) → cfg0.idle 3 (grid0.coords t) = true := by decide +kernel
/-- In case A its block is not written back. -/
theorem noFlush0_3_A : ∀ t : Fin cfg0.N, cond0_0 (grid0.coords t) → ¬cond0_1 (grid0.coords t) → (cfg0.win 3).flush t = false := by decide +kernel
/-- In case B the first cost output is idle. -/
theorem idleAt0_3_B : ∀ t : Fin cfg0.N, ¬cond0_0 (grid0.coords t) → ¬cond0_1 (grid0.coords t) → cfg0.idle 3 (grid0.coords t) = true := by decide +kernel
/-- In case B its block is not written back. -/
theorem noFlush0_3_B : ∀ t : Fin cfg0.N, ¬cond0_0 (grid0.coords t) → ¬cond0_1 (grid0.coords t) → (cfg0.win 3).flush t = false := by decide +kernel
/-- In case C the first cost output is live: the body stores into it. -/
theorem liveAt0_3_C : ∀ t : Fin cfg0.N, ¬cond0_0 (grid0.coords t) → cond0_1 (grid0.coords t) → cfg0.idle 3 (grid0.coords t) = false := by decide +kernel

/-- The same five facts for the second cost output. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-- Which windows the configuration calls loose (handed back only on the part of the block that lies inside the
    array): the three whose last row block overhangs the 600 rows — the mask logits and the two cost outputs. -/
theorem loose0_0 : cfg0.loose 0 = true := rfl
theorem loose0_1 : cfg0.loose 1 = false := rfl
theorem loose0_2 : cfg0.loose 2 = false := rfl
theorem loose0_3 : cfg0.loose 3 = true := rfl
theorem loose0_4 : cfg0.loose 4 = true := rfl

/-! ## The region's invariant over the accumulators -/

/-- The frame kit's invariant with the four accumulators as memrefs owned at some contents, beside the core's
    random-number register: what the body obligation hands the body and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KRunA.lean ====
/-
  The body's run at the first pixel block of a row block (l = 0). The four accumulators may hold anything when the
  body starts: it stores zero over each of them before it reads any, and then adds this block's contribution, so
  each accumulator ends with two stores, the zero fill below the update. The two cost blocks are not touched.
  The lists of stores the run finds for the accumulators are the witness; the property is the body's triple.
-/
import proofs.«412977_j52527450030676_2_alg».proof.Proof.KConds
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    Σ' (LS0 LS1 LS2 : List (View.Piece (Elt F) S160x128 .f32)), { LS3 : List (View.Piece (Elt F) S160x128 .f32) //
      ∀ (xi3 xi4 : Vec F S160x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, fun xi3 xi4 E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.KRunB.lean ====
/-
  The body's run at a middle pixel block (0 < l < 15): every accumulator comes in at the contents the block before
  left and goes out with one store, this block's contribution added to what it held. The two cost blocks are not
  touched. The lists of stores the run finds for the accumulators are the witness; the property is the body's triple.
-/
import proofs.«412977_j52527450030676_2_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    Σ' (LS0 LS1 LS2 : List (View.Piece (Elt F) S160x128 .f32)), { LS3 : List (View.Piece (Elt F) S160x128 .f32) //
      ∀ (xi3 xi4 : Vec F S160x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, fun xi3 xi4 E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.KRunC.lean ====
/-
  The body's run at the last pixel block of a row block (l = 15): every accumulator comes in at the contents the
  block before left and gets this block's contribution added; then the two cost blocks, which may hold anything,
  are computed from the finished accumulators and the target sums and stored whole. The lists of stores the run
  finds for the two cost blocks and the four accumulators are the witness; the property is the body's triple.
-/
import proofs.«412977_j52527450030676_2_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    Σ' (L3 L4 LS0 LS1 LS2 : List (View.Piece (Elt F) S160x128 .f32)), { LS3 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__mask_dice_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__mask_dice_kernel_eq_skeleton]; unfold cc0__mask_dice_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.KFrameR.lean ====
/-
  The frame of the mask/dice kernel's program with the two cost outputs forgotten: @main runs to the end, nothing
  faulting, and its seven arguments end as launched.

  The mask logits' window is clipped: its last row block overhangs the 600 query rows by 40, so what the body finds in
  that window's buffer is the array's block on the rows inside the array and words nothing names on the 40 rows past
  it. The four accumulators and the two cost blocks are computed from the whole buffer, those rows included, so at a
  generic float type their contents have no name; the frame claim reads none of them. So the proof data name only
  the three inputs' buffers (the logits' on the rows inside the array), the two outputs are forgotten (handed to the
  body at anything and taken back at anything), and the accumulators live in the region's invariant at anything.
  The body obligation is then the three runs of the body, one per case of its two branches, with every buffer the
  run stores to handed back at some contents. After the region @main goes on with three stretches of host operations;
  they write values of @main's body only, never an argument, so each argument, which bypasses the region, ends at its
  region-entry contents, which are the launch contents.
-/
import proofs.«412977_j52527450030676_2_alg».proof.Proof.KKit
import proofs.«412977_j52527450030676_2_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows forgotten: the two cost outputs (3 and 4). Nothing the frame claim states reads what the kernel
    leaves in them. -/
def forgets0 : Fin 5 → Bool := fun w => w.val == 3 || w.val == 4

/-- The proof data of the one pipeline on core `c`: the arrays as the region finds them; after the body at point
    `t` the logits' buffer at its block on the rows inside the array (filled out with words nothing reads), the target
    masks' and target sums' buffers at their blocks, the two forgotten outputs at contents nothing names; the
    invariant the four accumulators at anything beside the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (Pipeline.Dat.unnamed (cfg := cfg0) 0 t) (iblk m c 0 t)
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the inputs' buffers, window by window. -/
theorem after0_0 (c : Dev nD) (t : Fin cfg0.N) : (dats m 0 c).after 0 t
    = (cfg0.win 0).fill (grid0.coords t) (Pipeline.Dat.unnamed (cfg := cfg0) 0 t) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- On the rows inside the array the logits' buffer is left at the block. -/
theorem cut_after0_0 (c : Dev nD) (t : Fin cfg0.N) :
    (cfg0.win 0).cut (grid0.coords t) ((dats m 0 c).after 0 t) = iblk m c 0 t := by
  rw [after0_0]; exact (cfg0.win 0).cut_fill _ _ _

/-- The logits' window is fetched at every point: the body finds the block on the rows inside the array and, past
    them, whatever the buffer held (`d`). -/
theorem before0_0 (c : Dev nD) (t : Fin cfg0.N) (d) :
    (dats m 0 c).before 0 t d = (cfg0.win 0).fill (grid0.coords t) d (iblk m c 0 t) := by
  unfold Dat.before; rw [if_pos (fetch0_0 t)]
  unfold Dat.fetched Dat.blockOf iblk; rw [A_eq]

/-- The target masks' and the target sums' windows are uncut and resident (fetched at the first point only): at every
    point the body finds their blocks, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body obligation, at a generic point -/

/-- A buffer the run has stored to, whatever it then holds, is owned at some contents. -/
theorem owns_of_writes (c : Dev nD) {sh : Shape} {e : EltTy} (M : Memref sig .tc .vmem sh e)
    (L : List (View.Piece (Elt F) sh e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  iexists M.view.read (Elt F) (M.view.writes (Elt F) f L)
  iapply (owns_intro (c : Thread nD τ) M fullShare (M.view.writes (Elt F) f L))
  iexact H

/-- What the body is called with at point `t`: the invariant, the core's tallies, each input's buffer at what it then
    holds and each forgotten output's at anything; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns: the logits' buffer stated on the rows inside the array only (the window is clipped), the
    other two inputs' at their blocks, each forgotten output's at anything. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare
        ((cfg0.win 0).fill (grid0.coords t) d ((cfg0.win 0).cut (grid0.coords t) ((dats m 0 c).after 0 t))))
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

set_option maxHeartbeats 2000000 in
/-- The body at any point. The inputs' buffers hold their blocks; the point is in one of the three cases, and that case's
    run applies: it reads the inputs and leaves them in place, takes each accumulator and each output at what it
    holds, whatever that is, and hands each back at some contents; the invariant is the accumulators at anything, so it
    holds again; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cut_after0_0]
  simp only [before0_0, before0_1, before0_2, after0_1, after0_2]
  rw [show (dats m 0 c).Φ t.succ = _ from PhiA0_eq c, show (dats m 0 c).Φ t.castSucc = _ from PhiA0_eq c,
    show (dats m 0 c).owesAt () t.succ = (dats m 0 c).owesAt () t.castSucc from rfl]
  by_cases h0 : cond0_0 (grid0.coords t)
  · by_cases h1 : cond0_1 (grid0.coords t)
    · exfalso; have e0 := (hcond0_0 t).mp h0; have e1 := (hcond0_1 t).mp h1; omega
    · -- the first pixel block: the accumulators are reset
      iintro ⟨⟨⟨Hs0, Hs1, Hs2, Hs3⟩, Hr⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t)).2.2.2.property d3 d4 Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iexists d3; iexact H3
      iexists d4; iexact H4
  · by_cases h1 : cond0_1 (grid0.coords t)
    · -- the last pixel block: the two cost blocks are computed and stored
      iintro ⟨⟨⟨⟨%s0, Hs0⟩, ⟨%s1, Hs1⟩, ⟨%s2, Hs2⟩, ⟨%s3, Hs3⟩⟩, Hr⟩, Ho, ⟨%d0, H0⟩, ⟨%d1, H1⟩, ⟨%d2, H2⟩, H3, H4⟩
      iapply ((kernelRun0_C c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t) s0 s1 s2 s3).2.2.2.2.2.property Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iapply (owns_of_writes c _ _) $$ H3
      iapply (owns_of_writes c _ _) $$ H4
    · -- a middle pixel block: the accumulators gain this block's contribution
      iintro ⟨⟨⟨⟨%s0, Hs0⟩, ⟨%s1, Hs1⟩, ⟨%s2, Hs2⟩, ⟨%s3, Hs3⟩⟩, Hr⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) scM0_2 (Memref.isWhole_whole _) scM0_3 (Memref.isWhole_whole _) h0 h1
        ((cfg0.win 0).fill (grid0.coords t) d0 (iblk m c 0 t)) (iblk m c 1 t) (iblk m c 2 t) s0 s1 s2 s3).2.2.2.property d3 d4 Set.univ _)
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      isplitl [Hs3]; · iexact Hs3
      iintro ⟨H0, H1, H2, H3, H4, Hs0, Hs1, Hs2, Hs3⟩
      isplitl [Hs0 Hs1 Hs2 Hs3 Hr]
      · isplitr [Hr]
        · isplitl [Hs0]; · iapply (owns_of_writes c _ _) $$ Hs0
          isplitl [Hs1]; · iapply (owns_of_writes c _ _) $$ Hs1
          isplitl [Hs2]; · iapply (owns_of_writes c _ _) $$ Hs2
          iapply (owns_of_writes c _ _) $$ Hs3
        · iexact Hr
      isplitl [Ho]; · iexact Ho
      isplitl [H0]; · iexists d0; iexact H0
      isplitl [H1]; · iexact H1
      isplitl [H2]; · iexact H2
      isplitl [H3]; · iexists d3; iexact H3
      iexists d4; iexact H4

/-- The library's body obligation in its loose form (the logits' window is clipped), the two outputs forgotten, at every
    point. -/
theorem body_obligation (c : Dev nD) :
    BodyObligationLoose (dats (F := F) m 0 c) (defs₀ (F := F)) Variants.none () Set.univ forgets0 := fun t => by
  rw [bigSep_W0, bigSep_W0]
  exact sound_body m c t

/-! ## What the later stretches write -/

/-- @main's seven arguments. -/
def argRefs : Finset (Ref sig .tc) := {main_arg0, main_arg1, main_arg2, main_arg3, main_arg4, main_arg5, main_arg6}

/-- Every reference that is no argument of @main: a set holding everything the stretches after the region write. -/
def T0 : Finset (Ref sig .tc) := argRefsᶜ

/-- Each operation of a stretch after the region writes only its own result buffer, a value of @main's body, never an
    argument. -/
theorem hostOps1_writes : (hostOps1 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))
theorem hostOps1_1_writes : (hostOps1_1 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))
set_option maxHeartbeats 4000000 in
theorem hostOps1_2_writes : (hostOps1_2 : List (HloOp τ sig (Elt F))).Forall fun op =>
    ∀ b : Ref sig .tc, Proc.devRef .tc b ∈ op.writes → b ∈ T0 := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb; rw [Proc.devRef_injective _ hb]; exact Finset.mem_compl.mpr (by decide))

/-- So the three stretches write within `T0`. -/
theorem sfx_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- An argument of @main is none of the references the later stretches write. -/
theorem not_mem_T0 {b : Ref sig .tc} (h : b ∈ argRefs) : b ∉ T0 := fun hb => (Finset.mem_compl.mp hb) h

/-! ## The run and the frame -/

set_option backward.isDefEq.respectTransparency.types false in
/-- At the compiled mesh, for any values, from any memory with zero counters: every weakly fair execution of @main on
    the TensorCores terminates, and every final state has every input array of the pipeline unchanged, nothing stated
    of the forgotten outputs, and every other unscoped buffer the later stretches do not write at its region-entry
    contents. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2]) (hsub := sfx_sub) (hfresh := sfx_fresh)
    (hkeep := sfx_keeps) (hT := sfx_writes) (hmain := hmain m Variants.none) (hA := A_eq m) (hΦ := fun _ _ => rfl)

/-- THE FRAME, at any float type: @main runs to the end and each of its seven arguments ends as launched. An argument
    is no array of the pipeline and nothing the later stretches write, so it ends at its region-entry contents, and no
    operation before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), not_mem_T0 (by decide)⟩)).trans (V_main_arg0 m c),
     ((h c).2 main_arg1 (Finset.mem_sdiff.mpr ⟨Pipeline.mem_restRefs_of main_arg1 (by decide) (by decide), not_mem_T0 (by decide)⟩)).trans (V_main_arg1 m c),
     ((h c).2 main_arg2 (Finset.mem_sdiff.mpr ⟨Pipeline.mem_restRefs_of main_arg2 (by decide) (by decide), not_mem_T0 (by decide)⟩)).trans (V_main_arg2 m c),
     ((h c).2 main_arg3 (Finset.mem_sdiff.mpr ⟨Pipeline.mem_restRefs_of main_arg3 (by decide) (by decide), not_mem_T0 (by decide)⟩)).trans (V_main_arg3 m c),
     ((h c).2 main_arg4 (Finset.mem_sdiff.mpr ⟨Pipeline.mem_restRefs_of main_arg4 (by decide) (by decide), not_mem_T0 (by decide)⟩)).trans (V_main_arg4 m c),
     ((h c).2 main_arg5 (Finset.mem_sdiff.mpr ⟨Pipeline.mem_restRefs_of main_arg5 (by decide) (by decide), not_mem_T0 (by decide)⟩)).trans (V_main_arg5 m c),
     ((h c).2 main_arg6 (Finset.mem_sdiff.mpr ⟨Pipeline.mem_restRefs_of main_arg6 (by decide) (by decide), not_mem_T0 (by decide)⟩)).trans (V_main_arg6 m c)⟩)
    (run_main m ρ)

end Cert.Kernel.Hand

end
-- ==== Proof.Pieces.lean ====
/-
  What each case of the body leaves in every buffer it stores into, as a value. For each case and buffer: the stores
  the run found tile the 160 x 128 block, so reading them back gives a value that does not depend on what the buffer
  held before or on which buffer it is; and that value is the payload of the last store, a term over the input block x0
  (the mask logits), the 128 x 4096 block of the padded target masks at this pixel block, the target sums x2 and the
  accumulators' contents on entry (zero at a first pixel block, where the body fills them with zero before adding).
-/
import proofs.«412977_j52527450030676_2_alg».proof.Proof.RunC
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx (ix2 eq_ix2)

/-- The views through which each buffer's contents are stated (which whole buffer of the shape is chosen does not
    matter: a list of stores that covers the block reads back the same through any of them). -/
abbrev VS0_0 : View sig .tc .vmem S160x128 .f32 := scM0_0.view
abbrev VS0_1 : View sig .tc .vmem S160x128 .f32 := scM0_1.view
abbrev VS0_2 : View sig .tc .vmem S160x128 .f32 := scM0_2.view
abbrev VS0_3 : View sig .tc .vmem S160x128 .f32 := scM0_3.view
abbrev VO0_3 : View sig .tc .vmem S160x128 .f32 := (Memref.whole cc0_stg3_0 : Memref sig .tc .vmem S160x128 .f32).view
abbrev VO0_4 : View sig .tc .vmem S160x128 .f32 := (Memref.whole cc0_stg4_0 : Memref sig .tc .vmem S160x128 .f32).view

/-- The 128 x 4096 block of the target masks that the body loads at pixel block l = i 1: columns 4096 l .. 4096 l + 4095. -/
abbrev tblk (i : grid0.Coords) (x1 : Vec F S128x65536 .bf16) : Vec F S128x4096 .bf16 :=
  View.ld x1 (Rect.unit (s := S128x65536) (k0_off1 i) S128x4096.size (k0_off1_inb i))

/-- Zero offsets, however spelt. -/
theorem hz : (![0, 0] : Fin 2 → Nat) = fun _ => 0 := funext fun a => by fin_cases a <;> rfl

/-- The offset of the target-mask load along the pixel axis is 4096 times the pixel block's number (no wrap-around below 16 blocks). -/
theorem off1_val : ∀ l : Fin 16, (Scalar.indexCast (Scalar.muli (BitVec.ofNat 32 l.val) 4096#32)).toNat = 4096 * l.val := by decide

/-- The loaded block of the target masks, entry by entry: row j, pixel 4096 l + k of the padded masks. -/
theorem tblk_apply (i : grid0.Coords) (x1 : Vec F S128x65536 .bf16) (j : Fin 128) (k' : Fin 4096) :
    tblk i x1 (ix2 j k') = x1 (ix2 j (⟨4096 * (i 1).val + k'.val, by have := (show (i 1).val < 16 from (i 1).isLt); omega⟩ : Fin 65536)) := by
  refine congrArg x1 (funext fun a => Fin.ext ?_)
  match a with
  | ⟨0, _⟩ => show 0 + 1 * j.val = j.val; omega
  | ⟨1, _⟩ =>
    show (Scalar.indexCast (Scalar.muli (BitVec.ofNat 32 (i 1).val) 4096#32)).toNat + 1 * k'.val = 4096 * (i 1).val + k'.val
    rw [off1_val (i 1)]; omega

/-- The stores the run at a first pixel block finds for accumulator 0 cover it (they tile the 160 x 128 block). -/
theorem scover0_A_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) (y : S160x128.Idx) :
    ∃ pc ∈ (kernelRun0_A c i arg2 harg2 arg3 harg3 arg4 harg4 arg5 harg5 arg6 harg6 arg7 harg7 arg8 harg8 arg9 harg9 arg10 harg10 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).1 S160x128.size (by sl_kernel_rfl) y

/-- What the body leaves in accumulator 0 at a first pixel block: those stores read back over unspecified contents. -/
def sout0_A_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) : Vec F S160x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).1)

/-- The stores the run at a first pixel block finds for accumulator 1 cover it (they tile the 160 x 128 block). -/
theorem scover0_A_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) (y : S160x128.Idx) :
    ∃ pc ∈ (kernelRun0_A c i arg2 harg2 arg3 harg3 arg4 harg4 arg5 harg5 arg6 harg6 arg7 harg7 arg8 harg8 arg9 harg9 arg10 harg10 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.1 S160x128.size (by sl_kernel_rfl) y

/-- What the body leaves in accumulator 1 at a first pixel block: those stores read back over unspecified contents. -/
def sout0_A_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) : Vec F S160x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.1)

/-- The stores the run at a first pixel block finds for accumulator 2 cover it (they tile the 160 x 128 block). -/
theorem scover0_A_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) (y : S160x128.Idx) :
    ∃ pc ∈ (kernelRun0_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.1 S160x128.size (by sl_kernel_rfl) y

/-- What the body leaves in accumulator 2 at a first pixel block: those stores read back over unspecified contents. -/
def sout0_A_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) : Vec F S160x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2).2.2.1)

/-- The stores the run at a first pixel block finds for accumulator 3 cover it (they tile the 160 x 128 block). -/
theorem scover0_A_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) (y : S160x128.Idx) :
    ∃ pc ∈ (kernelRun0_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.2.1 S160x128.size (by sl_kernel_rfl) y

/-- What the body leaves in accumulator 3 at a first pixel block: those stores read back over unspecified contents. -/
def sout0_A_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) : Vec F S160x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0 x1 x2).2.2.2.1)

/-- The stores the run at a middle pixel block finds for accumulator 0 cover it (they tile the 160 x 128 block). -/
theorem scover0_B_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).1 S160x128.size (by sl_kernel_rfl) y

/-- What the body leaves in accumulator 0 at a middle pixel block: those stores read back over unspecified contents. -/
def sout0_B_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) : Vec F S160x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1 xs2 xs3).1)

/-- The stores the run at a middle pixel block finds for accumulator 1 cover it (they tile the 160 x 128 block). -/
theorem scover0_B_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.1 S160x128.size (by sl_kernel_rfl) y

/-- What the body leaves in accumulator 1 at a middle pixel block: those stores read back over unspecified contents. -/
def sout0_B_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) : Vec F S160x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1 xs2 xs3).2.1)

/-- The stores the run at a middle pixel block finds for accumulator 2 cover it (they tile the 160 x 128 block). -/
theorem scover0_B_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.1 S160x128.size (by sl_kernel_rfl) y

/-- What the body leaves in accumulator 2 at a middle pixel block: those stores read back over unspecified contents. -/
def sout0_B_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) : Vec F S160x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 xs0 xs1 xs2 xs3).2.2.1)

/-- The stores the run at a middle pixel block finds for accumulator 3 cover it (they tile the 160 x 128 block). -/
theorem scover0_B_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2 xs3).2.2.2.1 S160x128.size (by sl_kernel_rfl) y

/-- What the body leaves in accumulator 3 at a middle pixel block: those stores read back over unspecified contents. -/
def sout0_B_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) : Vec F S160x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 x1 x2 xs0 xs1 xs2 xs3).2.2.2.1)

/-- The stores the run at a last pixel block finds for the first cost block cover it (they tile the 160 x 128 block). -/
theorem cover0_C_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).1 S160x128.size (by sl_kernel_rfl) y

/-- What the body leaves in the first cost block at a last pixel block: those stores read back over unspecified contents. -/
def out0_C_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 x1 x2 xs0 xs1 xs2 xs3).1)

/-- The stores the run at a last pixel block finds for the second cost block cover it (they tile the 160 x 128 block). -/
theorem cover0_C_4 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.1 S160x128.size (by sl_kernel_rfl) y

/-- What the body leaves in the second cost block at a last pixel block: those stores read back over unspecified contents. -/
def out0_C_4 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 xs0 xs1 xs2 xs3).2.1)

/-- The stores the run at a last pixel block finds for accumulator 0 cover it (they tile the 160 x 128 block). -/
theorem scover0_C_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.1 S160x128.size (by sl_kernel_rfl) y

/-- What the body leaves in accumulator 0 at a last pixel block: those stores read back over unspecified contents. -/
def sout0_C_0 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1 xs2 xs3).2.2.1)

/-- The stores the run at a last pixel block finds for accumulator 1 cover it (they tile the 160 x 128 block). -/
theorem scover0_C_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.1 S160x128.size (by sl_kernel_rfl) y

/-- What the body leaves in accumulator 1 at a last pixel block: those stores read back over unspecified contents. -/
def sout0_C_1 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.1)

/-- The stores the run at a last pixel block finds for accumulator 2 cover it (they tile the 160 x 128 block). -/
theorem scover0_C_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1 S160x128.size (by sl_kernel_rfl) y

/-- What the body leaves in accumulator 2 at a last pixel block: those stores read back over unspecified contents. -/
def sout0_C_2 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.1)

/-- The stores the run at a last pixel block finds for accumulator 3 cover it (they tile the 160 x 128 block). -/
theorem scover0_C_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) (y : S160x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1 S160x128.size (by sl_kernel_rfl) y

/-- What the body leaves in accumulator 3 at a last pixel block: those stores read back over unspecified contents. -/
def sout0_C_3 (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) : Vec F S160x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 x1 x2 xs0 xs1 xs2 xs3).2.2.2.2.2.1)

/-- At a middle pixel block the mask accumulator ends as its update's payload: what it held plus this block's contribution. -/
theorem sout0_B_0_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    sout0_B_0 c i arg2 harg2 arg3 harg3 arg4 harg4 arg5 harg5 arg6 harg6 arg7 harg7 arg8 harg8 arg9 harg9 arg10 harg10 hc0 hc1 x0 x1 x2 xs0 xs1 xs2 xs3 = k0_pay17 x0 (tblk i x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]
  rfl

/-- At a middle pixel block the intersection accumulator ends as its update's payload: what it held plus this block's contribution. -/
theorem sout0_B_1_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    sout0_B_1 c i arg2 harg2 arg3 harg3 arg4 harg4 arg5 harg5 arg6 harg6 arg7 harg7 arg8 harg8 arg9 harg9 arg10 harg10 hc0 hc1 x0 x1 x2 xs0 xs1 xs2 xs3 = k0_pay1 (k0_pay15 (tblk i x1)) (k0_pay16 x0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]
  rfl

/-- At a middle pixel block the negative-sum accumulator ends as its update's payload: what it held plus this block's contribution. -/
theorem sout0_B_2_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    sout0_B_2 c i arg2 harg2 arg3 harg3 arg4 harg4 arg5 harg5 arg6 harg6 arg7 harg7 arg8 harg8 arg9 harg9 arg10 harg10 hc0 hc1 x0 x1 x2 xs0 xs1 xs2 xs3 = k0_pay2 (k0_pay14 x0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]

/-- At a middle pixel block the probability-sum accumulator ends as its update's payload: what it held plus this block's contribution. -/
theorem sout0_B_3_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : ¬cond0_1 i)
    (x0 : Vec F S160x4096 .f32) (x1 : Vec F S128x65536 .bf16) (x2 : Vec F S1x128 .f32) (xs0 xs1 xs2 xs3 : Vec F S160x128 .f32) :
    sout0_B_3 c i arg2 harg2 arg3 harg3 arg4 harg4 arg5 harg5 arg6 harg6 arg7 harg7 arg8 harg8 arg9 harg9 arg10 harg10 hc0 hc1 x0 x1 x2 xs0 xs1 xs2 xs3 = k0_pay3 (k0_pay13 x0) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]

/-- At a last pixel block the mask accumulator ends as its update's payload: what it held plus this block's contribution. -/
theorem sout0_C_0_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    sout0_C_0 c i arg2 harg2 arg3 harg3 arg4 harg4 arg5 harg5 arg6 harg6 arg7 harg7 arg8 harg8 arg9 harg9 arg10 harg10 hc0 hc1 x0 x1 x2 xs0 xs1 xs2 xs3 = k0_pay17 x0 (tblk i x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]
  rfl

/-- At a last pixel block the intersection accumulator ends as its update's payload: what it held plus this block's contribution. -/
theorem sout0_C_1_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    sout0_C_1 c i arg2 harg2 arg3 harg3 arg4 harg4 arg5 harg5 arg6 harg6 arg7 harg7 arg8 harg8 arg9 harg9 arg10 harg10 hc0 hc1 x0 x1 x2 xs0 xs1 xs2 xs3 = k0_pay1 (k0_pay15 (tblk i x1)) (k0_pay16 x0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]
  rfl

/-- At a last pixel block the negative-sum accumulator ends as its update's payload: what it held plus this block's contribution. -/
theorem sout0_C_2_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    sout0_C_2 c i arg2 harg2 arg3 harg3 arg4 harg4 arg5 harg5 arg6 harg6 arg7 harg7 arg8 harg8 arg9 harg9 arg10 harg10 hc0 hc1 x0 x1 x2 xs0 xs1 xs2 xs3 = k0_pay2 (k0_pay14 x0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]

/-- At a last pixel block the probability-sum accumulator ends as its update's payload: what it held plus this block's contribution. -/
theorem sout0_C_3_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    sout0_C_3 c i arg2 harg2 arg3 harg3 arg4 harg4 arg5 harg5 arg6 harg6 arg7 harg7 arg8 harg8 arg9 harg9 arg10 harg10 hc0 hc1 x0 x1 x2 xs0 xs1 xs2 xs3 = k0_pay3 (k0_pay13 x0) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz]

/-- At a first pixel block the mask accumulator ends as its update's payload over the zero fill: zero plus this block's contribution. -/
theorem sout0_A_0_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    sout0_A_0 c i arg2 harg2 arg3 harg3 arg4 harg4 arg5 harg5 arg6 harg6 arg7 harg7 arg8 harg8 arg9 harg9 arg10 harg10 hc0 hc1 x0 x1 x2 = k0_pay17 x0 (tblk i x1) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S160x128) hz]
  simp only [View.readAt_eq_ld, harg2.read_unread, harg3.read_unread, harg4.read_unread, View.ld_unit_zero (S := S160x4096) hz, View.ld_unit_zero (S := S160x128) hz, View.ld_unit_zero (S := S1x128) hz, View.readCov_unit_zero (S := S160x128) _ hz]
  rfl

/-- At a first pixel block the intersection accumulator ends as its update's payload over the zero fill: zero plus this block's contribution. -/
theorem sout0_A_1_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    sout0_A_1 c i arg2 harg2 arg3 harg3 arg4 harg4 arg5 harg5 arg6 harg6 arg7 harg7 arg8 harg8 arg9 harg9 arg10 harg10 hc0 hc1 x0 x1 x2 = k0_pay1 (k0_pay15 (tblk i x1)) (k0_pay16 x0) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S160x128) hz]
  simp only [View.readAt_eq_ld, harg2.read_unread, harg3.read_unread, harg4.read_unread, View.ld_unit_zero (S := S160x4096) hz, View.ld_unit_zero (S := S160x128) hz, View.ld_unit_zero (S := S1x128) hz, View.readCov_unit_zero (S := S160x128) _ hz]
  rfl

/-- At a first pixel block the negative-sum accumulator ends as its update's payload over the zero fill: zero plus this block's contribution. -/
theorem sout0_A_2_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    sout0_A_2 c i arg2 harg2 arg3 harg3 arg4 harg4 arg5 harg5 arg6 harg6 arg7 harg7 arg8 harg8 arg9 harg9 arg10 harg10 hc0 hc1 x0 x1 x2 = k0_pay2 (k0_pay14 x0) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S160x128) hz]
  simp only [View.readAt_eq_ld, harg2.read_unread, harg3.read_unread, harg4.read_unread, View.ld_unit_zero (S := S160x4096) hz, View.ld_unit_zero (S := S160x128) hz, View.ld_unit_zero (S := S1x128) hz, View.readCov_unit_zero (S := S160x128) _ hz]

/-- At a first pixel block the probability-sum accumulator ends as its update's payload over the zero fill: zero plus this block's contribution. -/
theorem sout0_A_3_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : cond0_0 i) (hc1 : ¬cond0_1 i)
    (x0 : Vec F S160x4096 .f32) (x1 : Vec F S128x65536 .bf16) (x2 : Vec F S1x128 .f32) :
    sout0_A_3 c i arg2 harg2 arg3 harg3 arg4 harg4 arg5 harg5 arg6 harg6 arg7 harg7 arg8 harg8 arg9 harg9 arg10 harg10 hc0 hc1 x0 x1 x2 = k0_pay3 (k0_pay13 x0) (k0_pay9 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S160x128) hz]
  simp only [View.readAt_eq_ld, harg2.read_unread, harg3.read_unread, harg4.read_unread, View.ld_unit_zero (S := S160x4096) hz, View.ld_unit_zero (S := S160x128) hz, View.ld_unit_zero (S := S1x128) hz, View.readCov_unit_zero (S := S160x128) _ hz]

/-- At a last pixel block the first cost block is the payload of its one store, over the finished mask and negative-sum accumulators. -/
theorem out0_C_3_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    out0_C_3 c i arg2 harg2 arg3 harg3 arg4 harg4 arg5 harg5 arg6 harg6 arg7 harg7 arg8 harg8 arg9 harg9 arg10 harg10 hc0 hc1 x0 x1 x2 xs0 xs1 xs2 xs3 = k0_pay4 (k0_pay17 x0 (tblk i x1) xs0) (k0_pay2 (k0_pay14 x0) xs2) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz, View.readCov_unit_zero (S := S160x128) _ hz]
  rfl

/-- At a last pixel block the second cost block is the payload of its one store, over the target sums and the finished probability-sum and intersection accumulators. -/
theorem out0_C_4_eq (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    out0_C_4 c i arg2 harg2 arg3 harg3 arg4 harg4 arg5 harg5 arg6 harg6 arg7 harg7 arg8 harg8 arg9 harg9 arg10 harg10 hc0 hc1 x0 x1 x2 xs0 xs1 xs2 xs3 = k0_pay5 x2 (k0_pay3 (k0_pay13 x0) xs3) (k0_pay1 (k0_pay15 (tblk i x1)) (k0_pay16 x0) xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz]
  simp only [View.readAt_eq_ld, harg2.read_unread, harg3.read_unread, harg4.read_unread, harg7.read_unread, harg8.read_unread, harg9.read_unread, harg10.read_unread, View.ld_unit_zero (S := S160x4096) hz, View.ld_unit_zero (S := S160x128) hz, View.ld_unit_zero (S := S1x128) hz, View.readCov_unit_zero (S := S160x128) _ hz]
  rfl

/-- The same two, over what the case leaves in the accumulators. -/
theorem out0_C_3_eq_sout (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    out0_C_3 c i arg2 harg2 arg3 harg3 arg4 harg4 arg5 harg5 arg6 harg6 arg7 harg7 arg8 harg8 arg9 harg9 arg10 harg10 hc0 hc1 x0 x1 x2 xs0 xs1 xs2 xs3 = k0_pay4 (sout0_C_0 c i arg2 harg2 arg3 harg3 arg4 harg4 arg5 harg5 arg6 harg6 arg7 harg7 arg8 harg8 arg9 harg9 arg10 harg10 hc0 hc1 x0 x1 x2 xs0 xs1 xs2 xs3) (sout0_C_2 c i arg2 harg2 arg3 harg3 arg4 harg4 arg5 harg5 arg6 harg6 arg7 harg7 arg8 harg8 arg9 harg9 arg10 harg10 hc0 hc1 x0 x1 x2 xs0 xs1 xs2 xs3) := by
  rw [out0_C_3_eq, sout0_C_0_eq, sout0_C_2_eq]
theorem out0_C_4_eq_sout (c : Dev nD) (i : grid0.Coords) (arg2 : Memref sig .tc .vmem S160x4096 .f32) (harg2 : arg2.IsWhole) (arg3 : Memref sig .tc .vmem S128x65536 .bf16) (harg3 : arg3.IsWhole) (arg4 : Memref sig .tc .vmem S1x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (hc0 : ¬cond0_0 i) (hc1 : cond0_1 i)
    (x0 : Vec F S160x4096 .f32) (x1 : Vec F S128x65536 .bf16) (x2 : Vec F S1x128 .f32) (xs0 xs1 xs2 xs3 : Vec F S160x128 .f32) :
    out0_C_4 c i arg2 harg2 arg3 harg3 arg4 harg4 arg5 harg5 arg6 harg6 arg7 harg7 arg8 harg8 arg9 harg9 arg10 harg10 hc0 hc1 x0 x1 x2 xs0 xs1 xs2 xs3 = k0_pay5 x2 (sout0_C_3 c i arg2 harg2 arg3 harg3 arg4 harg4 arg5 harg5 arg6 harg6 arg7 harg7 arg8 harg8 arg9 harg9 arg10 harg10 hc0 hc1 x0 x1 x2 xs0 xs1 xs2 xs3) (sout0_C_1 c i arg2 harg2 arg3 harg3 arg4 harg4 arg5 harg5 arg6 harg6 arg7 harg7 arg8 harg8 arg9 harg9 arg10 harg10 hc0 hc1 x0 x1 x2 xs0 xs1 xs2 xs3) := by
  rw [out0_C_4_eq, sout0_C_3_eq, sout0_C_1_eq]

end Cert.KernelIdeal.Hand

end
-- ==== Proof.Spec.lean ====
/-
  The mathematics both programs compute, over the reals.

  For a mask logit x the two sides share, per pixel:
    sig x  = 1 / (1 + e^{-x})                       the sigmoid
    spn x  = log (1 + e^{-x})                       softplus(-x)
    spp x  = x + spn x                              softplus(x)
    posf x = 1/4 * spn x * (1 - sig x)^2            the focal loss of a pixel whose target is 1
    negf x = 3/4 * spp x * (sig x)^2                the focal loss of a pixel whose target is 0
    Af x   = posf x - negf x
  and, per query row n and target j, five sums over the 65536 pixels k: of Af(x n k) * t j k, of negf(x n k),
  of sig(x n k) * t j k, of sig(x n k), and of t j k. Every input being finite, all of these are real numbers;
  a finite sum of real numbers read in the extended reals is the real sum (`coe_sum`).
-/
import Idealize.ShloMosaic.PureOps.Ideal

noncomputable section

namespace Cert.Spec

/-- The sigmoid. -/
def sig (x : ℝ) : ℝ := 1 / (1 + Real.exp (-x))
/-- softplus(-x). -/
def spn (x : ℝ) : ℝ := Real.log (1 + Real.exp (-x))
/-- softplus(x) = x + softplus(-x). -/
def spp (x : ℝ) : ℝ := x + spn x
/-- The focal loss of a pixel whose target is 1. -/
def posf (x : ℝ) : ℝ := (1 / 4) * spn x * ((1 - sig x) * (1 - sig x))
/-- The focal loss of a pixel whose target is 0. -/
def negf (x : ℝ) : ℝ := (3 / 4) * spp x * (sig x * sig x)
/-- Their difference: what is contracted against the binary targets. -/
def Af (x : ℝ) : ℝ := posf x - negf x

/-- A finite sum of real numbers, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.PayIdeal.lean ====
/-
  The body's arithmetic read at one index, over the extended reals.

  Each payload of the mask/dice kernel's body is a pure function of the vectors the body loads. Read at the ideal
  values an element is an extended real and every operation is the textbook one, so at a row r, a target column j
  and a pixel k inside the block:
    the sigmoid branch        1 / (1 + e^{-x})                       is  sig x,
    the softplus branch       log (1 + e^{-x})                       is  spn x,
    the negative focal term   3/4 * (x + spn x) * (sig x)^2          is  negf x,
    the contracted term       1/4 * spn x * (1 - sig x)^2 - negf x   is  Af x,
  a matrix product against the targets adds, to the accumulator at (r, j), the sum over the block's 4096 pixels of
  the products, a lane sum adds the sum over the block's pixels of the row to every column of the accumulator's row,
  and the two costs of the last step are (a + b) / 65536 and 1 - (2 c + 1) / (d + s_j + 1).
  The float literals are the dyadic rationals their patterns denote: 1, 1/4, 3/4, 2, 1/65536 and 0.
-/
import proofs.«412977_j52527450030676_2_alg».proof.Proof.Gen.KernelIdeal.Skeleton
import proofs.«412977_j52527450030676_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Cert.KernelIdeal Cert.KernelIdeal.Gen Cert.Spec ValueIdx

/-! ## The float literals -/

section Consts

/-- The pattern of `1.0` denotes the real `1`. -/
theorem lit_one : Ideal.ofBits .f32 0x3F800000#32 = ((1 : ℝ) : EReal) := by
  simp [Ideal.ofBits, Ideal.ieee, -EReal.coe_mul]; norm_num
/-- The pattern of `0.25` denotes the real `1/4`. -/
theorem lit_quarter : Ideal.ofBits .f32 0x3E800000#32 = ((1 / 4 : ℝ) : EReal) := by
  simp [Ideal.ofBits, Ideal.ieee, -EReal.coe_mul]; norm_num
/-- The pattern of `0.75` denotes the real `3/4`. -/
theorem lit_three_quarters : Ideal.ofBits .f32 0x3F400000#32 = ((3 / 4 : ℝ) : EReal) := by
  simp [Ideal.ofBits, Ideal.ieee, -EReal.coe_mul]; norm_num
/-- The pattern of `2.0` denotes the real `2`. -/
theorem lit_two : Ideal.ofBits .f32 0x40000000#32 = ((2 : ℝ) : EReal) := by
  simp [Ideal.ofBits, Ideal.ieee, -EReal.coe_mul]; norm_num
/-- The pattern of `1.52587891E-5` denotes the real `1/65536`. -/
theorem lit_inv65536 : Ideal.ofBits .f32 0x37800000#32 = ((1 / 65536 : ℝ) : EReal) := by
  simp [Ideal.ofBits, Ideal.ieee, -EReal.coe_mul]; norm_num
/-- The pattern of `+0.0` denotes `0`. -/
theorem lit_zero : Ideal.ofBits .f32 0x00000000#32 = ((0 : ℝ) : EReal) := by
  simp [Ideal.ofBits, Ideal.ieee]

/-- A scalar literal is what its pattern denotes. -/
theorem scalar_ofBits (b : BitVec 32) : Scalar.ofBits (F := Ideal) .f32 b = Ideal.ofBits .f32 b := rfl
/-- A broadcast scalar literal reads, everywhere, what its pattern denotes. -/
theorem broadcast_lit {s : Shape} (b : BitVec 32) (i : s.Idx) :
    broadcast s (Scalar.ofBits (F := Ideal) .f32 b) i = Ideal.ofBits .f32 b := rfl
/-- A splat constant reads, everywhere, what its pattern denotes. -/
theorem constant_lit {s : Shape} (b : BitVec 32) (i : s.Idx) :
    constant (F := Ideal) s .f32 b i = Ideal.ofBits .f32 b := rfl

end Consts

/-! ## The resets, and the cast that changes nothing -/

/-- The first accumulator's reset value is zero everywhere. -/
theorem pay6_apply (r : Fin 160) (j : Fin 128) : k0_pay6 (F := Ideal) (ix2 r j) = 0 := by
  unfold k0_pay6
  simp only [shapeCast_self]
  exact Ideal.ofBits_zero_f32
/-- The second accumulator's reset value is zero everywhere. -/
theorem pay7_apply (r : Fin 160) (j : Fin 128) : k0_pay7 (F := Ideal) (ix2 r j) = 0 := by
  unfold k0_pay7
  simp only [shapeCast_self]
  exact Ideal.ofBits_zero_f32
/-- The third accumulator's reset value is zero everywhere. -/
theorem pay8_apply (r : Fin 160) (j : Fin 128) : k0_pay8 (F := Ideal) (ix2 r j) = 0 := by
  unfold k0_pay8
  simp only [shapeCast_self]
  exact Ideal.ofBits_zero_f32
/-- The fourth accumulator's reset value is zero everywhere. -/
theorem pay9_apply (r : Fin 160) (j : Fin 128) : k0_pay9 (F := Ideal) (ix2 r j) = 0 := by
  unfold k0_pay9
  simp only [shapeCast_self]
  exact Ideal.ofBits_zero_f32

/-- The target block cast to its own shape is the target block. -/
theorem pay15_eq (v28 : Vec Ideal S128x4096 .bf16) : k0_pay15 (F := Ideal) v28 = v28 := by
  unfold k0_pay15
  exact shapeCast_self _ _
/-- The logits block cast to its own shape is the logits block. -/
theorem pay10_eq (v3 : Vec Ideal S160x4096 .f32) : k0_pay10 (F := Ideal) v3 = v3 := by
  unfold k0_pay10
  exact shapeCast_self _ _

/-! ## The two costs of the last step -/

/-- The mask cost: the sum of the two accumulators, times `1/65536`. -/
theorem pay4_apply (v65 v66 : Vec Ideal S160x128 .f32) (r : Fin 160) (j : Fin 128) :
    k0_pay4 (F := Ideal) v65 v66 (ix2 r j) = (v65 (ix2 r j) + v66 (ix2 r j)) * (((1 / 65536 : ℝ)) : EReal) := by
  rw [← lit_inv65536]
  rfl

/-! ## The pointwise branches at a pixel -/

section Pointwise
variable (v3 : Vec Ideal S160x4096 .f32) (r : Fin 160) (k : Fin 4096) (x : ℝ)

/-- The exponential branch: `e^{0 - x}` is the real `e^{-x}`. -/
theorem pay11_apply (hx : v3 (ix2 r k) = ((x : ℝ) : EReal)) :
    k0_pay11 (F := Ideal) v3 (ix2 r k) = ((Real.exp (-x) : ℝ) : EReal) := by
  show Ideal.exp (Ideal.ofBits .f32 0x00000000#32 - k0_pay10 (F := Ideal) v3 (ix2 r k)) = _
  rw [pay10_eq, hx, lit_zero, ← EReal.coe_sub, zero_sub, Ideal.exp_coe]

/-- The softplus branch: `log (1 + e^{-x})`, the argument of the logarithm being positive. -/
theorem pay12_apply (hx : v3 (ix2 r k) = ((x : ℝ) : EReal)) :
    k0_pay12 (F := Ideal) v3 (ix2 r k) = ((Spec.spn x : ℝ) : EReal) := by
  show Ideal.log1p (k0_pay11 (F := Ideal) v3 (ix2 r k)) = _
  rw [pay11_apply v3 r k x hx, Ideal.log1p, ← EReal.coe_one, ← EReal.coe_add, Ideal.log_coe,
    if_neg (not_le.mpr (by positivity))]
  rfl

/-- The sigmoid branch: `1 / (1 + e^{-x})`, the denominator being a nonzero real. -/
theorem pay13_apply (hx : v3 (ix2 r k) = ((x : ℝ) : EReal)) :
    k0_pay13 (F := Ideal) v3 (ix2 r k) = ((Spec.sig x : ℝ) : EReal) := by
  show Ideal.div (Ideal.ofBits .f32 0x3F800000#32)
      (Ideal.ofBits .f32 0x3F800000#32 + k0_pay11 (F := Ideal) v3 (ix2 r k)) = _
  have hne : (1 + Real.exp (-x) : ℝ) ≠ 0 := by positivity
  rw [pay11_apply v3 r k x hx, lit_one, ← EReal.coe_add, Ideal.div_coe hne, ← EReal.coe_mul, one_mul]
  rfl

/-- The negative focal term: `3/4 * (x + spn x) * (sig x)^2`. -/
theorem pay14_apply (hx : v3 (ix2 r k) = ((x : ℝ) : EReal)) :
    k0_pay14 (F := Ideal) v3 (ix2 r k) = ((Spec.negf x : ℝ) : EReal) := by
  show (Ideal.ofBits .f32 0x3F400000#32
        * (k0_pay10 (F := Ideal) v3 (ix2 r k) + k0_pay12 (F := Ideal) v3 (ix2 r k)))
      * (k0_pay13 (F := Ideal) v3 (ix2 r k) * k0_pay13 (F := Ideal) v3 (ix2 r k)) = _
  rw [pay10_eq, hx, pay12_apply v3 r k x hx, pay13_apply v3 r k x hx, lit_three_quarters,
    ← EReal.coe_add, ← EReal.coe_mul, ← EReal.coe_mul, ← EReal.coe_mul]
  rfl

/-- The probabilities handed to the second product: a change of format is the identity, so again `sig x`. -/
theorem pay16_apply (hx : v3 (ix2 r k) = ((x : ℝ) : EReal)) :
    k0_pay16 (F := Ideal) v3 (ix2 r k) = ((Spec.sig x : ℝ) : EReal) := by
  show k0_pay13 (F := Ideal) v3 (ix2 r k) = _
  exact pay13_apply v3 r k x hx

end Pointwise

/-! ## A row's sum, kept as a column and spread over the columns -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum of a block over its pixels, at row `r`: the sum over the 4096 pixels of the row's entries. -/
theorem rowsum_apply (v : FVec Ideal S160x4096 .f32) (r : Fin 160) :
    multiReduction (F := Ideal) .add [1] S160 v 0x00000000#32 reduces_S160x4096_S160 (.inl rfl) rfl (ix1 r)
      = ∑ k : Fin 4096, v (ix2 r k) := by
  refine (Ideal.multiReduction_add_single v 0x00000000#32 reduces_S160x4096_S160 (.inl rfl) rfl (ix1 r)).trans ?_
  exact Finset.sum_congr rfl fun k _ => congrArg v (funext fun a => Fin.ext (by
    match a with
    | ⟨0, _⟩ => rfl
    | ⟨1, _⟩ => rfl))

/-- That sum kept as a column and spread over the 128 columns reads the row's sum at every column. -/
theorem rowsum_spread (v : FVec Ideal S160x4096 .f32) (r : Fin 160) (j : Fin 128) :
    broadcastTo S160x128 (shapeCast S160x1
        (multiReduction (F := Ideal) .add [1] S160 v 0x00000000#32 reduces_S160x4096_S160 (.inl rfl) rfl)
        shapeCasts_S160_S160x1) broadcasts_S160x1_S160x128 (ix2 r j)
      = ∑ k : Fin 4096, v (ix2 r k) := by
  refine (broadcastTo_a1_ab_apply _ _ r j).trans ?_
  refine (shapeCast_a_a1_apply _ _ r 0).trans ?_
  exact rowsum_apply v r

/-! ## The two lane sums -/

/-- The third accumulator's step: the row's sum of the negative focal terms is added at every column. -/
theorem pay2_apply (v23 : Vec Ideal S160x4096 .f32) (v48 : Vec Ideal S160x128 .f32) (r : Fin 160) (j : Fin 128)
    (g : Fin 4096 → ℝ) (hg : ∀ k, v23 (ix2 r k) = ((g k : ℝ) : EReal)) :
    k0_pay2 (F := Ideal) v23 v48 (ix2 r j) = v48 (ix2 r j) + ((∑ k : Fin 4096, g k : ℝ) : EReal) := by
  unfold k0_pay2
  simp only [shapeCast_self]
  refine (addf_apply _ _ _).trans ?_
  rw [rowsum_spread v23 r j, Finset.sum_congr rfl (fun k _ => hg k), Spec.coe_sum]

/-- The fourth accumulator's step: the row's sum of the probabilities is added at every column. -/
theorem pay3_apply (v13 : Vec Ideal S160x4096 .f32) (v55 : Vec Ideal S160x128 .f32) (r : Fin 160) (j : Fin 128)
    (g : Fin 4096 → ℝ) (hg : ∀ k, v13 (ix2 r k) = ((g k : ℝ) : EReal)) :
    k0_pay3 (F := Ideal) v13 v55 (ix2 r j) = v55 (ix2 r j) + ((∑ k : Fin 4096, g k : ℝ) : EReal) := by
  unfold k0_pay3
  simp only [shapeCast_self]
  refine (addf_apply _ _ _).trans ?_
  rw [rowsum_spread v13 r j, Finset.sum_congr rfl (fun k _ => hg k), Spec.coe_sum]

/-- The dice cost: `1 - (2 c + 1) / (d + s_j + 1)`, with `c` the intersection accumulator, `d` the probability-sum
    accumulator and `s_j` the target sum of column `j`, one row spread over the 160 rows. -/
theorem pay5_apply (v70 : Vec Ideal S1x128 .f32) (v72 v76 : Vec Ideal S160x128 .f32) (r : Fin 160) (j : Fin 128) :
    k0_pay5 (F := Ideal) v70 v72 v76 (ix2 r j)
      = (1 : EReal) - Ideal.div (2 * v76 (ix2 r j) + 1) ((v72 (ix2 r j) + v70 (ix2 (0 : Fin 1) j)) + 1) := by
  unfold k0_pay5
  simp only [shapeCast_self]
  show Ideal.ofBits .f32 0x3F800000#32
      - Ideal.div (Ideal.ofBits .f32 0x40000000#32 * v76 (ix2 r j) + Ideal.ofBits .f32 0x3F800000#32)
          ((v72 (ix2 r j) + broadcastTo S160x128 v70 broadcasts_S1x128_S160x128 (ix2 r j))
            + Ideal.ofBits .f32 0x3F800000#32) = _
  rw [broadcastTo_1b_ab_apply v70 broadcasts_S1x128_S160x128 r j, lit_one, lit_two, EReal.coe_one]
  rfl

/-! ## The two matrix products

Both contract axis 1 of a `[160, 4096]` block with axis 1 of the `[128, 4096]` target block: the result at `(r, j)` is
the accumulator there plus the sum over the block's pixels `k` of the left operand at `(r, k)` times the right at
`(j, k)`. -/

theorem dot_lhs_0 (i : S160x128.Idx) (q : dot_S160x4096_S128x4096_S160x128_1_1_0_0_n_n.contr.Idx) :
    (dot_S160x4096_S128x4096_S160x128_1_1_0_0_n_n.lhsIdx i q 0).val = (i 0).val := by
  unfold DotDims.lhsIdx
  rw [dif_neg (show ¬(0 : Fin S160x4096.rank) ∈ dot_S160x4096_S128x4096_S160x128_1_1_0_0_n_n.lhsBatch by decide), dif_pos (show (0 : Fin S160x4096.rank) ∈ dot_S160x4096_S128x4096_S160x128_1_1_0_0_n_n.lhsNonContracting by decide)]
  rfl
theorem dot_lhs_1 (i : S160x128.Idx) (q : dot_S160x4096_S128x4096_S160x128_1_1_0_0_n_n.contr.Idx) :
    (dot_S160x4096_S128x4096_S160x128_1_1_0_0_n_n.lhsIdx i q 1).val = (q ⟨0, by decide⟩).val :=
  dot_S160x4096_S128x4096_S160x128_1_1_0_0_n_n.lhsIdx_val_of_single rfl i q
theorem dot_rhs_0 (i : S160x128.Idx) (q : dot_S160x4096_S128x4096_S160x128_1_1_0_0_n_n.contr.Idx) :
    (dot_S160x4096_S128x4096_S160x128_1_1_0_0_n_n.rhsIdx i q 0).val = (i 1).val := by
  unfold DotDims.rhsIdx
  rw [dif_neg (show ¬(0 : Fin S128x4096.rank) ∈ dot_S160x4096_S128x4096_S160x128_1_1_0_0_n_n.rhsBatch by decide), dif_pos (show (0 : Fin S128x4096.rank) ∈ dot_S160x4096_S128x4096_S160x128_1_1_0_0_n_n.rhsNonContracting by decide)]
  rfl
theorem dot_rhs_1 (i : S160x128.Idx) (q : dot_S160x4096_S128x4096_S160x128_1_1_0_0_n_n.contr.Idx) :
    (dot_S160x4096_S128x4096_S160x128_1_1_0_0_n_n.rhsIdx i q 1).val = (q ⟨0, by decide⟩).val :=
  dot_S160x4096_S128x4096_S160x128_1_1_0_0_n_n.rhsIdx_val_of_single rfl i q

/-- The product into the zero accumulator, at `(r, j)`: the sum over the pixels of the products. -/
theorem matmul_read (lhs : FVec Ideal S160x4096 .bf16) (rhs : FVec Ideal S128x4096 .bf16) (r : Fin 160) (j : Fin 128) :
    matmul dot_S160x4096_S128x4096_S160x128_1_1_0_0_n_n none lhs rhs (constant (F := Ideal) S160x128 .f32 0x00000000#32) (ix2 r j)
      = ∑ k : Fin 4096, lhs (ix2 r k) * rhs (ix2 j k) := by
  simp only [matmul]
  rw [Ideal.matmul_constant_zero_apply, ← Equiv.sum_comp (contrEquiv1 dot_S160x4096_S128x4096_S160x128_1_1_0_0_n_n 4096 rfl rfl).symm]
  refine Finset.sum_congr rfl fun k _ => ?_
  have hk := contrEquiv1_symm_val dot_S160x4096_S128x4096_S160x128_1_1_0_0_n_n 4096 rfl rfl k
  have el : dot_S160x4096_S128x4096_S160x128_1_1_0_0_n_n.lhsIdx (ix2 r j) ((contrEquiv1 dot_S160x4096_S128x4096_S160x128_1_1_0_0_n_n 4096 rfl rfl).symm k) = ix2 r k := funext fun a => Fin.ext (by
    match a with
    | ⟨0, _⟩ => exact dot_lhs_0 _ _
    | ⟨1, _⟩ => exact (dot_lhs_1 _ _).trans hk)
  have er : dot_S160x4096_S128x4096_S160x128_1_1_0_0_n_n.rhsIdx (ix2 r j) ((contrEquiv1 dot_S160x4096_S128x4096_S160x128_1_1_0_0_n_n 4096 rfl rfl).symm k) = ix2 j k := funext fun a => Fin.ext (by
    match a with
    | ⟨0, _⟩ => exact dot_rhs_0 _ _
    | ⟨1, _⟩ => exact (dot_rhs_1 _ _).trans hk)
  rw [el, er]

/-- The intersection accumulator's step: the probabilities contracted with the targets are added. -/
theorem pay1_apply (v29 : Vec Ideal S128x4096 .bf16) (v31 : Vec Ideal S160x4096 .bf16) (v38 : Vec Ideal S160x128 .f32)
    (r : Fin 160) (j : Fin 128) (p tj : Fin 4096 → ℝ) (hp : ∀ k, v31 (ix2 r k) = ((p k : ℝ) : EReal))
    (ht : ∀ k, v29 (ix2 j k) = ((tj k : ℝ) : EReal)) :
    k0_pay1 (F := Ideal) v29 v31 v38 (ix2 r j) = v38 (ix2 r j) + ((∑ k : Fin 4096, p k * tj k : ℝ) : EReal) := by
  unfold k0_pay1
  simp only [shapeCast_self]
  refine (addf_apply _ _ _).trans ?_
  rw [matmul_read v31 v29 r j, ← Spec.coe_sum]
  refine congrArg (v38 (ix2 r j) + ·) (Finset.sum_congr rfl fun k _ => ?_)
  rw [hp k, ht k, EReal.coe_mul]

/-- The mask accumulator's step: the difference of the two focal terms, contracted with the targets, is added. -/
theorem pay17_apply (v3 : Vec Ideal S160x4096 .f32) (v28 : Vec Ideal S128x4096 .bf16) (v32 : Vec Ideal S160x128 .f32)
    (r : Fin 160) (j : Fin 128) (xr : Fin 4096 → ℝ) (tj : Fin 4096 → ℝ)
    (hx : ∀ k, v3 (ix2 r k) = ((xr k : ℝ) : EReal)) (ht : ∀ k, v28 (ix2 j k) = ((tj k : ℝ) : EReal)) :
    k0_pay17 (F := Ideal) v3 v28 v32 (ix2 r j)
      = v32 (ix2 r j) + ((∑ k : Fin 4096, Spec.Af (xr k) * tj k : ℝ) : EReal) := by
  unfold k0_pay17
  simp only [shapeCast_self, pay15_eq]
  refine (addf_apply _ _ _).trans ?_
  rw [matmul_read _ v28 r j, ← Spec.coe_sum]
  refine congrArg (v32 (ix2 r j) + ·) (Finset.sum_congr rfl fun k _ => ?_)
  show ((Ideal.ofBits .f32 0x3E800000#32 * k0_pay12 (F := Ideal) v3 (ix2 r k))
        * ((Ideal.ofBits .f32 0x3F800000#32 - k0_pay13 (F := Ideal) v3 (ix2 r k))
          * (Ideal.ofBits .f32 0x3F800000#32 - k0_pay13 (F := Ideal) v3 (ix2 r k)))
      - k0_pay14 (F := Ideal) v3 (ix2 r k)) * v28 (ix2 j k) = _
  rw [pay12_apply v3 r k _ (hx k), pay13_apply v3 r k _ (hx k), pay14_apply v3 r k _ (hx k), ht k,
    lit_quarter, lit_one]
  simp only [← EReal.coe_mul, ← EReal.coe_sub]
  rfl

end Cert.KernelIdeal.PayIdeal

end
-- ==== Proof.Acc.lean ====
/-
  The accumulators' contents, over the reals.

  A row's 65536 pixels are visited in 16 blocks of 4096. After l blocks an accumulator holds, for the query row
  `row` (and, for two of them, the target j), the sum over the first l blocks of a per-pixel term f row j p, with
  p = 4096 * l' + k' the pixel of block l' at offset k'. Adding block l gives the sum over l + 1 blocks
  (`blockSum_succ`), and sixteen blocks are all the pixels (`blockSum_all`): the pixels 0 .. 65535 written as
  4096 * l' + k' with l' < 16, k' < 4096, each exactly once.
-/
import Mathlib.Algebra.BigOperators.Fin
import Mathlib.Algebra.BigOperators.Intervals
import Mathlib.Data.Real.Basic
import Mathlib.Logic.Equiv.Fin.Basic

noncomputable section

namespace Cert.Spec

open Finset

/-- The sum of a per-pixel term g over the first l blocks of 4096 pixels. -/
def blockSum (g : ℕ → ℝ) (l : ℕ) : ℝ := ∑ l' ∈ range l, ∑ k' : Fin 4096, g (4096 * l' + k'.val)

theorem blockSum_zero (g : ℕ → ℝ) : blockSum g 0 = 0 := by
  unfold blockSum; rw [range_zero, sum_empty]

/-- Adding block l's pixels. -/
theorem blockSum_succ (g : ℕ → ℝ) (l : ℕ) :
    blockSum g (l + 1) = blockSum g l + ∑ k' : Fin 4096, g (4096 * l + k'.val) := by
  unfold blockSum; rw [sum_range_succ]

/-- Sixteen blocks of 4096 are the 65536 pixels, each once. -/
theorem blockSum_all (g : ℕ → ℝ) : blockSum g 16 = ∑ k : Fin 65536, g k.val := by
  unfold blockSum
  rw [← Fin.sum_univ_eq_sum_range (fun l' => ∑ k' : Fin 4096, g (4096 * l' + k'.val)) 16]
  rw [← Finset.sum_product']
  refine Finset.sum_bij' (fun (p : Fin 16 × Fin 4096) _ => (⟨4096 * p.1.val + p.2.val, by have := p.1.isLt; have := p.2.isLt; omega⟩ : Fin 65536))
    (fun (k : Fin 65536) _ => ((⟨k.val / 4096, by have := k.isLt; omega⟩ : Fin 16), (⟨k.val % 4096, Nat.mod_lt _ (by norm_num)⟩ : Fin 4096)))
    (fun _ _ => Finset.mem_univ _) (fun _ _ => Finset.mem_univ _) ?_ ?_ (fun _ _ => rfl)
  · rintro ⟨⟨a, ha⟩, ⟨b, hb⟩⟩ _
    simp only [Prod.mk.injEq, Fin.mk.injEq]
    constructor <;> omega
  · rintro ⟨k, hk⟩ _
    simp only [Fin.mk.injEq]
    omega

end Cert.Spec

end
-- ==== Proof.ValSpec.lean ====
/-
  What the kernel's buffers hold, as mathematics over the reals.

  Query block n covers rows 160 n .. 160 n + 159 of the 600 query rows; only the rows below 600 are inside the
  array (the last block overhangs by 40). On those rows, after l of the 16 pixel blocks, the four accumulators
  hold (GoodAt): the sum over the first l blocks of Af(x) * t (mask), of sig(x) * t (intersection), of negf(x)
  (negative sum) and of sig(x) (probability sum); the last two do not depend on the target j. Adding a block's
  contribution moves GoodAt from l to l + 1 (goodAt_succ); starting from zero gives l = 1 (goodAt_one). After all
  sixteen, the two outputs' blocks are, on the rows inside the array,
      mask cost  = (mask + negsum) * (1/65536)
      dice cost  = 1 - (2 * inter + 1) / ((psum + tsum j) + 1).
  Nothing is said of the overhanging rows.
-/
import proofs.«412977_j52527450030676_2_alg».proof.KernelIdeal
import proofs.«412977_j52527450030676_2_alg».proof.Proof.Spec
import proofs.«412977_j52527450030676_2_alg».proof.Proof.Acc
import Idealize.ShloMosaic.Lib.ValueIdx

noncomputable section

namespace Cert.ValSpec

open Idealize.ShloMosaic Cert.Spec ValueIdx

/-- The shape of an accumulator and of an output block: 160 rows by 128 lanes. -/
abbrev SB : Shape := Cert.KernelIdeal.S160x128

variable (xr tp : ℕ → ℕ → ℝ) (ts : ℕ → ℝ)

/-- Row `row`, target j: the sum over the first l pixel blocks of Af(x) * t. -/
def accA (row j l : ℕ) : ℝ := blockSum (fun p => Af (xr row p) * tp j p) l
/-- ... of sig(x) * t. -/
def accI (row j l : ℕ) : ℝ := blockSum (fun p => sig (xr row p) * tp j p) l
/-- ... of negf(x). -/
def accN (row l : ℕ) : ℝ := blockSum (fun p => negf (xr row p)) l
/-- ... of sig(x). -/
def accP (row l : ℕ) : ℝ := blockSum (fun p => sig (xr row p)) l

/-- The four accumulators hold the sums over the first l pixel blocks, on the rows of query block n that lie
    inside the array. -/
def GoodAt (n l : ℕ) (X0 X1 X2 X3 : SB.Idx → EReal) : Prop :=
  ∀ (r : Fin 160) (j : Fin 128), 160 * n + r.val < 600 →
    X0 (ix2 r j) = ((accA xr tp (160 * n + r.val) j.val l : ℝ) : EReal)
    ∧ X1 (ix2 r j) = ((accI xr tp (160 * n + r.val) j.val l : ℝ) : EReal)
    ∧ X2 (ix2 r j) = ((accN xr (160 * n + r.val) l : ℝ) : EReal)
    ∧ X3 (ix2 r j) = ((accP xr (160 * n + r.val) l : ℝ) : EReal)

/-- Adding pixel block l's contribution to accumulators that hold l blocks gives l + 1 blocks. -/
theorem goodAt_succ (n l : ℕ) (X0 X1 X2 X3 Y0 Y1 Y2 Y3 : SB.Idx → EReal) (h : GoodAt xr tp n l X0 X1 X2 X3)
    (h0 : ∀ (r : Fin 160) (j : Fin 128), 160 * n + r.val < 600 → Y0 (ix2 r j) = X0 (ix2 r j)
        + ((∑ k' : Fin 4096, Af (xr (160 * n + r.val) (4096 * l + k'.val)) * tp j.val (4096 * l + k'.val) : ℝ) : EReal))
    (h1 : ∀ (r : Fin 160) (j : Fin 128), 160 * n + r.val < 600 → Y1 (ix2 r j) = X1 (ix2 r j)
        + ((∑ k' : Fin 4096, sig (xr (160 * n + r.val) (4096 * l + k'.val)) * tp j.val (4096 * l + k'.val) : ℝ) : EReal))
    (h2 : ∀ (r : Fin 160) (j : Fin 128), 160 * n + r.val < 600 → Y2 (ix2 r j) = X2 (ix2 r j)
        + ((∑ k' : Fin 4096, negf (xr (160 * n + r.val) (4096 * l + k'.val)) : ℝ) : EReal))
    (h3 : ∀ (r : Fin 160) (j : Fin 128), 160 * n + r.val < 600 → Y3 (ix2 r j) = X3 (ix2 r j)
        + ((∑ k' : Fin 4096, sig (xr (160 * n + r.val) (4096 * l + k'.val)) : ℝ) : EReal)) :
    GoodAt xr tp n (l + 1) Y0 Y1 Y2 Y3 := by
  intro r j hv
  obtain ⟨e0, e1, e2, e3⟩ := h r j hv
  refine ⟨?_, ?_, ?_, ?_⟩
  · rw [h0 r j hv, e0, ← EReal.coe_add]; unfold accA; rw [blockSum_succ]
  · rw [h1 r j hv, e1, ← EReal.coe_add]; unfold accI; rw [blockSum_succ]
  · rw [h2 r j hv, e2, ← EReal.coe_add]; unfold accN; rw [blockSum_succ]
  · rw [h3 r j hv, e3, ← EReal.coe_add]; unfold accP; rw [blockSum_succ]

/-- Accumulators that are zero hold no block. -/
theorem goodAt_zero (n : ℕ) (X0 X1 X2 X3 : SB.Idx → EReal)
    (h0 : ∀ (r : Fin 160) (j : Fin 128), X0 (ix2 r j) = 0) (h1 : ∀ (r : Fin 160) (j : Fin 128), X1 (ix2 r j) = 0)
    (h2 : ∀ (r : Fin 160) (j : Fin 128), X2 (ix2 r j) = 0) (h3 : ∀ (r : Fin 160) (j : Fin 128), X3 (ix2 r j) = 0) :
    GoodAt xr tp n 0 X0 X1 X2 X3 := by
  intro r j _
  refine ⟨?_, ?_, ?_, ?_⟩
  · rw [h0]; unfold accA; rw [blockSum_zero]; rfl
  · rw [h1]; unfold accI; rw [blockSum_zero]; rfl
  · rw [h2]; unfold accN; rw [blockSum_zero]; rfl
  · rw [h3]; unfold accP; rw [blockSum_zero]; rfl

/-- The mask cost's block for query block n: on the rows inside the array (mask + negsum) / 65536 over all sixteen
    pixel blocks; zero on the overhanging rows (a filler nothing reads). -/
def maskBlk (n : ℕ) : SB.Idx → EReal := fun y =>
  if 160 * n + (y 0).val < 600 then
    (((accA xr tp (160 * n + (y 0).val) (y 1).val 16 : ℝ) : EReal) + ((accN xr (160 * n + (y 0).val) 16 : ℝ) : EReal))
      * (((1 / 65536 : ℝ)) : EReal)
  else 0

/-- The dice cost's block for query block n, likewise. -/
def diceBlk (n : ℕ) : SB.Idx → EReal := fun y =>
  if 160 * n + (y 0).val < 600 then
    (1 : EReal) - Ideal.div (2 * ((accI xr tp (160 * n + (y 0).val) (y 1).val 16 : ℝ) : EReal) + 1)
      ((((accP xr (160 * n + (y 0).val) 16 : ℝ) : EReal) + ((ts (y 1).val : ℝ) : EReal)) + 1)
  else 0

theorem maskBlk_of_good (n : ℕ) (X0 X1 X2 X3 : SB.Idx → EReal) (h : GoodAt xr tp n 16 X0 X1 X2 X3)
    (r : Fin 160) (j : Fin 128) (hv : 160 * n + r.val < 600) :
    (X0 (ix2 r j) + X2 (ix2 r j)) * (((1 / 65536 : ℝ)) : EReal) = maskBlk xr tp n (ix2 r j) := by
  obtain ⟨e0, _, e2, _⟩ := h r j hv
  unfold maskBlk
  rw [if_pos (by simpa using hv), e0, e2]

theorem diceBlk_of_good (n : ℕ) (X0 X1 X2 X3 : SB.Idx → EReal) (h : GoodAt xr tp n 16 X0 X1 X2 X3)
    (s : EReal) (r : Fin 160) (j : Fin 128) (hs : s = ((ts j.val : ℝ) : EReal)) (hv : 160 * n + r.val < 600) :
    (1 : EReal) - Ideal.div (2 * X1 (ix2 r j) + 1) ((X3 (ix2 r j) + s) + 1) = diceBlk xr tp ts n (ix2 r j) := by
  obtain ⟨_, e1, _, e3⟩ := h r j hv
  unfold diceBlk
  rw [if_pos (by simpa using hv), e1, e3, hs]

end Cert.ValSpec

end
-- ==== Proof.Blocks.lean ====
/-
  Where the blocks sit. The grid is 4 x 16 and point t is (n, l) = (t / 16, t % 16). The mask logits [600, 65536] are read
  in blocks of 160 rows by 4096 lanes, block (n, l) starting at row 160 n and lane 4096 l; the padded target masks
  [128, 65536] and the padded target sums [1, 128] are one block each, the whole array; the two cost outputs [600, 128] are
  written in blocks of 160 rows by 128 lanes, block n starting at row 160 n. The last row block (n = 3) overhangs the 600
  rows by 40: a transfer of it moves rows 480 .. 599 only, that is the block's first 120 rows, so a block is known, and
  matters, exactly on its rows r with 160 n + r < 600. The outputs are written back at the last lane block of each row
  block (l = 15), each row of the array exactly once, by block (row / 160) at its row (row % 160).
-/
import proofs.«412977_j52527450030676_2_alg».proof.Proof.Kit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx
open Idealize.ShloMosaic.Rounds

variable {F : FTy → Type} [FloatOps F]
variable (m : (ℓ : Loc nD τ sig) → Buf (Elt F) ℓ)

/-- Point t of the 4 x 16 grid is (t / 16, t % 16). -/
theorem coords0 (t : Fin cfg0.N) : ((grid0.coords t) 0).val = t.val / 16 ∧ ((grid0.coords t) 1).val = t.val % 16 :=
  (by decide +kernel : ∀ t : Fin grid0.N, ((grid0.coords t) 0).val = t.val / 16 ∧ ((grid0.coords t) 1).val = t.val % 16) t

/-- Window 0 over the grid: its block index is (t / 16, t % 16); on the rows a transfer moves min(160, 600 - 160 (t / 16)) of the
    block's 160, on the lanes all 4096. -/
theorem win0_facts : ∀ t : Fin cfg0.N, win0_0.index t (0 : Fin 2) = t.val / 16 ∧ win0_0.index t (1 : Fin 2) = t.val % 16
    ∧ win0_0.xsize (grid0.coords t) (0 : Fin 2) = min 160 (600 - 160 * (t.val / 16)) ∧ win0_0.xsize (grid0.coords t) (1 : Fin 2) = 4096 :=
  (by decide +kernel : ∀ t : Fin grid0.N, win0_0.index t (0 : Fin 2) = t.val / 16 ∧ win0_0.index t (1 : Fin 2) = t.val % 16
    ∧ win0_0.xsize (grid0.coords t) (0 : Fin 2) = min 160 (600 - 160 * (t.val / 16)) ∧ win0_0.xsize (grid0.coords t) (1 : Fin 2) = 4096)

/-- A row of block (n, l) of the mask logits that lies inside the array holds, after the fetch, the array's entry at row 160 n + r and lane 4096 l + k,
    whatever the buffer held before. -/
theorem xblock_read (c : Dev nD) (t : Fin cfg0.N) (d : S160x4096.Idx → Elt F .f32) (r : Fin 160) (k' : Fin 4096) (hv : 160 * (t.val / 16) + r.val < 600) :
    (cfg0.win 0).fill (grid0.coords t) d (iblk m c 0 t) (ix2 r k')
      = (V m c main_v0 : S600x65536.Idx → Elt F .f32) (ix2 ⟨160 * (t.val / 16) + r.val, hv⟩ ⟨4096 * (t.val % 16) + k'.val, by have := k'.isLt; have := Nat.mod_lt t.val (show 16 > 0 by norm_num); omega⟩) := by
  obtain ⟨e0, e1, e2, e3⟩ := win0_facts t
  have hmv : (cfg0.win 0).moved (grid0.coords t) (ix2 r k') = true := by
    rw [Window.moved_iff]
    intro a
    match a with
    | ⟨0, _⟩ => show r.val < win0_0.xsize (grid0.coords t) (0 : Fin 2); rw [e2]; have := r.isLt; omega
    | ⟨1, _⟩ => show k'.val < win0_0.xsize (grid0.coords t) (1 : Fin 2); rw [e3]; exact k'.isLt
  unfold Window.fill
  rw [dif_pos hmv]
  show (V m c main_v0 : S600x65536.Idx → Elt F .f32) (((cfg0.win 0).blk t).view.emb _) = _
  refine congrArg (V m c main_v0 : S600x65536.Idx → Elt F .f32) ?_
  funext a; apply Fin.ext
  match a with
  | ⟨0, _⟩ => show win0_0.index t (0 : Fin 2) * 160 + 1 * r.val = 160 * (t.val / 16) + r.val; rw [e0]; omega
  | ⟨1, _⟩ => show win0_0.index t (1 : Fin 2) * 4096 + 1 * k'.val = 4096 * (t.val % 16) + k'.val; rw [e1]; omega

/-- Windows 1 and 2 have one block, the whole array: block index (0, 0) at every point. -/
theorem win12_facts : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, win0_1.index t (0 : Fin 2) = 0 ∧ win0_1.index t (1 : Fin 2) = 0
    ∧ win0_2.index t (0 : Fin 2) = 0 ∧ win0_2.index t (1 : Fin 2) = 0)

/-- The one block of the padded target masks is the array. -/
theorem iblk1_eq (c : Dev nD) (t : Fin cfg0.N) (y : S128x65536.Idx) :
    iblk m c 1 t y = (V m c main_v3 : S128x65536.Idx → Elt F .bf16) y := by
  obtain ⟨e0, e1, -, -⟩ := win12_facts t
  show (V m c main_v3 : S128x65536.Idx → Elt F .bf16) (((cfg0.win 1).blk t).view.emb y) = _
  refine congrArg (V m c main_v3 : S128x65536.Idx → Elt F .bf16) ?_
  funext a; apply Fin.ext
  match a with
  | ⟨0, _⟩ => show win0_1.index t (0 : Fin 2) * 128 + 1 * (y 0).val = (y 0).val; rw [e0]; omega
  | ⟨1, _⟩ => show win0_1.index t (1 : Fin 2) * 65536 + 1 * (y 1).val = (y 1).val; rw [e1]; omega

/-- The one block of the padded target sums is the array. -/
theorem iblk2_eq (c : Dev nD) (t : Fin cfg0.N) (y : S1x128.Idx) :
    iblk m c 2 t y = (V m c main_v8 : S1x128.Idx → Elt F .f32) y := by
  obtain ⟨-, -, e0, e1⟩ := win12_facts t
  show (V m c main_v8 : S1x128.Idx → Elt F .f32) (((cfg0.win 2).blk t).view.emb y) = _
  refine congrArg (V m c main_v8 : S1x128.Idx → Elt F .f32) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Windows 3 and 4 over the grid: block index (t / 16, 0); a transfer moves min(160, 600 - 160 (t / 16)) rows and all 128 lanes. -/
theorem win3_facts : ∀ t : Fin cfg0.N, win0_3.index t (0 : Fin 2) = t.val / 16 ∧ win0_3.index t (1 : Fin 2) = 0
    ∧ win0_3.xsize (grid0.coords t) (0 : Fin 2) = min 160 (600 - 160 * (t.val / 16)) ∧ win0_3.xsize (grid0.coords t) (1 : Fin 2) = 128 :=
  (by decide +kernel : ∀ t : Fin grid0.N, win0_3.index t (0 : Fin 2) = t.val / 16 ∧ win0_3.index t (1 : Fin 2) = 0
    ∧ win0_3.xsize (grid0.coords t) (0 : Fin 2) = min 160 (600 - 160 * (t.val / 16)) ∧ win0_3.xsize (grid0.coords t) (1 : Fin 2) = 128)
theorem win4_facts : ∀ t : Fin cfg0.N, win0_4.index t (0 : Fin 2) = t.val / 16 ∧ win0_4.index t (1 : Fin 2) = 0
    ∧ win0_4.xsize (grid0.coords t) (0 : Fin 2) = min 160 (600 - 160 * (t.val / 16)) ∧ win0_4.xsize (grid0.coords t) (1 : Fin 2) = 128 :=
  (by decide +kernel : ∀ t : Fin grid0.N, win0_4.index t (0 : Fin 2) = t.val / 16 ∧ win0_4.index t (1 : Fin 2) = 0
    ∧ win0_4.xsize (grid0.coords t) (0 : Fin 2) = min 160 (600 - 160 * (t.val / 16)) ∧ win0_4.xsize (grid0.coords t) (1 : Fin 2) = 128)

/-- What a write-back of block n of the first cost output moves is the block's rows inside the array, all 128 lanes: two contents that
    agree there are moved alike. -/
theorem cut_congr_3 (t : Fin cfg0.N) (X Y : S160x128.Idx → Elt F .f32)
    (h : ∀ (r : Fin 160) (j : Fin 128), 160 * (t.val / 16) + r.val < 600 → X (ix2 r j) = Y (ix2 r j)) :
    (cfg0.win 3).cut (grid0.coords t) X = (cfg0.win 3).cut (grid0.coords t) Y := by
  obtain ⟨-, -, e2, e3⟩ := win3_facts t
  funext j
  have h0 : (j 0).val < win0_3.xsize (grid0.coords t) (0 : Fin 2) := (j 0).isLt
  have h1 : (j 1).val < win0_3.xsize (grid0.coords t) (1 : Fin 2) := (j 1).isLt
  rw [e2] at h0; rw [e3] at h1
  have hx : (cfg0.win 3).xinj (grid0.coords t) j = ix2 (⟨(j 0).val, by omega⟩ : Fin 160) (⟨(j 1).val, h1⟩ : Fin 128) := by
    funext a; match a with | ⟨0, _⟩ => rfl | ⟨1, _⟩ => rfl
  show X ((cfg0.win 3).xinj (grid0.coords t) j) = Y ((cfg0.win 3).xinj (grid0.coords t) j)
  rw [hx]
  exact h _ _ (by show 160 * (t.val / 16) + (j 0).val < 600; omega)

/-- So contents X that agree with Y on the rows inside the array are Y's moved part laid over X. -/
theorem fill_of_agree_3 (t : Fin cfg0.N) (X Y : S160x128.Idx → Elt F .f32)
    (h : ∀ (r : Fin 160) (j : Fin 128), 160 * (t.val / 16) + r.val < 600 → X (ix2 r j) = Y (ix2 r j)) :
    X = (cfg0.win 3).fill (grid0.coords t) X ((cfg0.win 3).cut (grid0.coords t) Y) :=
  ((cfg0.win 3).fill_congr_cut (grid0.coords t) (cut_congr_3 t X Y h)).symm

/-- The same for the second cost output. -/
theorem cut_congr_4 (t : Fin cfg0.N) (X Y : S160x128.Idx → Elt F .f32)
    (h : ∀ (r : Fin 160) (j : Fin 128), 160 * (t.val / 16) + r.val < 600 → X (ix2 r j) = Y (ix2 r j)) :
    (cfg0.win 4).cut (grid0.coords t) X = (cfg0.win 4).cut (grid0.coords t) Y := by
  obtain ⟨-, -, e2, e3⟩ := win4_facts t
  funext j
  have h0 : (j 0).val < win0_4.xsize (grid0.coords t) (0 : Fin 2) := (j 0).isLt
  have h1 : (j 1).val < win0_4.xsize (grid0.coords t) (1 : Fin 2) := (j 1).isLt
  rw [e2] at h0; rw [e3] at h1
  have hx : (cfg0.win 4).xinj (grid0.coords t) j = ix2 (⟨(j 0).val, by omega⟩ : Fin 160) (⟨(j 1).val, h1⟩ : Fin 128) := by
    funext a; match a with | ⟨0, _⟩ => rfl | ⟨1, _⟩ => rfl
  show X ((cfg0.win 4).xinj (grid0.coords t) j) = Y ((cfg0.win 4).xinj (grid0.coords t) j)
  rw [hx]
  exact h _ _ (by show 160 * (t.val / 16) + (j 0).val < 600; omega)

theorem fill_of_agree_4 (t : Fin cfg0.N) (X Y : S160x128.Idx → Elt F .f32)
    (h : ∀ (r : Fin 160) (j : Fin 128), 160 * (t.val / 16) + r.val < 600 → X (ix2 r j) = Y (ix2 r j)) :
    X = (cfg0.win 4).fill (grid0.coords t) X ((cfg0.win 4).cut (grid0.coords t) Y) :=
  ((cfg0.win 4).fill_congr_cut (grid0.coords t) (cut_congr_4 t X Y h)).symm

/-- Equal row blocks at equal places are equal entries. -/
theorem blk_congr (B : ℕ → S160x128.Idx → Elt F .f32) {n n' : ℕ} {x x' : S160x128.Idx} (hn : n = n') (hx : x = x') :
    B n x = B n' x' := by subst hn; subst hx; rfl

/-- The first cost output after the run, for any proof data whose block after the body at point t is a function B of the row block
    t / 16 alone: the array is written back at the last lane block of each row block, block n onto rows 160 n .. min(160 n + 159, 599),
    so each row is written exactly once and entry (row, j) of the array is entry (row % 160, j) of block row / 160. -/
theorem arrAt3_final {c : Dev nD} (dat : Pipeline.Dat τ (Elt F) Unit ℕ (UR sig nD τ) ℕ cfg0 c) (B : ℕ → S160x128.Idx → Elt F .f32)
    (hB : ∀ t : Fin cfg0.N, dat.after 3 t = B (t.val / 16)) (row : Fin 600) (j : Fin 128) :
    (dat.arrAt 3 cfg0.N : S600x128.Idx → Elt F .f32) (ix2 row j)
      = B (row.val / 160) (ix2 ⟨row.val % 160, Nat.mod_lt _ (by norm_num)⟩ j) := by
  have hfin : dat.arrAt 3 cfg0.N
      = (fun i : S600x128.Idx => B ((i 0).val / 160) (ix2 (⟨(i 0).val % 160, Nat.mod_lt _ (by norm_num)⟩ : Fin 160) (⟨(i 1).val, (i 1).isLt⟩ : Fin 128))) := by
    refine dat.arrAt_eq_of_cover 3 _ (fun t hf => ?_) (fun i => ?_)
    · -- what a flushing point writes back is its block of that function
      obtain ⟨e0, e1, e2, e3⟩ := win3_facts t
      show (cfg0.win 3).cut (grid0.coords t) (dat.after 3 t) = _
      rw [hB t]
      funext jj
      have h0 : (jj 0).val < win0_3.xsize (grid0.coords t) (0 : Fin 2) := (jj 0).isLt
      have h1 : (jj 1).val < win0_3.xsize (grid0.coords t) (1 : Fin 2) := (jj 1).isLt
      rw [e2] at h0; rw [e3] at h1
      have a0 : ((((cfg0.win 3).blk t).view.emb jj) 0).val = win0_3.index t (0 : Fin 2) * 160 + 1 * (jj 0).val := rfl
      have a1 : ((((cfg0.win 3).blk t).view.emb jj) 1).val = win0_3.index t (1 : Fin 2) * 128 + 1 * (jj 1).val := rfl
      show B (t.val / 16) ((cfg0.win 3).xinj (grid0.coords t) jj)
        = B (((((cfg0.win 3).blk t).view.emb jj) 0).val / 160)
            (ix2 (⟨((((cfg0.win 3).blk t).view.emb jj) 0).val % 160, Nat.mod_lt _ (by norm_num)⟩ : Fin 160)
              (⟨((((cfg0.win 3).blk t).view.emb jj) 1).val, ((((cfg0.win 3).blk t).view.emb jj) 1).isLt⟩ : Fin 128))
      refine blk_congr B ?_ ?_
      · rw [a0, e0]; omega
      · funext a
        match a with
        | ⟨0, _⟩ => apply Fin.ext; show (jj 0).val = ((((cfg0.win 3).blk t).view.emb jj) 0).val % 160; rw [a0, e0]; omega
        | ⟨1, _⟩ => apply Fin.ext; show (jj 1).val = ((((cfg0.win 3).blk t).view.emb jj) 1).val; rw [a1, e1]; omega
    · -- every row lies in the block written back at the last point of its row block
      have hi0 : (i 0).val < 600 := (i 0).isLt
      have hi1 : (i 1).val < 128 := (i 1).isLt
      have hlt : 16 * ((i 0).val / 160) + 15 < cfg0.N := by show _ < grid0.N; rw [N_0]; omega
      obtain ⟨e0, e1, e2, e3⟩ := win3_facts ⟨16 * ((i 0).val / 160) + 15, hlt⟩
      have tv : (⟨16 * ((i 0).val / 160) + 15, hlt⟩ : Fin cfg0.N).val / 16 = (i 0).val / 160 := by show (16 * ((i 0).val / 160) + 15) / 16 = _; omega
      rw [tv] at e0 e2
      refine ⟨⟨16 * ((i 0).val / 160) + 15, hlt⟩, (flush0_3 _).2 (by show (16 * ((i 0).val / 160) + 15) % 16 = 15; omega), ?_⟩
      show i ∈ ((View.whole main_v9_0).slice (win0_3.rect ⟨16 * ((i 0).val / 160) + 15, hlt⟩)).set
      rw [View.set_slice_whole, Rect.mem_set_unit]
      intro a
      match a with
      | ⟨0, _⟩ =>
        show win0_3.index ⟨16 * ((i 0).val / 160) + 15, hlt⟩ (0 : Fin 2) * 160 ≤ (i 0).val
          ∧ (i 0).val < win0_3.index ⟨16 * ((i 0).val / 160) + 15, hlt⟩ (0 : Fin 2) * 160 + win0_3.xsize (grid0.coords ⟨16 * ((i 0).val / 160) + 15, hlt⟩) (0 : Fin 2)
        rw [e0, e2]; omega
      | ⟨1, _⟩ =>
        show win0_3.index ⟨16 * ((i 0).val / 160) + 15, hlt⟩ (1 : Fin 2) * 128 ≤ (i 1).val
          ∧ (i 1).val < win0_3.index ⟨16 * ((i 0).val / 160) + 15, hlt⟩ (1 : Fin 2) * 128 + win0_3.xsize (grid0.coords ⟨16 * ((i 0).val / 160) + 15, hlt⟩) (1 : Fin 2)
        rw [e1, e3]; omega
  rw [hfin]

/-- The second cost output after the run, for any proof data whose block after the body at point t is a function B of the row block
    t / 16 alone: the array is written back at the last lane block of each row block, block n onto rows 160 n .. min(160 n + 159, 599),
    so each row is written exactly once and entry (row, j) of the array is entry (row % 160, j) of block row / 160. -/
theorem arrAt4_final {c : Dev nD} (dat : Pipeline.Dat τ (Elt F) Unit ℕ (UR sig nD τ) ℕ cfg0 c) (B : ℕ → S160x128.Idx → Elt F .f32)
    (hB : ∀ t : Fin cfg0.N, dat.after 4 t = B (t.val / 16)) (row : Fin 600) (j : Fin 128) :
    (dat.arrAt 4 cfg0.N : S600x128.Idx → Elt F .f32) (ix2 row j)
      = B (row.val / 160) (ix2 ⟨row.val % 160, Nat.mod_lt _ (by norm_num)⟩ j) := by
  have hfin : dat.arrAt 4 cfg0.N
      = (fun i : S600x128.Idx => B ((i 0).val / 160) (ix2 (⟨(i 0).val % 160, Nat.mod_lt _ (by norm_num)⟩ : Fin 160) (⟨(i 1).val, (i 1).isLt⟩ : Fin 128))) := by
    refine dat.arrAt_eq_of_cover 4 _ (fun t hf => ?_) (fun i => ?_)
    · -- what a flushing point writes back is its block of that function
      obtain ⟨e0, e1, e2, e3⟩ := win4_facts t
      show (cfg0.win 4).cut (grid0.coords t) (dat.after 4 t) = _
      rw [hB t]
      funext jj
      have h0 : (jj 0).val < win0_4.xsize (grid0.coords t) (0 : Fin 2) := (jj 0).isLt
      have h1 : (jj 1).val < win0_4.xsize (grid0.coords t) (1 : Fin 2) := (jj 1).isLt
      rw [e2] at h0; rw [e3] at h1
      have a0 : ((((cfg0.win 4).blk t).view.emb jj) 0).val = win0_4.index t (0 : Fin 2) * 160 + 1 * (jj 0).val := rfl
      have a1 : ((((cfg0.win 4).blk t).view.emb jj) 1).val = win0_4.index t (1 : Fin 2) * 128 + 1 * (jj 1).val := rfl
      show B (t.val / 16) ((cfg0.win 4).xinj (grid0.coords t) jj)
        = B (((((cfg0.win 4).blk t).view.emb jj) 0).val / 160)
            (ix2 (⟨((((cfg0.win 4).blk t).view.emb jj) 0).val % 160, Nat.mod_lt _ (by norm_num)⟩ : Fin 160)
              (⟨((((cfg0.win 4).blk t).view.emb jj) 1).val, ((((cfg0.win 4).blk t).view.emb jj) 1).isLt⟩ : Fin 128))
      refine blk_congr B ?_ ?_
      · rw [a0, e0]; omega
      · funext a
        match a with
        | ⟨0, _⟩ => apply Fin.ext; show (jj 0).val = ((((cfg0.win 4).blk t).view.emb jj) 0).val % 160; rw [a0, e0]; omega
        | ⟨1, _⟩ => apply Fin.ext; show (jj 1).val = ((((cfg0.win 4).blk t).view.emb jj) 1).val; rw [a1, e1]; omega
    · -- every row lies in the block written back at the last point of its row block
      have hi0 : (i 0).val < 600 := (i 0).isLt
      have hi1 : (i 1).val < 128 := (i 1).isLt
      have hlt : 16 * ((i 0).val / 160) + 15 < cfg0.N := by show _ < grid0.N; rw [N_0]; omega
      obtain ⟨e0, e1, e2, e3⟩ := win4_facts ⟨16 * ((i 0).val / 160) + 15, hlt⟩
      have tv : (⟨16 * ((i 0).val / 160) + 15, hlt⟩ : Fin cfg0.N).val / 16 = (i 0).val / 160 := by show (16 * ((i 0).val / 160) + 15) / 16 = _; omega
      rw [tv] at e0 e2
      refine ⟨⟨16 * ((i 0).val / 160) + 15, hlt⟩, (flush0_4 _).2 (by show (16 * ((i 0).val / 160) + 15) % 16 = 15; omega), ?_⟩
      show i ∈ ((View.whole main_v9_1).slice (win0_4.rect ⟨16 * ((i 0).val / 160) + 15, hlt⟩)).set
      rw [View.set_slice_whole, Rect.mem_set_unit]
      intro a
      match a with
      | ⟨0, _⟩ =>
        show win0_4.index ⟨16 * ((i 0).val / 160) + 15, hlt⟩ (0 : Fin 2) * 160 ≤ (i 0).val
          ∧ (i 0).val < win0_4.index ⟨16 * ((i 0).val / 160) + 15, hlt⟩ (0 : Fin 2) * 160 + win0_4.xsize (grid0.coords ⟨16 * ((i 0).val / 160) + 15, hlt⟩) (0 : Fin 2)
        rw [e0, e2]; omega
      | ⟨1, _⟩ =>
        show win0_4.index ⟨16 * ((i 0).val / 160) + 15, hlt⟩ (1 : Fin 2) * 128 ≤ (i 1).val
          ∧ (i 1).val < win0_4.index ⟨16 * ((i 0).val / 160) + 15, hlt⟩ (1 : Fin 2) * 128 + win0_4.xsize (grid0.coords ⟨16 * ((i 0).val / 160) + 15, hlt⟩) (1 : Fin 2)
        rw [e1, e3]; omega
  rw [hfin]

end Cert.KernelIdeal.Hand

end
-- ==== Proof.Step.lean ====
/-
  One step of the accumulation, over the reals.

  At grid point t = (n, l) the body adds pixel block l to the four accumulators. On a row r of query block n that lies
  inside the array (160 n + r < 600) the mask logits' buffer holds pixels 4096 l .. 4096 l + 4095 of query row
  160 n + r, and the loaded target block holds the same pixels of every padded target; so the update of the mask
  accumulator adds the sum over those pixels of Af(x) * t, that of the intersection accumulator the sum of
  sig(x) * t, and the two lane sums add the sums of negf(x) and of sig(x). Hence accumulators that hold the sums
  over l pixel blocks hold, after the body, the sums over l + 1; starting from the zero fill they hold one block;
  and after all sixteen the two stores of the last step are the mask cost and the dice cost of the query block.
  Every operation involved is a sum along the row, so the rows past the array's end are never consulted.
-/
import proofs.«412977_j52527450030676_2_alg».proof.Proof.Kit
import proofs.«412977_j52527450030676_2_alg».proof.Proof.Pieces
import proofs.«412977_j52527450030676_2_alg».proof.Proof.PayIdeal
import proofs.«412977_j52527450030676_2_alg».proof.Proof.ValSpec
import proofs.«412977_j52527450030676_2_alg».proof.Proof.Blocks

set_option maxRecDepth 16384

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Cert.KernelIdeal.PayIdeal Cert.ValSpec Cert.Spec ValueIdx

variable (m : (ℓ : Loc nD τ sig) → Buf (Elt Ideal) ℓ) (ρ : Dev nD → PrngReg)
variable (xr tp : ℕ → ℕ → ℝ) (ts : ℕ → ℝ)

/-- What the arrays the region finds read as, over the reals: the mask logits x, the padded targets t, the padded
    target sums. (They hold under the statement's precondition; the bridge supplies them.) -/
structure Reads (c : Dev nD) : Prop where
  hx : ∀ (n : Fin 600) (k : Fin 65536), (V m c main_v0 : S600x65536.Idx → EReal) (ix2 n k) = ((xr n.val k.val : ℝ) : EReal)
  ht : ∀ (j : Fin 128) (k : Fin 65536), (V m c main_v3 : S128x65536.Idx → EReal) (ix2 j k) = ((tp j.val k.val : ℝ) : EReal)
  hs : ∀ (j : Fin 128), (V m c main_v8 : S1x128.Idx → EReal) (ix2 0 j) = ((ts j.val : ℝ) : EReal)

/-- The step on any blocks: if, on the rows of query block n inside the array, the logits block x0 reads pixel block l of
    x, and the target block tb reads pixel block l of the padded targets, then the four updates take accumulators
    holding l pixel blocks to accumulators holding l + 1. -/
theorem step_of_rows (n l : ℕ) (x0 : Vec Ideal S160x4096 .f32) (tb : Vec Ideal S128x4096 .bf16)
    (X0 X1 X2 X3 : S160x128.Idx → EReal)
    (hx : ∀ (r : Fin 160), 160 * n + r.val < 600 → ∀ k : Fin 4096,
      x0 (ix2 r k) = ((xr (160 * n + r.val) (4096 * l + k.val) : ℝ) : EReal))
    (ht : ∀ (j : Fin 128) (k : Fin 4096), tb (ix2 j k) = ((tp j.val (4096 * l + k.val) : ℝ) : EReal))
    (hG : GoodAt xr tp n l X0 X1 X2 X3) :
    GoodAt xr tp n (l + 1) (k0_pay17 (F := Ideal) x0 tb X0) (k0_pay1 (F := Ideal) (k0_pay15 tb) (k0_pay16 x0) X1)
      (k0_pay2 (F := Ideal) (k0_pay14 x0) X2) (k0_pay3 (F := Ideal) (k0_pay13 x0) X3) := by
  refine goodAt_succ xr tp n l X0 X1 X2 X3 _ _ _ _ hG ?_ ?_ ?_ ?_
  · intro r j hv
    exact pay17_apply x0 tb X0 r j (fun k => xr (160 * n + r.val) (4096 * l + k.val))
      (fun k => tp j.val (4096 * l + k.val)) (hx r hv) (ht j)
  · intro r j hv
    exact pay1_apply (k0_pay15 tb) (k0_pay16 x0) X1 r j (fun k => Spec.sig (xr (160 * n + r.val) (4096 * l + k.val)))
      (fun k => tp j.val (4096 * l + k.val))
      (fun k => pay16_apply x0 r k _ (hx r hv k))
      (fun k => (congrFun (pay15_eq tb) (ix2 j k)).trans (ht j k))
  · intro r j hv
    exact pay2_apply (k0_pay14 x0) X2 r j (fun k => negf (xr (160 * n + r.val) (4096 * l + k.val)))
      (fun k => pay14_apply x0 r k _ (hx r hv k))
  · intro r j hv
    exact pay3_apply (k0_pay13 x0) X3 r j (fun k => Spec.sig (xr (160 * n + r.val) (4096 * l + k.val)))
      (fun k => pay13_apply x0 r k _ (hx r hv k))

/-- The mask logits' staging buffer at point t = (n, l), filled out past the array's end with anything. -/
abbrev xfill (c : Dev nD) (t : Fin cfg0.N) (d : S160x4096.Idx → EReal) : Vec Ideal S160x4096 .f32 :=
  (cfg0.win 0).fill (grid0.coords t) d (iblk m c 0 t)
/-- The 128 x 4096 target block the body loads at point t. -/
abbrev tload (c : Dev nD) (t : Fin cfg0.N) : Vec Ideal S128x4096 .bf16 := tblk (grid0.coords t) (iblk m c 1 t)

/-- On a row r of query block n inside the array, pixel k of the logits buffer is pixel 4096 l + k of query row 160 n + r. -/
theorem xrow (c : Dev nD) (hR : Reads m xr tp ts c) (t : Fin cfg0.N) (d : S160x4096.Idx → EReal)
    (r : Fin 160) (hv : 160 * (t.val / 16) + r.val < 600) (k : Fin 4096) :
    xfill m c t d (ix2 r k) = ((xr (160 * (t.val / 16) + r.val) (4096 * (t.val % 16) + k.val) : ℝ) : EReal) :=
  (xblock_read m c t d r k hv).trans (hR.hx _ _)

/-- Row j, pixel k of the loaded target block is pixel 4096 l + k of padded target j. -/
theorem trow (c : Dev nD) (hR : Reads m xr tp ts c) (t : Fin cfg0.N) (j : Fin 128) (k : Fin 4096) :
    tload m c t (ix2 j k) = ((tp j.val (4096 * (t.val % 16) + k.val) : ℝ) : EReal) := by
  refine (tblk_apply (grid0.coords t) (iblk m c 1 t) j k).trans ?_
  refine (iblk1_eq m c t _).trans ?_
  refine (hR.ht j _).trans ?_
  show ((tp j.val (4096 * ((grid0.coords t) 1).val + k.val) : ℝ) : EReal) = _
  rw [(coords0 t).2]

/-- The four accumulators after the body has added pixel block l = t % 16 to contents holding l blocks. -/
theorem stepGen (c : Dev nD) (hR : Reads m xr tp ts c) (t : Fin cfg0.N) (d : S160x4096.Idx → EReal)
    (X0 X1 X2 X3 : S160x128.Idx → EReal) (hG : GoodAt xr tp (t.val / 16) (t.val % 16) X0 X1 X2 X3) :
    GoodAt xr tp (t.val / 16) (t.val % 16 + 1)
      (k0_pay17 (F := Ideal) ((cfg0.win 0).fill (grid0.coords t) d (iblk m c 0 t)) (tblk (grid0.coords t) (iblk m c 1 t)) X0)
      (k0_pay1 (F := Ideal) (k0_pay15 (tblk (grid0.coords t) (iblk m c 1 t))) (k0_pay16 ((cfg0.win 0).fill (grid0.coords t) d (iblk m c 0 t))) X1)
      (k0_pay2 (F := Ideal) (k0_pay14 ((cfg0.win 0).fill (grid0.coords t) d (iblk m c 0 t))) X2)
      (k0_pay3 (F := Ideal) (k0_pay13 ((cfg0.win 0).fill (grid0.coords t) d (iblk m c 0 t))) X3) :=
  step_of_rows xr tp (t.val / 16) (t.val % 16) (xfill m c t d) (tload m c t) X0 X1 X2 X3
    (fun r hv k => xrow m xr tp ts c hR t d r hv k) (fun j k => trow m xr tp ts c hR t j k) hG

/-- At the first pixel block of a query block the body zeroes the accumulators and adds that block: whatever
    they held, they end holding one block. -/
theorem stepZero (c : Dev nD) (hR : Reads m xr tp ts c) (t : Fin cfg0.N) (d : S160x4096.Idx → EReal) (h0 : t.val % 16 = 0) :
    GoodAt xr tp (t.val / 16) 1
      (k0_pay17 (F := Ideal) ((cfg0.win 0).fill (grid0.coords t) d (iblk m c 0 t)) (tblk (grid0.coords t) (iblk m c 1 t)) (k0_pay6 (F := Ideal)))
      (k0_pay1 (F := Ideal) (k0_pay15 (tblk (grid0.coords t) (iblk m c 1 t))) (k0_pay16 ((cfg0.win 0).fill (grid0.coords t) d (iblk m c 0 t))) (k0_pay7 (F := Ideal)))
      (k0_pay2 (F := Ideal) (k0_pay14 ((cfg0.win 0).fill (grid0.coords t) d (iblk m c 0 t))) (k0_pay8 (F := Ideal)))
      (k0_pay3 (F := Ideal) (k0_pay13 ((cfg0.win 0).fill (grid0.coords t) d (iblk m c 0 t))) (k0_pay9 (F := Ideal))) :=
  step_of_rows xr tp (t.val / 16) 0 (xfill m c t d) (tload m c t) (k0_pay6 (F := Ideal)) (k0_pay7 (F := Ideal)) (k0_pay8 (F := Ideal)) (k0_pay9 (F := Ideal))
    (fun r hv k => h0 ▸ xrow m xr tp ts c hR t d r hv k) (fun j k => h0 ▸ trow m xr tp ts c hR t j k)
    (goodAt_zero xr tp (t.val / 16) _ _ _ _ pay6_apply pay7_apply pay8_apply pay9_apply)

/-- After the last pixel block the first cost block is the mask cost of the query block, on the rows inside the array. -/
theorem outMask (t : Fin cfg0.N) (hl : t.val % 16 = 15) (Y0 Y1 Y2 Y3 : S160x128.Idx → EReal)
    (hG : GoodAt xr tp (t.val / 16) 16 Y0 Y1 Y2 Y3) (r : Fin 160) (j : Fin 128) (hv : 160 * (t.val / 16) + r.val < 600) :
    k0_pay4 (F := Ideal) Y0 Y2 (ix2 r j) = maskBlk xr tp (t.val / 16) (ix2 r j) :=
  (pay4_apply Y0 Y2 r j).trans (maskBlk_of_good xr tp (t.val / 16) Y0 Y1 Y2 Y3 hG r j hv)

/-- The target sums' staging buffer at point t. -/
abbrev sload (c : Dev nD) (t : Fin cfg0.N) : Vec Ideal S1x128 .f32 := iblk m c 2 t

/-- And the second is its dice cost: the target sums' buffer holds the padded target sums. -/
theorem outDice (c : Dev nD) (hR : Reads m xr tp ts c) (t : Fin cfg0.N) (hl : t.val % 16 = 15) (Y0 Y1 Y2 Y3 : S160x128.Idx → EReal)
    (hG : GoodAt xr tp (t.val / 16) 16 Y0 Y1 Y2 Y3) (r : Fin 160) (j : Fin 128) (hv : 160 * (t.val / 16) + r.val < 600) :
    k0_pay5 (F := Ideal) (iblk m c 2 t) Y3 Y1 (ix2 r j) = diceBlk xr tp ts (t.val / 16) (ix2 r j) :=
  (pay5_apply (sload m c t) Y3 Y1 r j).trans (diceBlk_of_good xr tp ts (t.val / 16) Y0 Y1 Y2 Y3 hG (sload m c t (ix2 (0 : Fin 1) j)) r j
    ((iblk2_eq m c t (ix2 (0 : Fin 1) j)).trans (hR.hs j)) hv)

end Cert.KernelIdeal.Val

end
-- ==== Proof.ValFrame.lean ====
/-
  The kernel's run at the ideal instance, with the values named.

  The four accumulators are tracked on the rows of the current query block that lie inside the array: before the
  point (n, l) with l > 0 they hold the sums over pixel blocks 0 .. l - 1 (ValSpec.GoodAt); before a point with
  l = 0 nothing is said of them (the body zeroes them there). Nothing is ever said of the 40 overhanging rows of the
  last query block: the fetch leaves words there that nothing names, and every operation of the body is row-local
  at this instance (a contraction and a lane sum are sums along the row), so those words never reach a row inside
  the array. After the body at a point with l = 15 the two outputs' staging buffers hold, on the rows inside the
  array, the mask cost and the dice cost of query block n (ValSpec.maskBlk, diceBlk).
-/
import proofs.«412977_j52527450030676_2_alg».proof.Proof.Kit
import proofs.«412977_j52527450030676_2_alg».proof.Proof.Step
import Idealize.ShloMosaic.Lib.ValueIdxCoords
import proofs.«412977_j52527450030676_2_alg».proof.Proof.ValSpec

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand Cert.ValSpec ValueIdx

local notation "𝕄" => MT nD τ sig Unit (Elt Ideal) ℕ (UR sig nD τ) ℕ

variable (m : (ℓ : Loc nD τ sig) → Buf (Elt Ideal) ℓ) (ρ : Dev nD → PrngReg)
variable (xr tp : ℕ → ℕ → ℝ) (ts : ℕ → ℝ)

/-- The invariant before position s of the grid's 64 points: the four accumulators at SOME contents which, when
    s is not the first point of a query block, hold the sums over the pixel blocks already visited on the rows
    inside the array; and the generator register at some state. -/
def PhiV (c : Dev nD) (s : ℕ) : sProp 𝕄 :=
  iprop(∃ X0, ∃ X1, ∃ X2, ∃ X3, ⌜s % 16 ≠ 0 → GoodAt xr tp (s / 16) (s % 16) X0 X1 X2 X3⌝
    ∗ iprop(owns (c : Thread nD τ) scM0_0 fullShare X0 ∗ owns (c : Thread nD τ) scM0_1 fullShare X1
        ∗ owns (c : Thread nD τ) scM0_2 fullShare X2 ∗ owns (c : Thread nD τ) scM0_3 fullShare X3)
    ∗ (∃ r, prngReg c r))

/-- The proof data: the arrays as the region finds them; after the body the mask logits' buffer at its block
    (filled out past the array's end with a word nothing reads), the two resident inputs at their arrays, the two
    outputs at the costs of the point's query block. -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (grid0.coords t) (fun _ => (0 : EReal)) (iblk m c 0 t)
    | ⟨1, _⟩ => iblk m c 1 t
    | ⟨2, _⟩ => iblk m c 2 t
    | ⟨3, _⟩ => maskBlk xr tp (t.val / 16)
    | ⟨4, _⟩ => diceBlk xr tp ts (t.val / 16)
  Φ t := PhiV xr tp c t.val
  q _ := fullShare
  owed _ := 0

theorem A_eq (c : Dev nD) (w : Fin cfg0.W) : (dats m xr tp ts 0 c).A w = V m c (Pipeline.arrRef spec0 w) := by
  dsimp only [dats]

theorem after0_0 (c : Dev nD) (t : Fin cfg0.N) :
    (dats m xr tp ts 0 c).after 0 t = (cfg0.win 0).fill (grid0.coords t) (fun _ => (0 : EReal)) (iblk m c 0 t) := by dsimp only [dats]
theorem after0_1 (c : Dev nD) (t : Fin cfg0.N) : (dats m xr tp ts 0 c).after 1 t = iblk m c 1 t := by dsimp only [dats]
theorem after0_2 (c : Dev nD) (t : Fin cfg0.N) : (dats m xr tp ts 0 c).after 2 t = iblk m c 2 t := by dsimp only [dats]
theorem after0_3 (c : Dev nD) (t : Fin cfg0.N) : (dats m xr tp ts 0 c).after 3 t = maskBlk xr tp (t.val / 16) := by dsimp only [dats]
theorem after0_4 (c : Dev nD) (t : Fin cfg0.N) : (dats m xr tp ts 0 c).after 4 t = diceBlk xr tp ts (t.val / 16) := by dsimp only [dats]

/-- The mask logits' buffer is fetched at every point: the block on the rows inside the array, d elsewhere. -/
theorem before0_0 (c : Dev nD) (t : Fin cfg0.N) (d) :
    (dats m xr tp ts 0 c).before 0 t d = (cfg0.win 0).fill (grid0.coords t) d (iblk m c 0 t) := by
  unfold Dat.before; rw [if_pos (fetch0_0 t)]; rfl

/-- The two resident inputs hold their arrays at every point, fetched there or not. -/
theorem before0_1 (c : Dev nD) (t : Fin cfg0.N) (d) : (dats m xr tp ts 0 c).before 1 t d = iblk m c 1 t :=
  ((dats m xr tp ts 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m xr tp ts 0 c).before 2 t d = iblk m c 2 t :=
  ((dats m xr tp ts 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- What the launch hands the region is the invariant before the first point: nothing is claimed there. -/
theorem hin (c : Dev nD) : Pipeline.ΦA spec0 c ⊢ (dats m xr tp ts 0 c).Φ 0 := by
  rw [show (dats m xr tp ts 0 c).Φ 0 = PhiV xr tp c 0 from rfl, PhiA0_eq]
  unfold PhiV
  iintro ⟨⟨⟨%d0, H0⟩, ⟨%d1, H1⟩, ⟨%d2, H2⟩, ⟨%d3, H3⟩⟩, Hg⟩
  iexists d0; iexists d1; iexists d2; iexists d3
  isplitr
  · ipureintro; intro h; exact absurd rfl h
  isplitl [H0 H1 H2 H3]
  · isplitl [H0]; · iexact H0
    isplitl [H1]; · iexact H1
    isplitl [H2]; · iexact H2
    iexact H3
  iexact Hg

/-- After the last point the invariant gives the accumulators back at some contents. -/
theorem hout (c : Dev nD) : (dats m xr tp ts 0 c).Φ (Fin.last cfg0.N) ⊢ Pipeline.ΦA spec0 c := by
  rw [show (dats m xr tp ts 0 c).Φ (Fin.last cfg0.N) = PhiV xr tp c (Fin.last cfg0.N).val from rfl, PhiA0_eq]
  unfold PhiV
  iintro ⟨%X0, %X1, %X2, %X3, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

/-! ## The body at a point -/

/-- What the body is called with at point t, the windows one by one, -/
def bodyPre (c : Dev nD) (t : Fin cfg0.N) : sProp 𝕄 :=
  iprop((dats m xr tp ts 0 c).Φ t.castSucc ∗ (dats m xr tp ts 0 c).owesAt () t.castSucc
    ∗ (∃ d, owns (c : Thread nD τ) (ms0_0 t) fullShare ((dats m xr tp ts 0 c).before 0 t d))
    ∗ (∃ d, owns (c : Thread nD τ) (ms0_1 t) fullShare ((dats m xr tp ts 0 c).before 1 t d))
    ∗ (∃ d, owns (c : Thread nD τ) (ms0_2 t) fullShare ((dats m xr tp ts 0 c).before 2 t d))
    ∗ (∃ d, owns (c : Thread nD τ) (ms0_3 t) fullShare ((dats m xr tp ts 0 c).before 3 t d))
    ∗ (∃ d, owns (c : Thread nD τ) (ms0_4 t) fullShare ((dats m xr tp ts 0 c).before 4 t d)))

/-- and what it returns. -/
def bodyPost (c : Dev nD) (t : Fin cfg0.N) : sProp 𝕄 :=
  iprop((dats m xr tp ts 0 c).Φ t.succ ∗ (dats m xr tp ts 0 c).owesAt () t.succ
    ∗ (dats m xr tp ts 0 c).leaves 0 t
    ∗ (dats m xr tp ts 0 c).leaves 1 t
    ∗ (dats m xr tp ts 0 c).leaves 2 t
    ∗ (dats m xr tp ts 0 c).leaves 3 t
    ∗ (dats m xr tp ts 0 c).leaves 4 t)

theorem leaves_0 (c : Dev nD) (t : Fin cfg0.N) : (dats m xr tp ts 0 c).leaves 0 t
    = iprop(∃ d, owns (c : Thread nD τ) (ms0_0 t) fullShare ((cfg0.win 0).fill (grid0.coords t) d (iblk m c 0 t))) := by
  unfold Dat.leaves; rw [liveAt0_0 t, after0_0]
  simp only [Window.cut_fill]
  rfl
theorem leaves_1 (c : Dev nD) (t : Fin cfg0.N) : (dats m xr tp ts 0 c).leaves 1 t
    = owns (c : Thread nD τ) (ms0_1 t) fullShare (iblk m c 1 t) := by
  unfold Dat.leaves; rw [liveAt0_1 t, after0_1]
theorem leaves_2 (c : Dev nD) (t : Fin cfg0.N) : (dats m xr tp ts 0 c).leaves 2 t
    = owns (c : Thread nD τ) (ms0_2 t) fullShare (iblk m c 2 t) := by
  unfold Dat.leaves; rw [liveAt0_2 t, after0_2]

theorem leaves_3_C (c : Dev nD) (t : Fin cfg0.N) (hc0 : ¬cond0_0 (grid0.coords t)) (hc1 : cond0_1 (grid0.coords t)) :
    (dats m xr tp ts 0 c).leaves 3 t
    = iprop(∃ d, owns (c : Thread nD τ) (ms0_3 t) fullShare ((cfg0.win 3).fill (grid0.coords t) d ((cfg0.win 3).cut (grid0.coords t) (maskBlk xr tp (t.val / 16))))) := by
  unfold Dat.leaves; rw [liveAt0_3_C t hc0 hc1, after0_3]; rfl
theorem leaves_4_C (c : Dev nD) (t : Fin cfg0.N) (hc0 : ¬cond0_0 (grid0.coords t)) (hc1 : cond0_1 (grid0.coords t)) :
    (dats m xr tp ts 0 c).leaves 4 t
    = iprop(∃ d, owns (c : Thread nD τ) (ms0_4 t) fullShare ((cfg0.win 4).fill (grid0.coords t) d ((cfg0.win 4).cut (grid0.coords t) (diceBlk xr tp ts (t.val / 16))))) := by
  unfold Dat.leaves; rw [liveAt0_4_C t hc0 hc1, after0_4]; rfl

theorem PhiV_castSucc (c : Dev nD) (t : Fin cfg0.N) : (dats m xr tp ts 0 c).Φ t.castSucc = PhiV xr tp c t.val := by
  dsimp only [dats]; simp only [Fin.coe_castSucc]

set_option maxHeartbeats 8000000 in
/-- The body at the first pixel block of a query block: the accumulators come in at anything, are zeroed, and end holding one block. -/
theorem sound_body_A (c : Dev nD) (hR : Reads m xr tp ts c) (t : Fin cfg0.N) (h0 : t.val % 16 = 0) :
    bodyPre m xr tp ts c t ⊢ wp frame (wpE (defs₀ (F := Ideal)) Variants.none c none) Set.univ (bodyAt0 t) (fun _ => bodyPost m xr tp ts c t) := by
  unfold bodyPre bodyPost bodyAt0
  simp only [before0_0, before0_1, before0_2]
  rw [show (dats m xr tp ts 0 c).owesAt () t.succ = (dats m xr tp ts 0 c).owesAt () t.castSucc from rfl]
  rw [show (dats m xr tp ts 0 c).Φ t.succ = PhiV xr tp c (t.val + 1) from rfl, PhiV_castSucc, leaves_0, leaves_1, leaves_2]
  have hN : t.val < 64 := lt_of_lt_of_eq t.isLt (show cfg0.N = 64 from N_0)
  unfold PhiV
  have h1 : ¬t.val % 16 = 15 := by omega
  have hc0 : cond0_0 (grid0.coords t) := (hcond0_0 t).mpr h0
  have hc1 : ¬cond0_1 (grid0.coords t) := fun h => h1 ((hcond0_1 t).mp h)
  rw [Dat.leaves_idle (dats m xr tp ts 0 c) 3 t (idleAt0_3_A t hc0 hc1) (noFlush0_3_A t hc0 hc1),
    Dat.leaves_idle (dats m xr tp ts 0 c) 4 t (idleAt0_4_A t hc0 hc1) (noFlush0_4_A t hc0 hc1)]
  iintro ⟨⟨%X0, %X1, %X2, %X3, -, ⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t)).2.2.2.2 _ _ Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  isplitl [HS2]; · iexists _; iexact HS2
  isplitl [HS3]; · iexists _; iexact HS3
  iintro ⟨H0, H1, H2, H3, H4, ⟨%f0, HS0⟩, ⟨%f1, HS1⟩, ⟨%f2, HS2⟩, ⟨%f3, HS3⟩⟩
  isplitl [HS0 HS1 HS2 HS3 Hg]
  · iexists (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
    iexists (sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
    iexists (sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
    iexists (sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
    isplitr
    · ipureintro
      intro _
      rw [sout0_A_0_eq, sout0_A_1_eq, sout0_A_2_eq, sout0_A_3_eq]
      have e1 : (t.val + 1) / 16 = t.val / 16 := by omega
      have e2 : (t.val + 1) % 16 = 1 := by omega
      rw [e1, e2]
      exact stepZero m xr tp ts c hR t d0 h0
    isplitl [HS0 HS1 HS2 HS3]
    · isplitl [HS0]
      · unfold owns; iexists _; isplitr
        swap; · iexact HS0
        ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
      isplitl [HS1]
      · unfold owns; iexists _; isplitr
        swap; · iexact HS1
        ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
      isplitl [HS2]
      · unfold owns; iexists _; isplitr
        swap; · iexact HS2
        ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
      · unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t))
    iexact Hg
  isplitl [Ho]; · iexact Ho
  isplitl [H0]; · iexists _; iexact H0
  isplitl [H1]; · iexact H1
  isplitl [H2]; · iexact H2
  isplitl [H3]; · iexists _; iexact H3
  iexists _; iexact H4

set_option maxHeartbeats 8000000 in
/-- The body at a middle pixel block: the accumulators go one block further; the outputs are handed back untouched. -/
theorem sound_body_B (c : Dev nD) (hR : Reads m xr tp ts c) (t : Fin cfg0.N) (h0 : ¬t.val % 16 = 0) (h1 : ¬t.val % 16 = 15) :
    bodyPre m xr tp ts c t ⊢ wp frame (wpE (defs₀ (F := Ideal)) Variants.none c none) Set.univ (bodyAt0 t) (fun _ => bodyPost m xr tp ts c t) := by
  unfold bodyPre bodyPost bodyAt0
  simp only [before0_0, before0_1, before0_2]
  rw [show (dats m xr tp ts 0 c).owesAt () t.succ = (dats m xr tp ts 0 c).owesAt () t.castSucc from rfl]
  rw [show (dats m xr tp ts 0 c).Φ t.succ = PhiV xr tp c (t.val + 1) from rfl, PhiV_castSucc, leaves_0, leaves_1, leaves_2]
  have hN : t.val < 64 := lt_of_lt_of_eq t.isLt (show cfg0.N = 64 from N_0)
  unfold PhiV
  have hc0 : ¬cond0_0 (grid0.coords t) := fun h => h0 ((hcond0_0 t).mp h)
  have hc1 : ¬cond0_1 (grid0.coords t) := fun h => h1 ((hcond0_1 t).mp h)
  rw [Dat.leaves_idle (dats m xr tp ts 0 c) 3 t (idleAt0_3_B t hc0 hc1) (noFlush0_3_B t hc0 hc1),
    Dat.leaves_idle (dats m xr tp ts 0 c) 4 t (idleAt0_4_B t hc0 hc1) (noFlush0_4_B t hc0 hc1)]
  iintro ⟨⟨%X0, %X1, %X2, %X3, %hG, ⟨HS0, HS1, HS2, HS3⟩, Hg⟩, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%f0, HS0⟩, ⟨%f1, HS1⟩, ⟨%f2, HS2⟩, ⟨%f3, HS3⟩⟩
  isplitl [HS0 HS1 HS2 HS3 Hg]
  · iexists (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    isplitr
    · ipureintro
      intro _
      rw [sout0_B_0_eq, sout0_B_1_eq, sout0_B_2_eq, sout0_B_3_eq]
      have e1 : (t.val + 1) / 16 = t.val / 16 := by omega
      have e2 : (t.val + 1) % 16 = t.val % 16 + 1 := by omega
      rw [e1, e2]
      exact stepGen m xr tp ts c hR t d0 X0 X1 X2 X3 (hG h0)
    isplitl [HS0 HS1 HS2 HS3]
    · isplitl [HS0]
      · unfold owns; iexists _; isplitr
        swap; · iexact HS0
        ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      isplitl [HS1]
      · unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      isplitl [HS2]
      · unfold owns; iexists _; isplitr
        swap; · iexact HS2
        ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      · unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexact Hg
  isplitl [Ho]; · iexact Ho
  isplitl [H0]; · iexists _; iexact H0
  isplitl [H1]; · iexact H1
  isplitl [H2]; · iexact H2
  isplitl [H3]; · iexists _; iexact H3
  iexists _; iexact H4

set_option maxHeartbeats 8000000 in
/-- The body at the last pixel block: the accumulators are completed and the two costs stored; on the rows inside the array the outputs' buffers end at the two costs. -/
theorem sound_body_C (c : Dev nD) (hR : Reads m xr tp ts c) (t : Fin cfg0.N) (h1 : t.val % 16 = 15) :
    bodyPre m xr tp ts c t ⊢ wp frame (wpE (defs₀ (F := Ideal)) Variants.none c none) Set.univ (bodyAt0 t) (fun _ => bodyPost m xr tp ts c t) := by
  unfold bodyPre bodyPost bodyAt0
  simp only [before0_0, before0_1, before0_2]
  rw [show (dats m xr tp ts 0 c).owesAt () t.succ = (dats m xr tp ts 0 c).owesAt () t.castSucc from rfl]
  rw [show (dats m xr tp ts 0 c).Φ t.succ = PhiV xr tp c (t.val + 1) from rfl, PhiV_castSucc, leaves_0, leaves_1, leaves_2]
  have hN : t.val < 64 := lt_of_lt_of_eq t.isLt (show cfg0.N = 64 from N_0)
  unfold PhiV
  have h0 : ¬t.val % 16 = 0 := by omega
  have hc0 : ¬cond0_0 (grid0.coords t) := fun h => h0 ((hcond0_0 t).mp h)
  have hc1 : cond0_1 (grid0.coords t) := (hcond0_1 t).mpr h1
  rw [leaves_3_C m xr tp ts c t hc0 hc1, leaves_4_C m xr tp ts c t hc0 hc1]
  iintro ⟨⟨%X0, %X1, %X2, %X3, %hG, ⟨HS0, HS1, HS2, HS3⟩, Hg⟩, Ho, ⟨%d0, H0⟩, ⟨%d1, H1⟩, ⟨%d2, H2⟩, ⟨%d3, H3⟩, ⟨%d4, H4⟩⟩
  have hG' : GoodAt xr tp (t.val / 16) 16
      (k0_pay17 (F := Ideal) ((cfg0.win 0).fill (grid0.coords t) d0 (iblk m c 0 t)) (tblk (grid0.coords t) (iblk m c 1 t)) X0)
      (k0_pay1 (F := Ideal) (k0_pay15 (tblk (grid0.coords t) (iblk m c 1 t))) (k0_pay16 ((cfg0.win 0).fill (grid0.coords t) d0 (iblk m c 0 t))) X1)
      (k0_pay2 (F := Ideal) (k0_pay14 ((cfg0.win 0).fill (grid0.coords t) d0 (iblk m c 0 t))) X2)
      (k0_pay3 (F := Ideal) (k0_pay13 ((cfg0.win 0).fill (grid0.coords t) d0 (iblk m c 0 t))) X3) := by
    have := stepGen m xr tp ts c hR t d0 X0 X1 X2 X3 (hG h0)
    rwa [show t.val % 16 + 1 = 16 from by omega] at this
  have hM : ∀ (r : Fin 160) (j : Fin 128), 160 * (t.val / 16) + r.val < 600 →
      out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3 (ix2 r j) = maskBlk xr tp (t.val / 16) (ix2 r j) := fun r j hv => by
    rw [out0_C_3_eq]; exact outMask xr tp t h1 _ _ _ _ hG' r j hv
  have hD : ∀ (r : Fin 160) (j : Fin 128), 160 * (t.val / 16) + r.val < 600 →
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3 (ix2 r j) = diceBlk xr tp ts (t.val / 16) (ix2 r j) := fun r j hv => by
    rw [out0_C_4_eq]; exact outDice m xr tp ts c hR t h1 _ _ _ _ hG' r j hv
  have eM := fill_of_agree_3 t (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3) (maskBlk xr tp (t.val / 16)) hM
  have eD := fill_of_agree_4 t (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3) (diceBlk xr tp ts (t.val / 16)) hD
  iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3).2.2.2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, ⟨%e3, H3⟩, ⟨%e4, H4⟩, ⟨%f0, HS0⟩, ⟨%f1, HS1⟩, ⟨%f2, HS2⟩, ⟨%f3, HS3⟩⟩
  isplitl [HS0 HS1 HS2 HS3 Hg]
  · iexists (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexists (sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    isplitr
    · ipureintro
      intro h; exfalso; omega
    isplitl [HS0 HS1 HS2 HS3]
    · isplitl [HS0]
      · unfold owns; iexists _; isplitr
        swap; · iexact HS0
        ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      isplitl [HS1]
      · unfold owns; iexists _; isplitr
        swap; · iexact HS1
        ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      isplitl [HS2]
      · unfold owns; iexists _; isplitr
        swap; · iexact HS2
        ipureintro; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
      · unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    iexact Hg
  isplitl [Ho]; · iexact Ho
  isplitl [H0]; · iexists _; iexact H0
  isplitl [H1]; · iexact H1
  isplitl [H2]; · iexact H2
  isplitl [H3]
  · iexists (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    rw [← eM]
    unfold owns; iexists _; isplitr
    swap; · iexact H3
    ipureintro; exact View.read_writes_of_cover _ _ _ _ _ (cover0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
  · iexists (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)
    rw [← eD]
    unfold owns; iexists _; isplitr
    swap; · iexact H4
    ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 ((cfg0.win 0).fill (grid0.coords t) d0 (iblk m c 0 t)) (iblk m c 1 t) (iblk m c 2 t) X0 X1 X2 X3)

/-- The body at any point: by the closed forms of its two conditions the point is in exactly one of the three cases. -/
theorem sound_body (c : Dev nD) (hR : Reads m xr tp ts c) (t : Fin cfg0.N) :
    bodyPre m xr tp ts c t ⊢ wp frame (wpE (defs₀ (F := Ideal)) Variants.none c none) Set.univ (bodyAt0 t) (fun _ => bodyPost m xr tp ts c t) := by
  by_cases h0 : t.val % 16 = 0
  · exact sound_body_A m xr tp ts c hR t h0
  · by_cases h1 : t.val % 16 = 15
    · exact sound_body_C m xr tp ts c hR t h1
    · exact sound_body_B m xr tp ts c hR t h0 h1

/-- The library's body obligation, at every point. -/
theorem body_obligation (c : Dev nD) (hR : Reads m xr tp ts c) :
    BodyObligationLoose (dats m xr tp ts 0 c) (defs₀ (F := Ideal)) Variants.none () Set.univ := fun t => by
  rw [bigSep_W0, bigSep_W0]
  exact sound_body m xr tp ts c hR t

/-! ## The run -/

-- the launch theorem's implicit arguments are found by unifying its conclusion with this one, which takes unfolding plain
-- definitions in a metavariable's type
set_option backward.isDefEq.respectTransparency.types false in
/-- From any memory with zero counters whose arrays read as xr, tp, ts: every weakly fair execution of @main
    terminates, every array of the pipeline ends at what the write-backs leave (the two cost arrays at the costs,
    block by block) and every other buffer as the lines after the region leave it. -/
theorem run_main (hR : ∀ c, Reads m xr tp ts c) :
    θ_run defs (onTc (τ := τ) (main (F := Ideal))) (s₀ m ρ)
      (Pipeline.FramePost cfgs (dats m xr tp ts) 0 (Pipeline.afterTail₀ cfgs (dats m xr tp ts) 0 (V0 m) [hostOps1, hostOps1_1, hostOps1_2])) :=
  Pipeline.θ_run_frame_around_track cfgs (dats m xr tp ts) (0 : Fin 1) launch0 defs₀ Variants.none m ρ main
    (hbody := fun c => body_obligation m xr tp ts c (hR c)) (hshare := fun c => (dats m xr tp ts 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m xr tp ts) (hin := hin m xr tp ts) (hout := hout m xr tp ts)

/-! ## The two cost arrays after the run -/

/-- The mask cost array, row by row and target by target: (the contraction of Af(x) with the target + the sum of
    negf(x)) / 65536, over ALL the row's pixels — sixteen blocks of 4096 are the 65536 pixels. -/
theorem final3 (c : Dev nD) (row : Fin 600) (j : Fin 128) :
    ((dats m xr tp ts 0 c).arrAt 3 cfg0.N : S600x128.Idx → EReal) (ix2 row j)
      = (((∑ k : Fin 65536, Spec.Af (xr row.val k.val) * tp j.val k.val : ℝ) : EReal)
          + ((∑ k : Fin 65536, Spec.negf (xr row.val k.val) : ℝ) : EReal)) * (((1 / 65536 : ℝ)) : EReal) := by
  rw [arrAt3_final (dats m xr tp ts 0 c) (fun n => maskBlk xr tp n) (after0_3 m xr tp ts c) row j]
  have h : 160 * (row.val / 160) + row.val % 160 = row.val := Nat.div_add_mod _ _
  have hlt : 160 * (row.val / 160) + row.val % 160 < 600 := by have := row.isLt; omega
  unfold maskBlk
  simp only [ix2_0, ix2_1]
  rw [if_pos hlt]
  unfold accA accN
  rw [Spec.blockSum_all, Spec.blockSum_all]
  simp only [h]

/-- The dice cost array likewise: 1 - (2 * intersection + 1) / ((probability sum + target sum) + 1). -/
theorem final4 (c : Dev nD) (row : Fin 600) (j : Fin 128) :
    ((dats m xr tp ts 0 c).arrAt 4 cfg0.N : S600x128.Idx → EReal) (ix2 row j)
      = (1 : EReal) - Ideal.div (2 * ((∑ k : Fin 65536, Spec.sig (xr row.val k.val) * tp j.val k.val : ℝ) : EReal) + 1)
          ((((∑ k : Fin 65536, Spec.sig (xr row.val k.val) : ℝ) : EReal) + ((ts j.val : ℝ) : EReal)) + 1) := by
  rw [arrAt4_final (dats m xr tp ts 0 c) (fun n => diceBlk xr tp ts n) (after0_4 m xr tp ts c) row j]
  have h : 160 * (row.val / 160) + row.val % 160 = row.val := Nat.div_add_mod _ _
  have hlt : 160 * (row.val / 160) + row.val % 160 < 600 := by have := row.isLt; omega
  unfold diceBlk
  simp only [ix2_0, ix2_1]
  rw [if_pos hlt]
  unfold accI accP
  rw [Spec.blockSum_all, Spec.blockSum_all]
  simp only [h]

end Cert.KernelIdeal.Val

end
-- ==== Proof.HostK.lean ====
/-
  The host side of the mask/dice matcher-cost program before its pipelined region: what the region finds in
  its three input arrays.

  The program flattens the mask logits [2,300,256,256] to [600,65536]; turns the integer target masks
  [50,256,256] into a [128,65536] array of floats whose rows 50..127 are zero; and adds each target's 65536
  entries up, as integers, into a [1,128] row of floats whose entries 50..127 are zero. Over the extended
  reals the float of an integer is that integer. For masks of zeros and ones the integer sum of a row is the
  number of its ones: it cannot wrap, being at most 65536.
-/
import proofs.«412977_j52527450030676_2_alg».proof.Proof.Kit
import Idealize.ShloMosaic.Lib.StableHlo.Run
import Idealize.ShloMosaic.Lib.StableHlo.Predicate
import Idealize.ShloMosaic.Lib.ValueIdx
import Idealize.ShloMosaic.Lib.KernelVsHost
import Idealize.ShloMosaic.Lib.Pipeline.Value
import Idealize.ShloMosaic.Lib.Pipeline.FrameSuffix
import Idealize.ShloMosaic.PureOps.Reduce
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

/-! ## The three arrays the region reads, as functions of @main's arguments -/

/-- The mask logits with the two leading and the two trailing axes merged: [2,300,256,256] as [600,65536]. -/
def xFlat (a1 : FVec F S2x300x256x256 .f32) : FVec F S600x65536 .f32 :=
  shapeCast S600x65536 a1 shapeCasts_S2x300x256x256_S600x65536

/-- The integer target masks with their two pixel axes merged: [50,256,256] as [50,65536]. -/
def tFlat (a5 : IVec S50x256x256 32) : IVec S50x65536 32 :=
  shapeCast S50x65536 a5 shapeCasts_S50x256x256_S50x65536

/-- The target masks as floats, with 78 rows of (the float of) zero appended: [128,65536]. -/
def tPad (a5 : IVec S50x256x256 32) : FVec F S128x65536 .bf16 :=
  pad S128x65536 ![0, 0] ![78, 0] ![0, 0] (sitofp .bf16 (tFlat a5) : FVec F S50x65536 .bf16)
    (sitofp .bf16 (constantI S_ 32 0#32) : FVec F S_ .bf16) pads_S50x65536_S128x65536_0780_000 h_S_

/-- Each target's entries added up as 32-bit integers: [50]. -/
def tRowSum (a5 : IVec S50x256x256 32) : IVec S50 32 :=
  Host.reduce IntOp.addi (tFlat a5) (constantI S_ 32 0#32) reducesTo_S50x65536_S50_d1 h_S_

/-- The row sums as floats, with 78 entries of (the float of) zero appended, as one row: [1,128]. -/
def tSumPad (a5 : IVec S50x256x256 32) : FVec F S1x128 .f32 :=
  broadcastInDim S1x128 ![1] bcast_S128_S1x128_1
    (pad S128 ![0] ![78] ![0] (sitofp .f32 (tRowSum a5) : FVec F S50 .f32)
      (sitofp .f32 (constantI S_ 32 0#32) : FVec F S_ .f32) pads_S50_S128_0780 h_S_)

section Found
variable (m : (ℓ : Loc nD τ sig) → Buf (Elt F) ℓ)

open Idealize.ShloMosaic.StableHlo in
/-- Window 0's array, as the region finds it: the flattened mask logits. -/
theorem V_main_v0 (c : Dev nD) :
    (V m c main_v0 : FVec F S600x65536 .f32) = xFlat (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

open Idealize.ShloMosaic.StableHlo in
/-- Window 1's array, as the region finds it: the padded float target masks. -/
theorem V_main_v3 (c : Dev nD) :
    (V m c main_v3 : FVec F S128x65536 .bf16) = tPad (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results
  rfl

open Idealize.ShloMosaic.StableHlo in
/-- Window 2's array, as the region finds it: the padded float row sums. -/
theorem V_main_v8 (c : Dev nD) :
    (V m c main_v8 : FVec F S1x128 .f32) = tSumPad (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results
  rfl

end Found

/-! ## The same arrays read at an index -/

/-- Row n = 300 b + q, pixel k = 256 y + x of the flattened logits is entry (b, q, y, x). -/
theorem xFlat_apply (a1 : FVec F S2x300x256x256 .f32) (n : Fin 600) (k : Fin 65536) :
    xFlat a1 (ix2 n k)
      = a1 (ix4 (⟨n.val / 300, by omega⟩ : Fin 2) (⟨n.val % 300, by omega⟩ : Fin 300)
              (⟨k.val / 256, by omega⟩ : Fin 256) (⟨k.val % 256, by omega⟩ : Fin 256)) :=
  shapeCast_apply a1 _ _ _ (by
    rw [Shape.rowMajor_val_four, Shape.rowMajor_val_two]
    show ((n.val / 300 * 300 + n.val % 300) * 256 + k.val / 256) * 256 + k.val % 256 = n.val * 65536 + k.val
    omega)

/-- Pixel k = 256 y + x of a flattened target mask is entry (y, x). -/
theorem tFlat_apply (a5 : IVec S50x256x256 32) (j : Fin 50) (k : Fin 65536) :
    tFlat a5 (ix2 j k) = a5 (ix3 j (⟨k.val / 256, by omega⟩ : Fin 256) (⟨k.val % 256, by omega⟩ : Fin 256)) :=
  shapeCast_apply a5 _ _ _ (by
    rw [Shape.rowMajor_val_three, Shape.rowMajor_val_two]
    show (j.val * 256 + k.val / 256) * 256 + k.val % 256 = j.val * 65536 + k.val
    omega)

/-- Over the extended reals the padded target masks are the integer entries themselves in rows 0..49 and
    zero in rows 50..127. -/
theorem tPad_apply (a5 : IVec S50x256x256 32) (j : Fin 128) (k : Fin 65536) :
    tPad (F := Ideal) a5 (ix2 j k)
      = if h : j.val < 50 then (((tFlat a5 (ix2 (⟨j.val, h⟩ : Fin 50) k)).toInt : ℝ) : EReal) else 0 := by
  by_cases h : j.val < 50
  · rw [dif_pos h]
    unfold tPad
    refine (pad_apply_of_inside _ _ _ _ _ _ _ _ (ix2 (⟨j.val, h⟩ : Fin 50) k) (fun a => ?_)).trans rfl
    match a with
    | ⟨0, _⟩ => show j.val = 0 + j.val * (0 + 1); omega
    | ⟨1, _⟩ => show k.val = 0 + k.val * (0 + 1); omega
  · rw [dif_neg h]
    unfold tPad
    refine (pad_apply_of_not_inside _ _ _ _ _ _ _ _ (0 : Fin 2) (fun hin => h ?_)).trans ?_
    · have h2 : (j.val - 0) / (0 + 1) < 50 := hin.2.2
      omega
    · show (((0#32 : BitVec 32).toInt : ℝ) : EReal) = 0
      rw [show (0#32 : BitVec 32).toInt = 0 from by decide, Int.cast_zero, EReal.coe_zero]

/-- The same with the entry named by its own three coordinates. -/
theorem tPad_apply' (a5 : IVec S50x256x256 32) (j : Fin 128) (k : Fin 65536) :
    tPad (F := Ideal) a5 (ix2 j k)
      = if h : j.val < 50 then
          (((a5 (ix3 (⟨j.val, h⟩ : Fin 50) (⟨k.val / 256, by omega⟩ : Fin 256) (⟨k.val % 256, by omega⟩ : Fin 256))).toInt : ℝ) : EReal)
        else 0 := by
  rw [tPad_apply]
  by_cases h : j.val < 50
  · rw [dif_pos h, dif_pos h, tFlat_apply]
  · rw [dif_neg h, dif_neg h]

/-- Over the extended reals the padded row sums are the integer row sums themselves at entries 0..49 and zero
    at entries 50..127. -/
theorem tSumPad_apply (a5 : IVec S50x256x256 32) (u : Fin 1) (j : Fin 128) :
    tSumPad (F := Ideal) a5 (ix2 u j)
      = if h : j.val < 50 then (((tRowSum a5 (ix1 (⟨j.val, h⟩ : Fin 50))).toInt : ℝ) : EReal) else 0 := by
  unfold tSumPad
  refine (broadcastInDim_apply _ _ _ _ (ix1 j) (fun a => ?_)).trans ?_
  · match a with
    | ⟨0, _⟩ => rfl
  by_cases h : j.val < 50
  · rw [dif_pos h]
    refine (pad_apply_of_inside _ _ _ _ _ _ _ _ (ix1 (⟨j.val, h⟩ : Fin 50)) (fun a => ?_)).trans rfl
    match a with
    | ⟨0, _⟩ => show j.val = 0 + j.val * (0 + 1); omega
  · rw [dif_neg h]
    refine (pad_apply_of_not_inside _ _ _ _ _ _ _ _ (0 : Fin 1) (fun hin => h ?_)).trans ?_
    · have h2 : (j.val - 0) / (0 + 1) < 50 := hin.2.2
      omega
    · show (((0#32 : BitVec 32).toInt : ℝ) : EReal) = 0
      rw [show (0#32 : BitVec 32).toInt = 0 from by decide, Int.cast_zero, EReal.coe_zero]

/-! ## The integer row sum of a mask of zeros and ones -/

/-- Adding a row of an [n, m] array of 32-bit words up, word by word, gives the sum of the words' values
    as long as that sum is below 2^32. -/
theorem toNat_reduce_addi_row {n m : Nat} (x : IVec ⟨2, ![n, m]⟩ 32)
    (h : (⟨2, ![n, m]⟩ : Shape).ReducesTo [1] ⟨1, ![n]⟩) {u : Shape} (hu : 0 < u.numel) (p : Fin n)
    (hs : ∑ q : Fin m, (x (ix2 p q)).toNat < 2 ^ 32) :
    (Host.reduce IntOp.addi x (constantI u 32 0#32) h hu (ix1 p)).toNat = ∑ q : Fin m, (x (ix2 p q)).toNat := by
  classical
  rw [Host.reduce_eq_fold]
  have hdrop : ∀ i : (⟨2, ![n, m]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, m]⟩ : Shape).Idx, i 0 = p → ix2 p (i 1) = i := fun i h0 => by
    funext b; match b with
    | ⟨0, _⟩ => exact h0.symm
    | ⟨1, _⟩ => rfl
  have hsum : ∑ i ∈ Finset.univ.filter (fun i : (⟨2, ![n, m]⟩ : Shape).Idx => h.drop i = ix1 p), (x i).toNat
      = ∑ q : Fin m, (x (ix2 p q)).toNat := by
    refine Finset.sum_bij' (fun i _ => i 1) (fun q _ => ix2 p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact (congrArg (fun y => (x y).toNat) (hback i ((hdrop i).1 (Finset.mem_filter.1 hi).2))).symm
  show (Finset.fold IntOp.addi 0#32 x (Finset.univ.filter fun i : (⟨2, ![n, m]⟩ : Shape).Idx => h.drop i = ix1 p)).toNat = _
  rw [StableHlo.Predicate.toNat_fold_addi _ _ (by rw [hsum]; exact hs), hsum]

/-- When every entry of target j is the word 0 or the word 1, its integer row sum, read signed, is the sum
    of its entries read signed: the number of ones, at most 65536, so nothing wraps. -/
theorem tRowSum_toInt (a5 : IVec S50x256x256 32) (j : Fin 50)
    (h01 : ∀ k : Fin 65536, tFlat a5 (ix2 j k) = 0#32 ∨ tFlat a5 (ix2 j k) = 1#32) :
    (tRowSum a5 (ix1 j)).toInt = ∑ k : Fin 65536, (tFlat a5 (ix2 j k)).toInt := by
  have hle : ∀ k : Fin 65536, (tFlat a5 (ix2 j k)).toNat ≤ 1 := fun k => by
    rcases h01 k with e | e <;> rw [e] <;> decide
  have hint : ∀ k : Fin 65536, (tFlat a5 (ix2 j k)).toInt = ((tFlat a5 (ix2 j k)).toNat : ℤ) := fun k => by
    rcases h01 k with e | e <;> rw [e] <;> decide
  have hbound : ∑ k : Fin 65536, (tFlat a5 (ix2 j k)).toNat ≤ 65536 := by
    refine (Finset.sum_le_sum fun k _ => hle k).trans ?_
    simp
  have hnat : (tRowSum a5 (ix1 j)).toNat = ∑ k : Fin 65536, (tFlat a5 (ix2 j k)).toNat :=
    toNat_reduce_addi_row (tFlat a5) reducesTo_S50x65536_S50_d1 h_S_ j (by omega)
  rw [StableHlo.Predicate.toInt_eq_toNat_of_lt (by rw [hnat]; omega), hnat, Nat.cast_sum]
  exact Finset.sum_congr rfl fun k _ => (hint k).symm

end Cert.KernelIdeal.Hand
end
-- ==== Proof.PreFacts.lean ====
/-
  What the precondition says, entry by entry.

  The precondition is one boolean scalar: the conjunction of six tests, each "for all entries of one input". The four
  float inputs are tested for |x| < +∞; the labels ([50], 32-bit words read signed) for −81 ≤ w and w < 81; the target
  masks ([50, 256, 256], 32-bit words read signed) for 0 ≤ w and w ≤ 1. Each "for all" is a reduction by "and" over
  every axis into a scalar, so the scalar is 1 exactly when every entry's test is 1. Read at the extended reals, a
  float x with max(x, −x) < +∞ is neither infinity, that is, a real number; a signed word between 0 and 1 is the word 0
  or the word 1.

  Everything is stated for arbitrary arrays a0 … a6 of the seven input types and for any witness of the side conditions
  the printed function states, from the one hypothesis "the printed function of a0 … a6 is the all-ones scalar".
-/
import proofs.«412977_j52527450030676_2_alg».proof.Pre_finite_inputs
import proofs.«412977_j52527450030676_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic
open Cert.Pre_finite_inputs

/-- The scalar shape has one index. -/
instance : Subsingleton S_.Idx := ⟨fun a b => funext fun d => d.elim0⟩

/-- An extended real whose absolute value max(x, -x) lies strictly below the value of the pattern 0x7F800000 (which is
    +∞) is neither infinity: it is a real number. -/
theorem real_of_abs_lt (x : EReal)
    (e : Ideal.cmp .olt (max x (-x)) (Ideal.ofBits .f32 0x7F800000#32) = 1#1) : ∃ r : ℝ, x = ((r : ℝ) : EReal) := by
  have htop : Ideal.ofBits .f32 0x7F800000#32 = (⊤ : EReal) := by simp [Ideal.ofBits, Ideal.ieee]
  rw [htop] at e
  have hlt : max x (-x) < (⊤ : EReal) := by
    simpa [Ideal.cmp, StableHlo.Predicate.ofBool_eq_one_iff] using e
  induction x using EReal.rec with
  | bot => simp at hlt
  | coe r => exact ⟨r, rfl⟩
  | top => simp at hlt

/-- The two signed comparisons "−81 ≤ w" and "w < 81" of a 32-bit word, read back as integers
    (the word 4294967215 is −81 read signed). -/
theorem range_of_cmp (w : BitVec 32)
    (e : IntOp.andi (IntOp.cmpi .sge w 4294967215#32) (IntOp.cmpi .slt w 81#32) = 1#1) :
    -81 ≤ w.toInt ∧ w.toInt < 81 := by
  obtain ⟨e1, e2⟩ := IntOp.andi_eq_one.1 e
  have h1 := IntOp.cmpi_sge.1 e1
  have h2 := IntOp.cmpi_slt.1 e2
  rw [show (4294967215#32 : BitVec 32).toInt = -81 from by decide] at h1
  rw [show (81#32 : BitVec 32).toInt = 81 from by decide] at h2
  exact ⟨h1, h2⟩

/-- The two signed comparisons "0 ≤ w" and "w ≤ 1" of a 32-bit word leave the words 0 and 1. -/
theorem binary_of_cmp (w : BitVec 32)
    (e : IntOp.andi (IntOp.cmpi .sge w 0#32) (IntOp.cmpi .sle w 1#32) = 1#1) :
    w = 0#32 ∨ w = 1#32 := by
  obtain ⟨e1, e2⟩ := IntOp.andi_eq_one.1 e
  have h1 := IntOp.cmpi_sge.1 e1
  have h2 := IntOp.cmpi_sle.1 e2
  rw [show (0#32 : BitVec 32).toInt = 0 from by decide] at h1
  rw [show (1#32 : BitVec 32).toInt = 1 from by decide] at h2
  have h3 : w.toInt = 0 ∨ w.toInt = 1 := by omega
  rcases h3 with h3 | h3
  · left; apply BitVec.eq_of_toInt_eq; rw [h3]; decide
  · right; apply BitVec.eq_of_toInt_eq; rw [h3]; decide

variable [hP : Cert.Pre_finite_inputs.Facts]
variable {a0 : FVec Ideal S2x300x81 .f32} {a1 : FVec Ideal S2x300x256x256 .f32} {a2 : FVec Ideal S2x300x4 .f32}
  {a3 : FVec Ideal S50x4 .f32} {a4 : IVec S50 32} {a5 : IVec S50x256x256 32} {a6 : IVec S2 32}

/-- The precondition, decoded: it is the conjunction of six "for all entries" statements, one per checked input. Each
    is a reduction by "and" over all axes into one scalar; that scalar being 1 says every entry's test is 1. -/
theorem decode (h : Cert.Pre_finite_inputs.fn (F := Ideal) a0 a1 a2 a3 a4 a5 a6 = (fun _ => 1#1)) :
    (∀ i : S2x300x81.Idx, ∃ r : ℝ, a0 i = ((r : ℝ) : EReal))
    ∧ (∀ i : S2x300x256x256.Idx, ∃ r : ℝ, a1 i = ((r : ℝ) : EReal))
    ∧ (∀ i : S2x300x4.Idx, ∃ r : ℝ, a2 i = ((r : ℝ) : EReal))
    ∧ (∀ i : S50x4.Idx, ∃ r : ℝ, a3 i = ((r : ℝ) : EReal))
    ∧ (∀ j : S50.Idx, -81 ≤ (a4 j).toInt ∧ (a4 j).toInt < 81)
    ∧ (∀ i : S50x256x256.Idx, a5 i = 0#32 ∨ a5 i = 1#32) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  refine ⟨fun i => ?_, fun i => ?_, fun i => ?_, fun i => ?_, fun j => ?_, fun i => ?_⟩
  · exact real_of_abs_lt (a0 i) (Host.reduce_andi_all _ _ _ _ _ e0 i)
  · exact real_of_abs_lt (a1 i) (Host.reduce_andi_all _ _ _ _ _ e1 i)
  · exact real_of_abs_lt (a2 i) (Host.reduce_andi_all _ _ _ _ _ e2 i)
  · exact real_of_abs_lt (a3 i) (Host.reduce_andi_all _ _ _ _ _ e3 i)
  · exact range_of_cmp (a4 j) (Host.reduce_andi_all _ _ _ _ _ e4 j)
  · exact binary_of_cmp (a5 i) (Host.reduce_andi_all _ _ _ _ _ e5 i)

/-- (1) Every mask logit (the second input, [2, 300, 256, 256]) is a real number. -/
theorem masks_finite (h : Cert.Pre_finite_inputs.fn (F := Ideal) a0 a1 a2 a3 a4 a5 a6 = (fun _ => 1#1)) :
    ∀ i : S2x300x256x256.Idx, ∃ r : ℝ, a1 i = ((r : ℝ) : EReal) := (decode h).2.1

/-- (2) Every target label (the fifth input, [50]) lies in [−81, 81) read as a signed integer. -/
theorem labels_range (h : Cert.Pre_finite_inputs.fn (F := Ideal) a0 a1 a2 a3 a4 a5 a6 = (fun _ => 1#1)) :
    ∀ j : S50.Idx, -81 ≤ (a4 j).toInt ∧ (a4 j).toInt < 81 := (decode h).2.2.2.2.1

/-- (3) Every target-mask entry (the sixth input, [50, 256, 256]) is the word 0 or the word 1. -/
theorem masks_binary (h : Cert.Pre_finite_inputs.fn (F := Ideal) a0 a1 a2 a3 a4 a5 a6 = (fun _ => 1#1)) :
    ∀ i : S50x256x256.Idx, a5 i = 0#32 ∨ a5 i = 1#32 := (decode h).2.2.2.2.2

/-- (3), as integers: every target-mask entry reads 0 or 1. -/
theorem masks_binary_toInt (h : Cert.Pre_finite_inputs.fn (F := Ideal) a0 a1 a2 a3 a4 a5 a6 = (fun _ => 1#1)) :
    ∀ i : S50x256x256.Idx, (a5 i).toInt = 0 ∨ (a5 i).toInt = 1 := fun i => by
  rcases masks_binary h i with e | e <;> rw [e]
  · left; decide
  · right; decide

/-- (3), as naturals: every target-mask entry reads 0 or 1 unsigned as well. -/
theorem masks_binary_toNat (h : Cert.Pre_finite_inputs.fn (F := Ideal) a0 a1 a2 a3 a4 a5 a6 = (fun _ => 1#1)) :
    ∀ i : S50x256x256.Idx, (a5 i).toNat = 0 ∨ (a5 i).toNat = 1 := fun i => by
  rcases masks_binary h i with e | e <;> rw [e]
  · left; decide
  · right; decide

/-- The other three float inputs are real entry by entry too: the first ([2, 300, 81]), -/
theorem arg0_finite (h : Cert.Pre_finite_inputs.fn (F := Ideal) a0 a1 a2 a3 a4 a5 a6 = (fun _ => 1#1)) :
    ∀ i : S2x300x81.Idx, ∃ r : ℝ, a0 i = ((r : ℝ) : EReal) := (decode h).1
/-- the third ([2, 300, 4]), -/
theorem arg2_finite (h : Cert.Pre_finite_inputs.fn (F := Ideal) a0 a1 a2 a3 a4 a5 a6 = (fun _ => 1#1)) :
    ∀ i : S2x300x4.Idx, ∃ r : ℝ, a2 i = ((r : ℝ) : EReal) := (decode h).2.2.1
/-- and the fourth ([50, 4]). -/
theorem arg3_finite (h : Cert.Pre_finite_inputs.fn (F := Ideal) a0 a1 a2 a3 a4 a5 a6 = (fun _ => 1#1)) :
    ∀ i : S50x4.Idx, ∃ r : ℝ, a3 i = ((r : ℝ) : EReal) := (decode h).2.2.2.1

end Cert.PreFacts

end
-- ==== Proof.ReadsOf.lean ====
/-
  The three arrays the region reads, as real-valued functions of the program's arguments.

  Under the precondition every mask logit is a real number and every target-mask entry is the word 0 or 1. So there
  are real functions xr (query row, pixel), tp (padded target, pixel) and ts (padded target) with: the flattened
  logits [600, 65536] read xr; the padded float target masks [128, 65536] read tp, which on targets 0..49 is the
  integer mask entry and on the padding rows 50..127 is zero; the padded target sums [1, 128] read ts, which on
  targets 0..49 is the sum of the target's 65536 entries (the integer sum counts the ones and cannot wrap) and on
  the padding is zero. The mesh has one device, so what holds on it holds on every device.
-/
import proofs.«412977_j52527450030676_2_alg».proof.Proof.Step
import proofs.«412977_j52527450030676_2_alg».proof.Proof.HostK
import proofs.«412977_j52527450030676_2_alg».proof.Proof.PreFacts
import proofs.«412977_j52527450030676_2_alg».proof.Defs

set_option maxRecDepth 16384

noncomputable section

namespace Cert.KernelIdeal.Val

open Idealize.ShloMosaic Idealize.ShloMosaic.TcCoe
open Idealize.SL Idealize.SL.Sem
open Cert.KernelIdeal Cert.KernelIdeal.Gen Cert.KernelIdeal.Hand ValueIdx

variable (m : (ℓ : Loc nD τ sig) → Buf (Elt Ideal) ℓ)

/-- The mesh's one device. -/
abbrev c0 : Dev nD := ⟨0, by decide⟩
theorem dev_eq (c : Dev nD) : c = c0 := Subsingleton.elim _ _

/-- The mask logits and the integer target masks on it, as launched. -/
abbrev A1 : S2x300x256x256.Idx → EReal := m ((c0 : Thread nD τ).loc main_arg1)
abbrev A5 : S50x256x256.Idx → BitVec 32 := m ((c0 : Thread nD τ).loc main_arg5)

/-- Query row n = 300 b + q, pixel k = 256 y + x of the logits, as a real number (zero outside the array). -/
def xrOf (hfin : ∀ i : S2x300x256x256.Idx, ∃ r : ℝ, A1 m i = ((r : ℝ) : EReal)) (n k : ℕ) : ℝ :=
  if h : n < 600 ∧ k < 65536 then
    Classical.choose (hfin (ix4 (⟨n / 300, by omega⟩ : Fin 2) (⟨n % 300, by omega⟩ : Fin 300)
      (⟨k / 256, by omega⟩ : Fin 256) (⟨k % 256, by omega⟩ : Fin 256)))
  else 0

theorem xrOf_spec (hfin : ∀ i : S2x300x256x256.Idx, ∃ r : ℝ, A1 m i = ((r : ℝ) : EReal)) (n : Fin 600) (k : Fin 65536) :
    A1 m (ix4 (⟨n.val / 300, by omega⟩ : Fin 2) (⟨n.val % 300, by omega⟩ : Fin 300)
      (⟨k.val / 256, by omega⟩ : Fin 256) (⟨k.val % 256, by omega⟩ : Fin 256)) = ((xrOf m hfin n.val k.val : ℝ) : EReal) := by
  unfold xrOf
  rw [dif_pos ⟨n.isLt, k.isLt⟩]
  exact Classical.choose_spec (hfin _)

/-- Target j, pixel k = 256 y + x of the integer target masks, as a real number; zero on the padding rows. -/
def tpOf (j k : ℕ) : ℝ :=
  if h : j < 50 ∧ k < 65536 then
    (((A5 m (ix3 (⟨j, h.1⟩ : Fin 50) (⟨k / 256, by omega⟩ : Fin 256) (⟨k % 256, by omega⟩ : Fin 256))).toInt : ℤ) : ℝ)
  else 0

theorem tpOf_lt (j : Fin 50) (k : Fin 65536) :
    tpOf m j.val k.val = (((A5 m (ix3 j (⟨k.val / 256, by omega⟩ : Fin 256) (⟨k.val % 256, by omega⟩ : Fin 256))).toInt : ℤ) : ℝ) := by
  unfold tpOf
  rw [dif_pos ⟨j.isLt, k.isLt⟩]

theorem tpOf_ge (j k : ℕ) (h : 50 ≤ j) : tpOf m j k = 0 := by
  unfold tpOf
  rw [dif_neg (fun hh => absurd hh.1 (by omega))]

/-- The integer sum of target j's entries, as a real number; zero on the padding. -/
def tsOf (j : ℕ) : ℝ :=
  if h : j < 50 then (((tRowSum (A5 m) (ix1 (⟨j, h⟩ : Fin 50))).toInt : ℤ) : ℝ) else 0

theorem tsOf_ge (j : ℕ) (h : 50 ≤ j) : tsOf m j = 0 := by
  unfold tsOf
  rw [dif_neg (by omega)]

/-- For masks of zeros and ones the sum of a target's entries is the sum of tp over the pixels. -/
theorem tsOf_sum (hbin : ∀ i : S50x256x256.Idx, A5 m i = 0#32 ∨ A5 m i = 1#32) (j : Fin 50) :
    tsOf m j.val = ∑ k : Fin 65536, tpOf m j.val k.val := by
  unfold tsOf
  rw [dif_pos j.isLt]
  have hrow := tRowSum_toInt (A5 m) j (fun k => by rw [tFlat_apply]; exact hbin _)
  rw [show (⟨j.val, j.isLt⟩ : Fin 50) = j from rfl, hrow, Int.cast_sum]
  refine Finset.sum_congr rfl fun k _ => ?_
  rw [tFlat_apply, tpOf_lt]

variable [hP : Cert.Pre_finite_inputs.Facts]

/-- Under the precondition the three arrays the region reads are real-valued, and their values are the program's
    arguments: the logits regrouped, the masks padded with zero rows, the masks' row sums padded with zeros. -/
theorem reads_exist (hpre : Cert.Pre_KernelIdeal m) :
    ∃ (xr tp : ℕ → ℕ → ℝ) (ts : ℕ → ℝ),
      (∀ c : Dev nD, Reads m xr tp ts c)
      ∧ (∀ (c : Dev nD) (n : Fin 600) (k : Fin 65536),
          (m ((c : Thread nD τ).loc main_arg1) : S2x300x256x256.Idx → EReal)
            (ix4 (⟨n.val / 300, by omega⟩ : Fin 2) (⟨n.val % 300, by omega⟩ : Fin 300)
              (⟨k.val / 256, by omega⟩ : Fin 256) (⟨k.val % 256, by omega⟩ : Fin 256)) = ((xr n.val k.val : ℝ) : EReal))
      ∧ (∀ (c : Dev nD) (j : Fin 50) (k : Fin 65536),
          tp j.val k.val = (((m ((c : Thread nD τ).loc main_arg5) : S50x256x256.Idx → BitVec 32)
            (ix3 j (⟨k.val / 256, by omega⟩ : Fin 256) (⟨k.val % 256, by omega⟩ : Fin 256))).toInt : ℝ))
      ∧ (∀ (j : Fin 128), 50 ≤ j.val → ∀ k : Fin 65536, tp j.val k.val = 0)
      ∧ (∀ j : Fin 50, ts j.val = ∑ k : Fin 65536, tp j.val k.val)
      ∧ (∀ j : Fin 128, 50 ≤ j.val → ts j.val = 0) := by
  have hfin : ∀ i : S2x300x256x256.Idx, ∃ r : ℝ, A1 m i = ((r : ℝ) : EReal) := Cert.PreFacts.masks_finite (hpre c0)
  have hbin : ∀ i : S50x256x256.Idx, A5 m i = 0#32 ∨ A5 m i = 1#32 := Cert.PreFacts.masks_binary (hpre c0)
  refine ⟨xrOf m hfin, tpOf m, tsOf m, ?_, ?_, ?_, ?_, ?_, ?_⟩
  · intro c
    obtain rfl := dev_eq c
    refine ⟨fun n k => ?_, fun j k => ?_, fun j => ?_⟩
    · exact (congrFun (V_main_v0 m c0) (ix2 n k)).trans ((xFlat_apply (F := Ideal) (A1 m) n k).trans (xrOf_spec m hfin n k))
    · refine (congrFun (V_main_v3 m c0) (ix2 j k)).trans ((tPad_apply' (A5 m) j k).trans ?_)
      by_cases h : j.val < 50
      · rw [dif_pos h]; unfold tpOf; rw [dif_pos ⟨h, k.isLt⟩]
      · rw [dif_neg h, tpOf_ge m j.val k.val (by omega), EReal.coe_zero]
    · refine (congrFun (V_main_v8 m c0) (ix2 0 j)).trans ((tSumPad_apply (A5 m) 0 j).trans ?_)
      by_cases h : j.val < 50
      · rw [dif_pos h]; unfold tsOf; rw [dif_pos h]
      · rw [dif_neg h, tsOf_ge m j.val (by omega), EReal.coe_zero]
  · intro c n k
    obtain rfl := dev_eq c
    exact xrOf_spec m hfin n k
  · intro c j k
    obtain rfl := dev_eq c
    exact tpOf_lt m j k
  · intro j hj k
    exact tpOf_ge m j.val k.val hj
  · intro j
    exact tsOf_sum m hbin j
  · intro j hj
    exact tsOf_ge m j.val hj

end Cert.KernelIdeal.Val

end
-- ==== Proof.TailArgs.lean ====
/-
  What the three stretches of host operations after the region leave of @main's arguments and of its result, read off
  the post of a run that names every array of the pipeline: each operation of the stretches writes only its own result
  buffer, a value of @main's body and never an argument; an argument is no array of the pipeline either; so after the
  stretches each argument holds its region-entry contents, which are the launch contents. The result of @main bypasses
  the region, so it ends at what the stretches compute for it from the region's exit contents.
-/
import proofs.«412977_j52527450030676_2_alg».proof.Proof.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The later stretches write no argument -/

/-- `b` is one of @main's seven arguments. -/
abbrev IsMainArg (b : Ref sig .tc) : Prop :=
  b = main_arg0 ∨ b = main_arg1 ∨ b = main_arg2 ∨ b = main_arg3 ∨ b = main_arg4 ∨ b = main_arg5 ∨ b = main_arg6

/-- No operation of the first stretch after the region writes an argument: its result buffer is none of the seven. -/
theorem hostOps1_keeps_args : (hostOps1 : List (HloOp τ sig (Elt F))).Forall fun op =>
    ∀ b : Ref sig .tc, IsMainArg b → Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb e; rw [Proc.devRef_injective _ e] at hb; exact absurd hb (by decide))
/-- Nor one of the second. -/
theorem hostOps1_1_keeps_args : (hostOps1_1 : List (HloOp τ sig (Elt F))).Forall fun op =>
    ∀ b : Ref sig .tc, IsMainArg b → Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb e; rw [Proc.devRef_injective _ e] at hb; exact absurd hb (by decide))
set_option maxHeartbeats 4000000 in
/-- Nor one of the third. -/
theorem hostOps1_2_keeps_args : (hostOps1_2 : List (HloOp τ sig (Elt F))).Forall fun op =>
    ∀ b : Ref sig .tc, IsMainArg b → Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro b hb e; rw [Proc.devRef_injective _ e] at hb; exact absurd hb (by decide))

/-- So no operation of the three stretches, run one after the other, writes an argument. -/
theorem tail_keeps_args {b : Ref sig .tc} (hb : IsMainArg b) :
    ∀ op ∈ List.flatten ([hostOps1, hostOps1_1, hostOps1_2] : List (List (HloOp τ sig (Elt F)))), Proc.devRef .tc b ∉ op.writes := by
  intro op hop
  obtain ⟨ops, hops, hop'⟩ := List.mem_flatten.mp hop
  simp only [List.mem_cons, List.mem_nil_iff, or_false] at hops
  rcases hops with rfl | rfl | rfl
  · exact (List.forall_iff_forall_mem.mp hostOps1_keeps_args) op hop' b hb
  · exact (List.forall_iff_forall_mem.mp hostOps1_1_keeps_args) op hop' b hb
  · exact (List.forall_iff_forall_mem.mp hostOps1_2_keeps_args) op hop' b hb

/-! ## The arguments and the result after the stretches -/

/-- After the stretches an argument, being no array of the pipeline, holds its region-entry contents. -/
theorem afterTail_arg (dats : (p : Fin 1) → (c : Dev nD) → Dat τ (Elt F) Unit ℕ (UR sig nD τ) ℕ (cfgs p) c) (c : Dev nD)
    {b : Ref sig .tc} (hb : IsMainArg b) (harr : ∀ w, Pipeline.arrRef spec0 w ≠ b) :
    Pipeline.afterTail₀ cfgs dats 0 (V0 m) [hostOps1, hostOps1_1, hostOps1_2] c b = V m c b := by
  unfold Pipeline.afterTail₀
  rw [StableHlo.after_of_forall_not_mem (b := Proc.devRef .tc b) _ _ (tail_keeps_args hb),
    Pipeline.withArrays_of_ne _ c (V0 m c) _ b (by exact harr)]

/-- From the post of a run that names every array: each of @main's seven arguments ends as launched. -/
theorem post_args (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1, hostOps1_1, hostOps1_2]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans
      ((afterTail_arg m dats c (b := main_arg0) (by decide) (by decide)).trans (V_main_arg0 m c)),
   ((h c).2 main_arg1 (Pipeline.mem_restRefs_of main_arg1 (by decide) (by decide))).trans
      ((afterTail_arg m dats c (b := main_arg1) (by decide) (by decide)).trans (V_main_arg1 m c)),
   ((h c).2 main_arg2 (Pipeline.mem_restRefs_of main_arg2 (by decide) (by decide))).trans
      ((afterTail_arg m dats c (b := main_arg2) (by decide) (by decide)).trans (V_main_arg2 m c)),
   ((h c).2 main_arg3 (Pipeline.mem_restRefs_of main_arg3 (by decide) (by decide))).trans
      ((afterTail_arg m dats c (b := main_arg3) (by decide) (by decide)).trans (V_main_arg3 m c)),
   ((h c).2 main_arg4 (Pipeline.mem_restRefs_of main_arg4 (by decide) (by decide))).trans
      ((afterTail_arg m dats c (b := main_arg4) (by decide) (by decide)).trans (V_main_arg4 m c)),
   ((h c).2 main_arg5 (Pipeline.mem_restRefs_of main_arg5 (by decide) (by decide))).trans
      ((afterTail_arg m dats c (b := main_arg5) (by decide) (by decide)).trans (V_main_arg5 m c)),
   ((h c).2 main_arg6 (Pipeline.mem_restRefs_of main_arg6 (by decide) (by decide))).trans
      ((afterTail_arg m dats c (b := main_arg6) (by decide) (by decide)).trans (V_main_arg6 m c))⟩

/-- From the same post: @main's result ends at what the stretches compute for it from the region's exit contents. -/
theorem post_result (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1, hostOps1_1, hostOps1_2]) r) (c : Dev nD) :
    r.2.mem ((c.tc : Thread nD τ).loc main_v85)
      = Pipeline.afterTail₀ cfgs dats 0 (V0 m) [hostOps1, hostOps1_1, hostOps1_2] c main_v85 :=
  (h c).2 main_v85 (Pipeline.mem_restRefs_of main_v85 (by decide) (by decide))

end Cert.KernelIdeal.Hand

end
-- ==== Proof.TailEq.lean ====
/-
  The host lines after the region as one function.

  After the pipelined region the program runs 108 host operations in three stretches. They read the two cost arrays
  the region leaves (mask cost and dice cost, [600, 128] each) and five of the program's arguments (the class
  logits, the predicted boxes, the target boxes, the target labels and the image size), and write only buffers of
  their own. So what the program's result buffer holds in the end is one pure function of those seven arrays: the
  operations' composed term. It is stated once, for any buffer contents the stretches may start from, by running the
  three lists operation by operation; read at the contents the region leaves, the two cost arrays are the pipeline's
  arrays after the last point and each argument is as the region found it.
-/
import proofs.«412977_j52527450030676_2_alg».proof.Proof.Kit
import proofs.«412977_j52527450030676_2_alg».proof.Proof.TailArgs
import Idealize.ShloMosaic.Lib.StableHlo.Run
import Idealize.ShloMosaic.Lib.Pipeline.FrameSuffix

set_option maxRecDepth 16384

noncomputable section

namespace Cert.KernelIdeal.Hand

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable {F : FTy → Type} [FloatOps F]

/-- The host lines after the region, as one function of the two cost arrays the region leaves and of the five
    arguments those lines read: the first 50 columns of each cost array; the class cost, minus the softmax probability
    of each target's label (a negative label counted from the end, the lookup guarded against an index outside 0..80);
    the box cost, the L1 distance between the predicted boxes and the target boxes converted from corner to centre form
    and divided by the image size; then 2 class + 5 mask + 5 dice + 5 box, regrouped to [2, 300, 50]. -/
def tailTerm (cm cd : (⟨S600x128, .f32⟩ : BufTy).Contents (Elt F)) (a0 : (⟨S2x300x81, .f32⟩ : BufTy).Contents (Elt F)) (a2 : (⟨S2x300x4, .f32⟩ : BufTy).Contents (Elt F))
    (a3 : (⟨S50x4, .f32⟩ : BufTy).Contents (Elt F)) (a4 : (⟨S50, .i32⟩ : BufTy).Contents (Elt F)) (a6 : (⟨S2, .i32⟩ : BufTy).Contents (Elt F)) : (⟨S2x300x50, .f32⟩ : BufTy).Contents (Elt F) :=
  shapeCast _ (addf (addf (addf (mulf (broadcastInDim S600x50 ![] bcast_S_S600x50 (constant S_ .f32 0x40000000#32)) (Host.negf (select (broadcastInDim S600x50 ![1] bcast_S50_S600x50_1 (Host.reduce IntOp.andi (andi (cmpi .sge (broadcastInDim S50x1 ![0] bcast_S50_S50x1_0 (select (cmpi .slt (a4) (broadcastInDim S50 ![] bcast_S_S50 (constantI S_ 32 0#32))) (addi (a4) (broadcastInDim S50 ![] bcast_S_S50 (constantI S_ 32 81#32))) (a4))) (broadcastInDim S50x1 ![] bcast_S_S50x1 (constantI S_ 32 0#32))) (cmpi .sle (broadcastInDim S50x1 ![0] bcast_S50_S50x1_0 (select (cmpi .slt (a4) (broadcastInDim S50 ![] bcast_S_S50 (constantI S_ 32 0#32))) (addi (a4) (broadcastInDim S50 ![] bcast_S_S50 (constantI S_ 32 81#32))) (a4))) (broadcastInDim S50x1 ![0, 1] bcast_S1x1_S50x1_0_1 (broadcastInDim S1x1 ![1] bcast_S1_S1x1_1 (constantI S1 32 80#32))))) (constantI S_ 1 1#1) reducesTo_S50x1_S50_d1 h_S_)) (Host.gather gather_S600x81_S50x1_S600x50_0_1_n_n_1_1_6001 (Host.divf (Host.exp (subf (shapeCast _ (a0) shapeCasts_S2x300x81_S600x81) (broadcastInDim S600x81 ![0, 1] bcast_S600x1_S600x81_0_1 (broadcastInDim S600x1 ![0] bcast_S600_S600x1_0 (maximumf (broadcastInDim S600 ![] bcast_S_S600 (constant S_ .f32 0xFF800000#32)) (Host.reduce FloatOps.maximumf (shapeCast _ (a0) shapeCasts_S2x300x81_S600x81) (constant S_ .f32 0xFF800000#32) reducesTo_S600x81_S600_d1 h_S_)))))) (broadcastInDim S600x81 ![0, 1] bcast_S600x1_S600x81_0_1 (broadcastInDim S600x1 ![0] bcast_S600_S600x1_0 (Host.reduceAdd (Host.exp (subf (shapeCast _ (a0) shapeCasts_S2x300x81_S600x81) (broadcastInDim S600x81 ![0, 1] bcast_S600x1_S600x81_0_1 (broadcastInDim S600x1 ![0] bcast_S600_S600x1_0 (maximumf (broadcastInDim S600 ![] bcast_S_S600 (constant S_ .f32 0xFF800000#32)) (Host.reduce FloatOps.maximumf (shapeCast _ (a0) shapeCasts_S2x300x81_S600x81) (constant S_ .f32 0xFF800000#32) reducesTo_S600x81_S600_d1 h_S_)))))) (constant S_ .f32 0x00000000#32) reducesTo_S600x81_S600_d1 h_S_)))) (broadcastInDim S50x1 ![0] bcast_S50_S50x1_0 (select (cmpi .slt (a4) (broadcastInDim S50 ![] bcast_S_S50 (constantI S_ 32 0#32))) (addi (a4) (broadcastInDim S50 ![] bcast_S_S50 (constantI S_ 32 81#32))) (a4)))) (broadcastInDim S600x50 ![] bcast_S_S600x50 (constant S_ .f32 0x7FC00000#32))))) (mulf (broadcastInDim S600x50 ![] bcast_S_S600x50 (constant S_ .f32 0x40A00000#32)) (extractStridedSlice S600x50 ![0, 0] (cm) slices_S600x128_S600x50_0_0))) (mulf (broadcastInDim S600x50 ![] bcast_S_S600x50 (constant S_ .f32 0x40A00000#32)) (extractStridedSlice S600x50 ![0, 0] (cd) slices_S600x128_S600x50_0_0))) (mulf (broadcastInDim S600x50 ![] bcast_S_S600x50 (constant S_ .f32 0x40A00000#32)) (Host.reduceAdd (Host.absf (subf (broadcastInDim S600x50x4 ![0, 1, 2] bcast_S600x1x4_S600x50x4_0_1_2 (broadcastInDim S600x1x4 ![0, 2] bcast_S600x4_S600x1x4_0_2 (shapeCast _ (a2) shapeCasts_S2x300x4_S600x4))) (broadcastInDim S600x50x4 ![0, 1, 2] bcast_S1x50x4_S600x50x4_0_1_2 (broadcastInDim S1x50x4 ![1, 2] bcast_S50x4_S1x50x4_1_2 (concatenate S50x4 1 [⟨S50x1, (broadcastInDim S50x1 ![0] bcast_S50_S50x1_0 (Host.divf (addf (shapeCast _ (extractStridedSlice S50x1 ![0, 0] (a3) slices_S50x4_S50x1_0_0) shapeCasts_S50x1_S50) (Host.divf (shapeCast _ (extractStridedSlice S50x1 ![0, 2] (a3) slices_S50x4_S50x1_0_2) shapeCasts_S50x1_S50) (broadcastInDim S50 ![] bcast_S_S50 (constant S_ .f32 0x40000000#32)))) (broadcastInDim S50 ![] bcast_S_S50 (shapeCast _ (extractStridedSlice S1 ![1] (sitofp .f32 (a6)) slices_S2_S1_1) shapeCasts_S1_S_))))⟩, ⟨S50x1, (broadcastInDim S50x1 ![0] bcast_S50_S50x1_0 (Host.divf (addf (shapeCast _ (extractStridedSlice S50x1 ![0, 1] (a3) slices_S50x4_S50x1_0_1) shapeCasts_S50x1_S50) (Host.divf (shapeCast _ (extractStridedSlice S50x1 ![0, 3] (a3) slices_S50x4_S50x1_0_3) shapeCasts_S50x1_S50) (broadcastInDim S50 ![] bcast_S_S50 (constant S_ .f32 0x40000000#32)))) (broadcastInDim S50 ![] bcast_S_S50 (shapeCast _ (extractStridedSlice S1 ![0] (sitofp .f32 (a6)) slices_S2_S1_0) shapeCasts_S1_S_))))⟩, ⟨S50x1, (broadcastInDim S50x1 ![0] bcast_S50_S50x1_0 (Host.divf (shapeCast _ (extractStridedSlice S50x1 ![0, 2] (a3) slices_S50x4_S50x1_0_2) shapeCasts_S50x1_S50) (broadcastInDim S50 ![] bcast_S_S50 (shapeCast _ (extractStridedSlice S1 ![1] (sitofp .f32 (a6)) slices_S2_S1_1) shapeCasts_S1_S_))))⟩, ⟨S50x1, (broadcastInDim S50x1 ![0] bcast_S50_S50x1_0 (Host.divf (shapeCast _ (extractStridedSlice S50x1 ![0, 3] (a3) slices_S50x4_S50x1_0_3) shapeCasts_S50x1_S50) (broadcastInDim S50 ![] bcast_S_S50 (shapeCast _ (extractStridedSlice S1 ![0] (sitofp .f32 (a6)) slices_S2_S1_0) shapeCasts_S1_S_))))⟩] concatenates_S50x1_S50x1_S50x1_S50x1_S50x4_d1))))) (constant S_ .f32 0x00000000#32) reducesTo_S600x50x4_S600x50_d2 h_S_))) shapeCasts_S600x50_S2x300x50

set_option maxRecDepth 65536 in
set_option maxHeartbeats 40000000 in
/-- From any buffer contents W, the three stretches leave in the program's result buffer that function of W's
    contents at the two cost arrays and the five arguments. -/
theorem after_tail (W : Valuation τ sig (Elt F)) :
    StableHlo.after (List.flatten [hostOps1, hostOps1_1, hostOps1_2]) W (Proc.devRef .tc main_v85)
      = tailTerm (W (Proc.devRef .tc main_v9_0)) (W (Proc.devRef .tc main_v9_1)) (W (Proc.devRef .tc main_arg0))
          (W (Proc.devRef .tc main_arg2)) (W (Proc.devRef .tc main_arg3)) (W (Proc.devRef .tc main_arg4)) (W (Proc.devRef .tc main_arg6)) := by
  simp only [hostOps1, hostOps1_1, hostOps1_2, List.flatten_cons, List.flatten_nil, List.append_nil, List.cons_append, List.nil_append]
  after_results_simp
  first | rfl | (unfold tailTerm; rfl)

variable (m : (ℓ : Loc nD τ sig) → Buf (Elt F) ℓ)

/-- So, for any proof data of the pipeline, the program's result after the three stretches is that function of the
    two cost arrays as the region leaves them and of the five arguments as the region found them. -/
theorem tail_eq (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v85
      = tailTerm ((dats 0 c).arrAt 3 cfg0.N) ((dats 0 c).arrAt 4 cfg0.N) (V m c main_arg0) (V m c main_arg2)
          (V m c main_arg3) (V m c main_arg4) (V m c main_arg6) := by
  unfold Pipeline.afterTail₀
  refine (after_tail _).trans ?_
  have e3 := Pipeline.withArrays_arr spec0 launch0.win.arr_inj c (V0 m c) (fun w => (dats 0 c).arrAt w cfg0.N) 3
  have e4 := Pipeline.withArrays_arr spec0 launch0.win.arr_inj c (V0 m c) (fun w => (dats 0 c).arrAt w cfg0.N) 4
  have a0 := Pipeline.withArrays_of_ne spec0 c (V0 m c) (fun w => (dats 0 c).arrAt w cfg0.N) main_arg0 (by decide)
  have a2 := Pipeline.withArrays_of_ne spec0 c (V0 m c) (fun w => (dats 0 c).arrAt w cfg0.N) main_arg2 (by decide)
  have a3 := Pipeline.withArrays_of_ne spec0 c (V0 m c) (fun w => (dats 0 c).arrAt w cfg0.N) main_arg3 (by decide)
  have a4 := Pipeline.withArrays_of_ne spec0 c (V0 m c) (fun w => (dats 0 c).arrAt w cfg0.N) main_arg4 (by decide)
  have a6 := Pipeline.withArrays_of_ne spec0 c (V0 m c) (fun w => (dats 0 c).arrAt w cfg0.N) main_arg6 (by decide)
  exact congr (congr (congr (congr (congr (congr (congrArg tailTerm e3) e4) a0) a2) a3) a4) a6

end Cert.KernelIdeal.Hand

end
-- ==== Proof.RefValue.lean ====
/-
  The reference's value. Its run and its read-at-an-index lemmas are the generated modules imported here. What is
  proved in this module: where every mask logit and every float target is a real number, the reference's mask cost
  and dice cost at (n, j) are the specification's expressions in the five pixel sums of Spec.lean; and the
  reference's result is the weighted sum 2 · class + 5 · mask + 5 · dice + 5 · box of four cost matrices, reshaped,
  the class and box costs kept as the stages of their own operands.
-/
import proofs.«412977_j52527450030676_2_alg».proof.Defs
import proofs.«412977_j52527450030676_2_alg».proof.Proof.Gen.ReferenceIdeal.Run
import proofs.«412977_j52527450030676_2_alg».proof.Proof.Gen.ReferenceIdeal.Read
import proofs.«412977_j52527450030676_2_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open Cert.Spec

/-! ## Identities over the reals

The reference computes softplus in its overflow-safe form, max(a, 0) + log(1 + e^{-|a|}); the specification writes
softplus(-x) as log(1 + e^{-x}) and softplus(x) as x + log(1 + e^{-x}). The two agree: for a ≥ 0,
log(1 + e^a) = log(e^a (1 + e^{-a})) = a + log(1 + e^{-a}); for a ≤ 0 there is nothing to move. -/
section Reals

/-- log(1 + e^x) = x + log(1 + e^{-x}): factor e^x out of the logarithm's argument. -/
theorem log_one_add_exp (x : ℝ) : Real.log (1 + Real.exp x) = x + Real.log (1 + Real.exp (-x)) := by
  have h1 : (0 : ℝ) < 1 + Real.exp (-x) := by positivity
  have h2 : 1 + Real.exp x = Real.exp x * (1 + Real.exp (-x)) := by
    rw [mul_add, mul_one, ← Real.exp_add, add_neg_cancel, Real.exp_zero, add_comm]
  rw [h2, Real.log_mul (Real.exp_pos x).ne' h1.ne', Real.log_exp]

/-- The overflow-safe softplus is the softplus: max(a, 0) + log(1 + e^{-|a|}) = log(1 + e^a). -/
theorem softplus_stable (a : ℝ) : max a 0 + Real.log (1 + Real.exp (-|a|)) = Real.log (1 + Real.exp a) := by
  rcases le_total 0 a with h | h
  · rw [max_eq_left h, abs_of_nonneg h, log_one_add_exp a]
  · rw [max_eq_right h, abs_of_nonpos h, neg_neg, zero_add]

/-- At the argument -x it is the specification's softplus(-x). -/
theorem softplus_stable_neg (x : ℝ) : max (-x) 0 + Real.log (1 + Real.exp (-|(-x)|)) = spn x := softplus_stable (-x)

/-- At the argument x it is the specification's softplus(x) = x + softplus(-x). -/
theorem softplus_stable_pos (x : ℝ) : max x 0 + Real.log (1 + Real.exp (-|x|)) = spp x := by
  rw [softplus_stable, log_one_add_exp]; rfl

/-- A square written as a power with the real exponent 2. -/
theorem rpow_two_eq (y : ℝ) : Real.rpow y 2 = y * y := by
  show y ^ (2 : ℝ) = y * y
  rw [Real.rpow_two, sq]

end Reals

/-! ## The program's float literals as reals -/
section Literals

theorem ofBits_quarter : Ideal.ofBits .f32 0x3E800000#32 = (((1 : ℝ) / 4 : ℝ) : EReal) := by
  simp [Ideal.ofBits, Ideal.ieee, -EReal.coe_mul]; norm_num
theorem ofBits_three_quarters : Ideal.ofBits .f32 0x3F400000#32 = (((3 : ℝ) / 4 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_65536 : Ideal.ofBits .f32 0x47800000#32 = ((65536 : ℝ) : EReal) := by
  simp [Ideal.ofBits, Ideal.ieee, -EReal.coe_mul]; norm_num
theorem ofBits_one : Ideal.ofBits .f32 0x3F800000#32 = ((1 : ℝ) : EReal) := by
  rw [Ideal.ofBits_one_f32]; rfl

end Literals

/-! ## One element in the extended reals

On a real argument every operation of the per-pixel chain stays real; these lemmas read each group of operations at a
real and return the specification's function of it. -/
section Scalars

theorem coe_max (a b : ℝ) : ((max a b : ℝ) : EReal) = max (a : EReal) (b : EReal) :=
  EReal.coe_strictMono.monotone.map_max

/-- A quotient of reals by a real that is not zero. -/
theorem div_coe_coe (a b : ℝ) (hb : b ≠ 0) : Ideal.div (a : EReal) (b : EReal) = ((a / b : ℝ) : EReal) := by
  rw [Ideal.div_coe hb, ← EReal.coe_mul, mul_one_div]

/-- 1 / (1 + e^{-r}) is the sigmoid. -/
theorem sig_coe (r : ℝ) :
    Ideal.div ((1 : ℝ) : EReal) (((1 : ℝ) : EReal) + Ideal.exp (-(r : EReal))) = ((Spec.sig r : ℝ) : EReal) := by
  rw [← EReal.coe_neg, Ideal.exp_coe, ← EReal.coe_add, div_coe_coe _ _ (by positivity)]
  rfl

/-- The reference's softplus at one element a: behind the guard a - 0 ≠ a - 0 (never taken on a real),
    max(a, 0) + log1p(e^{-|a - 0|}). -/
def softplusE (a : EReal) : EReal :=
  Scalar.select (Ideal.cmp .une (a - 0) (a - 0)) (a + 0)
    (max a 0 + Ideal.log1p (Ideal.exp (-(max (a - 0) (-(a - 0))))))

/-- On a real it is log(1 + e^a). -/
theorem softplusE_coe (a : ℝ) : softplusE (a : EReal) = ((Real.log (1 + Real.exp a) : ℝ) : EReal) := by
  unfold softplusE
  have hc : Ideal.cmp .une ((a : EReal) - 0) ((a : EReal) - 0) = 0#1 := by simp [Ideal.cmp]
  rw [hc, select_zero, sub_zero, ← EReal.coe_neg, ← coe_max, ← abs_eq_max_neg, ← EReal.coe_neg, Ideal.exp_coe,
    Ideal.log1p, ← EReal.coe_one, ← EReal.coe_add, Ideal.log_coe, if_neg (not_le.mpr (by positivity)),
    ← EReal.coe_zero, ← coe_max, ← EReal.coe_add, softplus_stable]

/-- The positive-target focal term: 1/4 · softplus(-x) · (1 - sigmoid x)², the square as a power with exponent 2. -/
theorem posf_coe (r : ℝ) :
    (((1 : ℝ) / 4 : ℝ) : EReal) * ((spn r : ℝ) : EReal) * Ideal.pow (((1 : ℝ) : EReal) - ((Spec.sig r : ℝ) : EReal)) ((2 : ℝ) : EReal)
      = ((posf r : ℝ) : EReal) := by
  rw [← EReal.coe_sub, Ideal.pow_coe_coe, rpow_two_eq, ← EReal.coe_mul, ← EReal.coe_mul]
  rfl

/-- The zero-target focal term: 3/4 · softplus(x) · (sigmoid x)². -/
theorem negf_coe (r : ℝ) :
    (((3 : ℝ) / 4 : ℝ) : EReal) * ((spp r : ℝ) : EReal) * Ideal.pow ((Spec.sig r : ℝ) : EReal) ((2 : ℝ) : EReal)
      = ((negf r : ℝ) : EReal) := by
  rw [Ideal.pow_coe_coe, rpow_two_eq, ← EReal.coe_mul, ← EReal.coe_mul]
  rfl

end Scalars

/-! ## The per-pixel stages at a real logit

`x` below is the reference's reshaped logits (its %12). Where its entry at a pixel is the real r, the sigmoid (%29),
softplus(-x) (%31), the positive-target term (%38), softplus(x) (%39), the zero-target term (%44) and their
difference (%45) at that pixel are the specification's functions of r. -/
section Pixels
variable (x1 : (⟨S2x300x256x256, .f32⟩ : BufTy).Contents (Elt Ideal))

theorem v29_at (i : S600x65536.Idx) (r : ℝ) (h : val_main_v12 (F := Ideal) x1 i = ((r : ℝ) : EReal)) :
    val_main_v29 (F := Ideal) x1 i = ((Spec.sig r : ℝ) : EReal) := by
  simp only [val_main_v29_apply, val_main_v28_apply, val_main_cst_4_apply, val_main_v27_apply, val_main_v26_apply,
    val_main_cst_3_apply, val_main_v25_apply, val_main_v24_apply, h, Ideal.hostDivf_def, Ideal.addf_def,
    Ideal.hostUnary_exp_def, Ideal.hostNegf_def, Ideal.negf_def, Ideal.ofBits_def, ofBits_one]
  exact sig_coe r

theorem v31_at (i : S600x65536.Idx) (r : ℝ) (h : val_main_v12 (F := Ideal) x1 i = ((r : ℝ) : EReal)) :
    val_main_v31 (F := Ideal) x1 i = ((spn r : ℝ) : EReal) := by
  simp only [val_main_v31_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v30_apply, h, Ideal.ofBits_def, Ideal.ofBits_zero_f32]
  exact softplusE_coe (-r)

theorem v39_at (i : S600x65536.Idx) (r : ℝ) (h : val_main_v12 (F := Ideal) x1 i = ((r : ℝ) : EReal)) :
    val_main_v39 (F := Ideal) x1 i = ((spp r : ℝ) : EReal) := by
  simp only [val_main_v39_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, h, Ideal.ofBits_def, Ideal.ofBits_zero_f32]
  exact (softplusE_coe r).trans (congrArg Real.toEReal (log_one_add_exp r))

theorem v38_at (i : S600x65536.Idx) (r : ℝ) (h : val_main_v12 (F := Ideal) x1 i = ((r : ℝ) : EReal)) :
    val_main_v38 (F := Ideal) x1 i = ((posf r : ℝ) : EReal) := by
  simp only [val_main_v38_apply, val_main_v33_apply, val_main_v32_apply, val_main_cst_5_apply, val_main_v37_apply,
    val_main_v35_apply, val_main_v34_apply, val_main_cst_6_apply, val_main_v36_apply, val_main_cst_7_apply,
    v31_at x1 i r h, v29_at x1 i r h, Ideal.mulf_def, Ideal.subf_def, Ideal.hostPowf_def, Ideal.ofBits_def,
    ofBits_one, ofBits_quarter, ofBits_two]
  exact posf_coe r

theorem v44_at (i : S600x65536.Idx) (r : ℝ) (h : val_main_v12 (F := Ideal) x1 i = ((r : ℝ) : EReal)) :
    val_main_v44 (F := Ideal) x1 i = ((negf r : ℝ) : EReal) := by
  simp only [val_main_v44_apply, val_main_v41_apply, val_main_v40_apply, val_main_cst_8_apply, val_main_v43_apply,
    val_main_v42_apply, val_main_cst_9_apply, v39_at x1 i r h, v29_at x1 i r h, Ideal.mulf_def, Ideal.hostPowf_def,
    Ideal.ofBits_def, ofBits_three_quarters, ofBits_two]
  exact negf_coe r

theorem v45_at (i : S600x65536.Idx) (r : ℝ) (h : val_main_v12 (F := Ideal) x1 i = ((r : ℝ) : EReal)) :
    val_main_v45 (F := Ideal) x1 i = ((Af r : ℝ) : EReal) := by
  rw [val_main_v45_apply, v38_at x1 i r h, v44_at x1 i r h]
  rfl

end Pixels

/-! ## The five pixel sums

`t` below is the reference's targets as floats (its %14). With every logit a real `xr n k` and every target a real
`tr j k`, the two contractions and the three row sums are the real sums of the specification, read in the extended
reals. A contraction's k-th term reads the logits' stage at (n, k) and the transposed targets at (k, j), that is the
targets at (j, k); a row sum starts from the literal zero. -/
section Sums
variable (x1 : (⟨S2x300x256x256, .f32⟩ : BufTy).Contents (Elt Ideal))
variable (x5 : (⟨S50x256x256, .i32⟩ : BufTy).Contents (Elt Ideal))
variable (xr : Fin 600 → Fin 65536 → ℝ) (tr : Fin 50 → Fin 65536 → ℝ)

/-- %47: (pos - neg) contracted with the targets. -/
theorem v47_at (hx : ∀ (n : Fin 600) (k : Fin 65536), val_main_v12 (F := Ideal) x1 (ix2 n k) = ((xr n k : ℝ) : EReal))
    (ht : ∀ (j : Fin 50) (k : Fin 65536), val_main_v14 (F := Ideal) x5 (ix2 j k) = ((tr j k : ℝ) : EReal))
    (n : Fin 600) (j : Fin 50) :
    val_main_v47 (F := Ideal) x1 x5 (ix2 n j) = ((∑ k : Fin 65536, Af (xr n k) * tr j k : ℝ) : EReal) := by
  rw [val_main_v47_apply]
  refine Eq.trans ?_ (Spec.coe_sum Finset.univ fun k => Af (xr n k) * tr j k)
  refine Finset.sum_congr rfl fun k _ => ?_
  have el : lidx_main_v47 (ix2 n j) k = ix2 n k :=
    funext fun a => Fin.ext (by match a with | ⟨0, _⟩ => rfl | ⟨1, _⟩ => rfl)
  have er : idx_main_v46 (ridx_main_v47 (ix2 n j) k) = ix2 j k :=
    funext fun a => Fin.ext (by match a with | ⟨0, _⟩ => rfl | ⟨1, _⟩ => rfl)
  rw [el, v45_at x1 _ _ (hx n k), val_main_v46_apply, er, ht j k, EReal.coe_mul]

/-- %48: the row sum of neg. -/
theorem v48_at (hx : ∀ (n : Fin 600) (k : Fin 65536), val_main_v12 (F := Ideal) x1 (ix2 n k) = ((xr n k : ℝ) : EReal))
    (n : Fin 600) :
    val_main_v48 (F := Ideal) x1 (ix1 n) = ((∑ k : Fin 65536, negf (xr n k) : ℝ) : EReal) := by
  rw [val_main_v48_apply, val_main_cst_10_apply, Ideal.ofBits_def, Ideal.ofBits_zero_f32, zero_add]
  refine Eq.trans ?_ (Spec.coe_sum Finset.univ fun k => negf (xr n k))
  refine Finset.sum_congr rfl fun k _ => ?_
  have e : idx_main_v48 (ix1 n) k = ix2 n k :=
    funext fun a => Fin.ext (by match a with | ⟨0, _⟩ => rfl | ⟨1, _⟩ => rfl)
  rw [e, v44_at x1 _ _ (hx n k)]

/-- %55: the sigmoid contracted with the targets. -/
theorem v55_at (hx : ∀ (n : Fin 600) (k : Fin 65536), val_main_v12 (F := Ideal) x1 (ix2 n k) = ((xr n k : ℝ) : EReal))
    (ht : ∀ (j : Fin 50) (k : Fin 65536), val_main_v14 (F := Ideal) x5 (ix2 j k) = ((tr j k : ℝ) : EReal))
    (n : Fin 600) (j : Fin 50) :
    val_main_v55 (F := Ideal) x1 x5 (ix2 n j) = ((∑ k : Fin 65536, Spec.sig (xr n k) * tr j k : ℝ) : EReal) := by
  rw [val_main_v55_apply]
  refine Eq.trans ?_ (Spec.coe_sum Finset.univ fun k => Spec.sig (xr n k) * tr j k)
  refine Finset.sum_congr rfl fun k _ => ?_
  have el : lidx_main_v55 (ix2 n j) k = ix2 n k :=
    funext fun a => Fin.ext (by match a with | ⟨0, _⟩ => rfl | ⟨1, _⟩ => rfl)
  have er : idx_main_v54 (ridx_main_v55 (ix2 n j) k) = ix2 j k :=
    funext fun a => Fin.ext (by match a with | ⟨0, _⟩ => rfl | ⟨1, _⟩ => rfl)
  rw [el, v29_at x1 _ _ (hx n k), val_main_v54_apply, er, ht j k, EReal.coe_mul]

/-- %56: the row sum of the sigmoid. -/
theorem v56_at (hx : ∀ (n : Fin 600) (k : Fin 65536), val_main_v12 (F := Ideal) x1 (ix2 n k) = ((xr n k : ℝ) : EReal))
    (n : Fin 600) :
    val_main_v56 (F := Ideal) x1 (ix1 n) = ((∑ k : Fin 65536, Spec.sig (xr n k) : ℝ) : EReal) := by
  rw [val_main_v56_apply, val_main_cst_12_apply, Ideal.ofBits_def, Ideal.ofBits_zero_f32, zero_add]
  refine Eq.trans ?_ (Spec.coe_sum Finset.univ fun k => Spec.sig (xr n k))
  refine Finset.sum_congr rfl fun k _ => ?_
  have e : idx_main_v56 (ix1 n) k = ix2 n k :=
    funext fun a => Fin.ext (by match a with | ⟨0, _⟩ => rfl | ⟨1, _⟩ => rfl)
  rw [e, v29_at x1 _ _ (hx n k)]

/-- %58: the row sum of the targets. -/
theorem v58_at (ht : ∀ (j : Fin 50) (k : Fin 65536), val_main_v14 (F := Ideal) x5 (ix2 j k) = ((tr j k : ℝ) : EReal))
    (j : Fin 50) :
    val_main_v58 (F := Ideal) x5 (ix1 j) = ((∑ k : Fin 65536, tr j k : ℝ) : EReal) := by
  rw [val_main_v58_apply, val_main_cst_13_apply, Ideal.ofBits_def, Ideal.ofBits_zero_f32, zero_add]
  refine Eq.trans ?_ (Spec.coe_sum Finset.univ fun k => tr j k)
  refine Finset.sum_congr rfl fun k _ => ?_
  have e : idx_main_v58 (ix1 j) k = ix2 j k :=
    funext fun a => Fin.ext (by match a with | ⟨0, _⟩ => rfl | ⟨1, _⟩ => rfl)
  rw [e, ht j k]

end Sums

/-! ## The two costs from the five sums

cost_mask at (n, j) is (Σ_k Af·t + Σ_k negf) / 65536, and a quotient by the real 65536 is the product with 1/65536;
cost_dice is 1 - (2 Σ_k sig·t + 1) / ((Σ_k sig + Σ_k t) + 1), the quotient left as the extended reals' division
(its divisor is positive on binary targets, which this module does not need). The row sums reach (n, j) through
two broadcasts each, which read row n, respectively column j. -/
section Costs
variable (x1 : (⟨S2x300x256x256, .f32⟩ : BufTy).Contents (Elt Ideal))
variable (x5 : (⟨S50x256x256, .i32⟩ : BufTy).Contents (Elt Ideal))
variable (xr : Fin 600 → Fin 65536 → ℝ) (tr : Fin 50 → Fin 65536 → ℝ)

/-- %53, cost_mask, in the product form. -/
theorem v53_at (hx : ∀ (n : Fin 600) (k : Fin 65536), val_main_v12 (F := Ideal) x1 (ix2 n k) = ((xr n k : ℝ) : EReal))
    (ht : ∀ (j : Fin 50) (k : Fin 65536), val_main_v14 (F := Ideal) x5 (ix2 j k) = ((tr j k : ℝ) : EReal))
    (n : Fin 600) (j : Fin 50) :
    val_main_v53 (F := Ideal) x1 x5 (ix2 n j)
      = (((∑ k : Fin 65536, Af (xr n k) * tr j k : ℝ) : EReal) + ((∑ k : Fin 65536, negf (xr n k) : ℝ) : EReal))
          * ((1 / 65536 : ℝ) : EReal) := by
  have e : idx_main_v49 (idx_main_v50 (ix2 n j)) = ix1 n :=
    funext fun a => Fin.ext (by match a with | ⟨0, _⟩ => rfl)
  rw [val_main_v53_apply, val_main_v51_apply, val_main_v50_apply, val_main_v49_apply, val_main_v52_apply,
    val_main_cst_11_apply, e, v47_at x1 x5 xr tr hx ht n j, v48_at x1 xr hx n]
  simp only [Ideal.hostDivf_def, Ideal.addf_def, Ideal.ofBits_def, ofBits_65536]
  exact Ideal.div_coe (by norm_num) _

/-- %71, cost_dice, in the operations as printed. -/
theorem v71_at (hx : ∀ (n : Fin 600) (k : Fin 65536), val_main_v12 (F := Ideal) x1 (ix2 n k) = ((xr n k : ℝ) : EReal))
    (ht : ∀ (j : Fin 50) (k : Fin 65536), val_main_v14 (F := Ideal) x5 (ix2 j k) = ((tr j k : ℝ) : EReal))
    (n : Fin 600) (j : Fin 50) :
    val_main_v71 (F := Ideal) x1 x5 (ix2 n j)
      = ((1 : ℝ) : EReal) - Ideal.div
          (((2 : ℝ) : EReal) * ((∑ k : Fin 65536, Spec.sig (xr n k) * tr j k : ℝ) : EReal) + ((1 : ℝ) : EReal))
          ((((∑ k : Fin 65536, Spec.sig (xr n k) : ℝ) : EReal) + ((∑ k : Fin 65536, tr j k : ℝ) : EReal))
            + ((1 : ℝ) : EReal)) := by
  have ep : idx_main_v57 (idx_main_v60 (ix2 n j)) = ix1 n :=
    funext fun a => Fin.ext (by match a with | ⟨0, _⟩ => rfl)
  have et : idx_main_v59 (idx_main_v61 (ix2 n j)) = ix1 j :=
    funext fun a => Fin.ext (by match a with | ⟨0, _⟩ => rfl)
  rw [val_main_v71_apply, val_main_v70_apply, val_main_cst_17_apply, val_main_v69_apply, val_main_v66_apply,
    val_main_v64_apply, val_main_v63_apply, val_main_cst_14_apply, val_main_v65_apply, val_main_cst_15_apply,
    val_main_v68_apply, val_main_v62_apply, val_main_v60_apply, val_main_v57_apply, val_main_v61_apply,
    val_main_v59_apply, val_main_v67_apply, val_main_cst_16_apply, ep, et, v55_at x1 x5 xr tr hx ht n j,
    v56_at x1 xr hx n, v58_at x5 tr ht j]
  simp only [Ideal.hostDivf_def, Ideal.addf_def, Ideal.subf_def, Ideal.mulf_def, Ideal.ofBits_def, ofBits_one,
    ofBits_two]

end Costs

/-! ## The result

The last operations weigh the four cost matrices, 2 · class + 5 · mask + 5 · dice + 5 · box, and reshape [600, 50] to
[2, 300, 50]. `RefTail` is that tail as a function of the four matrices; the class and box costs stay the stages of
their own operands. Entry (b, q, j) of the result is entry (300 b + q, j) of the weighted sum. -/
section Result

/-- The weighted sum of the four cost matrices (the reference's %119 … %129). -/
def RefSum (cc cm cd cb : FVec Ideal S600x50 .f32) : FVec Ideal S600x50 .f32 :=
  addf (addf (addf (mulf (val_main_v119 (F := Ideal)) cc) (mulf (val_main_v121 (F := Ideal)) cm))
    (mulf (val_main_v124 (F := Ideal)) cd)) (mulf (val_main_v127 (F := Ideal)) cb)

/-- The reference's tail (%119 … %130): the weighted sum, reshaped to [2, 300, 50]. -/
def RefTail (cc cm cd cb : FVec Ideal S600x50 .f32) : FVec Ideal S2x300x50 .f32 :=
  shapeCast _ (RefSum cc cm cd cb) shapeCasts_S600x50_S2x300x50

variable (x0 : (⟨S2x300x81, .f32⟩ : BufTy).Contents (Elt Ideal))
variable (x1 : (⟨S2x300x256x256, .f32⟩ : BufTy).Contents (Elt Ideal))
variable (x2 : (⟨S2x300x4, .f32⟩ : BufTy).Contents (Elt Ideal))
variable (x3 : (⟨S50x4, .f32⟩ : BufTy).Contents (Elt Ideal))
variable (x4 : (⟨S50, .i32⟩ : BufTy).Contents (Elt Ideal))
variable (x5 : (⟨S50x256x256, .i32⟩ : BufTy).Contents (Elt Ideal))
variable (x6 : (⟨S2, .i32⟩ : BufTy).Contents (Elt Ideal))

/-- The last stage is the tail of the four cost stages. -/
theorem v130_eq_tail :
    val_main_v130 (F := Ideal) x0 x1 x2 x3 x4 x5 x6
      = RefTail (val_main_v23 (F := Ideal) x0 x4) (val_main_v53 (F := Ideal) x1 x5) (val_main_v71 (F := Ideal) x1 x5)
          (val_main_v118 (F := Ideal) x2 x3 x6) := rfl

/-- The run's result term is the tail of the four cost stages of the launch contents. -/
theorem res_eq_tail (m : (ℓ : Loc nD τ Cert.ReferenceIdeal.sig) → Buf (Elt Ideal) ℓ) (c : Dev nD) :
    Cert.ReferenceIdeal.Value.res_main_v130 m c
      = RefTail
          (val_main_v23 (F := Ideal) (m ((c.tc : Thread nD τ).loc main_arg0)) (m ((c.tc : Thread nD τ).loc main_arg4)))
          (val_main_v53 (F := Ideal) (m ((c.tc : Thread nD τ).loc main_arg1)) (m ((c.tc : Thread nD τ).loc main_arg5)))
          (val_main_v71 (F := Ideal) (m ((c.tc : Thread nD τ).loc main_arg1)) (m ((c.tc : Thread nD τ).loc main_arg5)))
          (val_main_v118 (F := Ideal) (m ((c.tc : Thread nD τ).loc main_arg2)) (m ((c.tc : Thread nD τ).loc main_arg3))
            (m ((c.tc : Thread nD τ).loc main_arg6))) :=
  (val_main_v130_eq (F := Ideal) m c).trans (v130_eq_tail _ _ _ _ _ _ _)

/-- Entry (b, q, j) of the reshaped array is entry (300 b + q, j) of the matrix. -/
theorem idx_v130_ix3 (b : Fin 2) (q : Fin 300) (j : Fin 50) :
    idx_main_v130 (ix3 b q j) = ix2 (⟨b.val * 300 + q.val, by omega⟩ : Fin 600) j :=
  funext fun a => Fin.ext (by
    match a with
    | ⟨0, _⟩ => show ((b.val * 300 + q.val) * 50 + j.val) / 50 = b.val * 300 + q.val; omega
    | ⟨1, _⟩ => show ((b.val * 300 + q.val) * 50 + j.val) % 50 = j.val; omega)

/-- The tail at (b, q, j): the weighted sum at (300 b + q, j), the weights the program's literals 2, 5, 5, 5. -/
theorem RefTail_apply (cc cm cd cb : FVec Ideal S600x50 .f32) (b : Fin 2) (q : Fin 300) (j : Fin 50) :
    RefTail cc cm cd cb (ix3 b q j)
      = Ideal.ofBits .f32 0x40000000#32 * cc (ix2 (⟨b.val * 300 + q.val, by omega⟩ : Fin 600) j)
        + Ideal.ofBits .f32 0x40A00000#32 * cm (ix2 (⟨b.val * 300 + q.val, by omega⟩ : Fin 600) j)
        + Ideal.ofBits .f32 0x40A00000#32 * cd (ix2 (⟨b.val * 300 + q.val, by omega⟩ : Fin 600) j)
        + Ideal.ofBits .f32 0x40A00000#32 * cb (ix2 (⟨b.val * 300 + q.val, by omega⟩ : Fin 600) j) := by
  unfold RefTail
  rw [shapeCast_apply (RefSum cc cm cd cb) shapeCasts_S600x50_S2x300x50 (ix3 b q j)
    (ix2 (⟨b.val * 300 + q.val, by omega⟩ : Fin 600) j)
    (by rewrite [Shape.rowMajor_val_two, Shape.rowMajor_val_three]; rfl)]
  simp only [RefSum, addf_apply, mulf_apply, val_main_v119_apply, val_main_cst_21_apply, val_main_v121_apply,
    val_main_cst_22_apply, val_main_v124_apply, val_main_cst_23_apply, val_main_v127_apply, val_main_cst_24_apply,
    Ideal.ofBits_def]

end Result

/-! ## The result at an entry, on real logits and targets

Entry (b, q, j) of the reference's result, with n = 300 b + q: twice the class cost at (n, j), plus five times the
mask cost in its product form, plus five times the dice cost, plus five times the box cost at (n, j). -/
section Assembled
variable (x0 : (⟨S2x300x81, .f32⟩ : BufTy).Contents (Elt Ideal))
variable (x1 : (⟨S2x300x256x256, .f32⟩ : BufTy).Contents (Elt Ideal))
variable (x2 : (⟨S2x300x4, .f32⟩ : BufTy).Contents (Elt Ideal))
variable (x3 : (⟨S50x4, .f32⟩ : BufTy).Contents (Elt Ideal))
variable (x4 : (⟨S50, .i32⟩ : BufTy).Contents (Elt Ideal))
variable (x5 : (⟨S50x256x256, .i32⟩ : BufTy).Contents (Elt Ideal))
variable (x6 : (⟨S2, .i32⟩ : BufTy).Contents (Elt Ideal))
variable (xr : Fin 600 → Fin 65536 → ℝ) (tr : Fin 50 → Fin 65536 → ℝ)

theorem result_at (hx : ∀ (n : Fin 600) (k : Fin 65536), val_main_v12 (F := Ideal) x1 (ix2 n k) = ((xr n k : ℝ) : EReal))
    (ht : ∀ (j : Fin 50) (k : Fin 65536), val_main_v14 (F := Ideal) x5 (ix2 j k) = ((tr j k : ℝ) : EReal))
    (b : Fin 2) (q : Fin 300) (j : Fin 50) :
    val_main_v130 (F := Ideal) x0 x1 x2 x3 x4 x5 x6 (ix3 b q j)
      = Ideal.ofBits .f32 0x40000000#32
          * val_main_v23 (F := Ideal) x0 x4 (ix2 (⟨b.val * 300 + q.val, by omega⟩ : Fin 600) j)
        + Ideal.ofBits .f32 0x40A00000#32
          * ((((∑ k : Fin 65536, Af (xr ⟨b.val * 300 + q.val, by omega⟩ k) * tr j k : ℝ) : EReal)
              + ((∑ k : Fin 65536, negf (xr ⟨b.val * 300 + q.val, by omega⟩ k) : ℝ) : EReal))
            * ((1 / 65536 : ℝ) : EReal))
        + Ideal.ofBits .f32 0x40A00000#32
          * (((1 : ℝ) : EReal) - Ideal.div
              (((2 : ℝ) : EReal) * ((∑ k : Fin 65536, Spec.sig (xr ⟨b.val * 300 + q.val, by omega⟩ k) * tr j k : ℝ) : EReal)
                + ((1 : ℝ) : EReal))
              ((((∑ k : Fin 65536, Spec.sig (xr ⟨b.val * 300 + q.val, by omega⟩ k) : ℝ) : EReal)
                + ((∑ k : Fin 65536, tr j k : ℝ) : EReal)) + ((1 : ℝ) : EReal)))
        + Ideal.ofBits .f32 0x40A00000#32
          * val_main_v118 (F := Ideal) x2 x3 x6 (ix2 (⟨b.val * 300 + q.val, by omega⟩ : Fin 600) j) := by
  rw [v130_eq_tail, RefTail_apply, v53_at x1 x5 xr tr hx ht, v71_at x1 x5 xr tr hx ht]

end Assembled

/-! ## Where the two hypotheses come from

The float targets are the integer targets read as reals, so they are real whatever the integers are; the reshaped
logits are real as soon as every logit is. -/
section Inputs

/-- The target at (j, k) as a real: the integer entry of the reshaped targets, read signed. -/
def trOf (x5 : (⟨S50x256x256, .i32⟩ : BufTy).Contents (Elt Ideal)) (j : Fin 50) (k : Fin 65536) : ℝ :=
  ((BitVec.toInt (val_main_v13 (F := Ideal) x5 (ix2 j k)) : ℤ) : ℝ)

theorem ht_trOf (x5 : (⟨S50x256x256, .i32⟩ : BufTy).Contents (Elt Ideal)) (j : Fin 50) (k : Fin 65536) :
    val_main_v14 (F := Ideal) x5 (ix2 j k) = ((trOf x5 j k : ℝ) : EReal) := rfl

/-- The entry of the reshaped targets at (j, k) is the entry (j, k / 256, k % 256) of the argument. -/
theorem v13_at (x5 : (⟨S50x256x256, .i32⟩ : BufTy).Contents (Elt Ideal)) (j : Fin 50) (k : Fin 65536) :
    val_main_v13 (F := Ideal) x5 (ix2 j k)
      = x5 (ix3 j (⟨k.val / 256, by omega⟩ : Fin 256) (⟨k.val % 256, by omega⟩ : Fin 256)) := by
  rw [val_main_v13_apply]
  exact congrArg x5 (funext fun a => Fin.ext (by
    match a with
    | ⟨0, _⟩ => show (j.val * 65536 + k.val) / 65536 = j.val; omega
    | ⟨1, _⟩ => show (j.val * 65536 + k.val) / 256 % 256 = k.val / 256; omega
    | ⟨2, _⟩ => show (j.val * 65536 + k.val) % 256 = k.val % 256; omega))

/-- If every logit is a real, the reshaped logits are a real matrix. -/
theorem exists_xr (x1 : (⟨S2x300x256x256, .f32⟩ : BufTy).Contents (Elt Ideal))
    (h : ∀ i : S2x300x256x256.Idx, ∃ r : ℝ, x1 i = ((r : ℝ) : EReal)) :
    ∃ xr : Fin 600 → Fin 65536 → ℝ, ∀ (n : Fin 600) (k : Fin 65536),
      val_main_v12 (F := Ideal) x1 (ix2 n k) = ((xr n k : ℝ) : EReal) := by
  choose f hf using h
  exact ⟨fun n k => f (idx_main_v12 (ix2 n k)), fun n k => by rw [val_main_v12_apply]; exact hf _⟩

end Inputs

end Cert.ReferenceIdeal.RefValue

end
-- ==== Proof.TailRef.lean ====
/-
  The host lines after the region compute what the reference's last lines compute.

  Both programs end with 2 class + 5 mask + 5 dice + 5 box regrouped to [2, 300, 50]. The class cost is minus the
  softmax probability of each target's label and the box cost the L1 distance to the normalised target boxes: the two
  programs apply the same operations to the same arguments, except that the kernel program's label lookup is guarded
  (where some label's index falls outside 0..80 the whole column is replaced by a filler). A label l with
  -81 <= l < 81 is looked up at l + 81 when negative and at l otherwise, an index within 0..80, so under the
  precondition the guard holds for every target and the lookup's own value is taken. The mask and dice costs are the
  first 50 columns of the two arrays the region leaves, which are given to agree with the reference's two cost
  matrices there.
-/
import proofs.«412977_j52527450030676_2_alg».proof.Proof.TailEq
import proofs.«412977_j52527450030676_2_alg».proof.Proof.RefValue
import Idealize.ShloMosaic.Lib.StableHlo.Predicate
import Idealize.ShloMosaic.Lib.ValueIdx
import Idealize.ShloMosaic.Lib.Pipeline.Value
import Idealize.ShloMosaic.Lib.Affine
import Idealize.ShloMosaic.PureOps.Reduce

set_option maxRecDepth 16384

noncomputable section

namespace Cert.TailRef

open Idealize.ShloMosaic Idealize.ShloMosaic.ValueIdx
open Cert.KernelIdeal Cert.KernelIdeal.Gen Cert.KernelIdeal.Hand

/-! ## The tail's components -/

section Components
variable {F : FTy → Type} [FloatOps F]

/-- A label counted from the end when negative: l + 81 if l < 0, else l. -/
def wrapK (a4 : (⟨S50, .i32⟩ : BufTy).Contents (Elt F)) : (⟨S50, .i32⟩ : BufTy).Contents (Elt F) :=
  select (cmpi .slt (a4) (broadcastInDim S50 ![] bcast_S_S50 (constantI S_ 32 0#32))) (addi (a4) (broadcastInDim S50 ![] bcast_S_S50 (constantI S_ 32 81#32))) (a4)

/-- The softmax of the class logits over the 81 classes, rows regrouped to [600, 81]. -/
def softK (a0 : (⟨S2x300x81, .f32⟩ : BufTy).Contents (Elt F)) : (⟨S600x81, .f32⟩ : BufTy).Contents (Elt F) :=
  Host.divf (Host.exp (subf (shapeCast _ (a0) shapeCasts_S2x300x81_S600x81) (broadcastInDim S600x81 ![0, 1] bcast_S600x1_S600x81_0_1 (broadcastInDim S600x1 ![0] bcast_S600_S600x1_0 (maximumf (broadcastInDim S600 ![] bcast_S_S600 (constant S_ .f32 0xFF800000#32)) (Host.reduce FloatOps.maximumf (shapeCast _ (a0) shapeCasts_S2x300x81_S600x81) (constant S_ .f32 0xFF800000#32) reducesTo_S600x81_S600_d1 h_S_)))))) (broadcastInDim S600x81 ![0, 1] bcast_S600x1_S600x81_0_1 (broadcastInDim S600x1 ![0] bcast_S600_S600x1_0 (Host.reduceAdd (Host.exp (subf (shapeCast _ (a0) shapeCasts_S2x300x81_S600x81) (broadcastInDim S600x81 ![0, 1] bcast_S600x1_S600x81_0_1 (broadcastInDim S600x1 ![0] bcast_S600_S600x1_0 (maximumf (broadcastInDim S600 ![] bcast_S_S600 (constant S_ .f32 0xFF800000#32)) (Host.reduce FloatOps.maximumf (shapeCast _ (a0) shapeCasts_S2x300x81_S600x81) (constant S_ .f32 0xFF800000#32) reducesTo_S600x81_S600_d1 h_S_)))))) (constant S_ .f32 0x00000000#32) reducesTo_S600x81_S600_d1 h_S_)))

/-- The lookup's guard, spread over the rows: whether every wrapped label lies within 0..80. -/
def guardK (a4 : (⟨S50, .i32⟩ : BufTy).Contents (Elt F)) : (⟨S600x50, .i1⟩ : BufTy).Contents (Elt F) :=
  broadcastInDim S600x50 ![1] bcast_S50_S600x50_1 (Host.reduce IntOp.andi (andi (cmpi .sge (broadcastInDim S50x1 ![0] bcast_S50_S50x1_0 (wrapK a4)) (broadcastInDim S50x1 ![] bcast_S_S50x1 (constantI S_ 32 0#32))) (cmpi .sle (broadcastInDim S50x1 ![0] bcast_S50_S50x1_0 (wrapK a4)) (broadcastInDim S50x1 ![0, 1] bcast_S1x1_S50x1_0_1 (broadcastInDim S1x1 ![1] bcast_S1_S1x1_1 (constantI S1 32 80#32))))) (constantI S_ 1 1#1) reducesTo_S50x1_S50_d1 h_S_)

/-- The lookup itself: each row's probability at each target's wrapped label. -/
def gatherK (a0 : (⟨S2x300x81, .f32⟩ : BufTy).Contents (Elt F)) (a4 : (⟨S50, .i32⟩ : BufTy).Contents (Elt F)) : (⟨S600x50, .f32⟩ : BufTy).Contents (Elt F) :=
  Host.gather gather_S600x81_S50x1_S600x50_0_1_n_n_1_1_6001 (softK a0) (broadcastInDim S50x1 ![0] bcast_S50_S50x1_0 (wrapK a4))

/-- The filler the guard would substitute. -/
def nanK : (⟨S600x50, .f32⟩ : BufTy).Contents (Elt F) :=
  broadcastInDim S600x50 ![] bcast_S_S600x50 (constant S_ .f32 0x7FC00000#32)

/-- The first 50 columns of a cost array. -/
def sliceK (x : (⟨S600x128, .f32⟩ : BufTy).Contents (Elt F)) : (⟨S600x50, .f32⟩ : BufTy).Contents (Elt F) :=
  extractStridedSlice S600x50 ![0, 0] (x) slices_S600x128_S600x50_0_0

/-- The box cost: the L1 distance between each predicted box and each target box in centre form, scaled by the image size. -/
def boxK (a2 : (⟨S2x300x4, .f32⟩ : BufTy).Contents (Elt F)) (a3 : (⟨S50x4, .f32⟩ : BufTy).Contents (Elt F)) (a6 : (⟨S2, .i32⟩ : BufTy).Contents (Elt F)) : (⟨S600x50, .f32⟩ : BufTy).Contents (Elt F) :=
  Host.reduceAdd (Host.absf (subf (broadcastInDim S600x50x4 ![0, 1, 2] bcast_S600x1x4_S600x50x4_0_1_2 (broadcastInDim S600x1x4 ![0, 2] bcast_S600x4_S600x1x4_0_2 (shapeCast _ (a2) shapeCasts_S2x300x4_S600x4))) (broadcastInDim S600x50x4 ![0, 1, 2] bcast_S1x50x4_S600x50x4_0_1_2 (broadcastInDim S1x50x4 ![1, 2] bcast_S50x4_S1x50x4_1_2 (concatenate S50x4 1 [⟨S50x1, (broadcastInDim S50x1 ![0] bcast_S50_S50x1_0 (Host.divf (addf (shapeCast _ (extractStridedSlice S50x1 ![0, 0] (a3) slices_S50x4_S50x1_0_0) shapeCasts_S50x1_S50) (Host.divf (shapeCast _ (extractStridedSlice S50x1 ![0, 2] (a3) slices_S50x4_S50x1_0_2) shapeCasts_S50x1_S50) (broadcastInDim S50 ![] bcast_S_S50 (constant S_ .f32 0x40000000#32)))) (broadcastInDim S50 ![] bcast_S_S50 (shapeCast _ (extractStridedSlice S1 ![1] (sitofp .f32 (a6)) slices_S2_S1_1) shapeCasts_S1_S_))))⟩, ⟨S50x1, (broadcastInDim S50x1 ![0] bcast_S50_S50x1_0 (Host.divf (addf (shapeCast _ (extractStridedSlice S50x1 ![0, 1] (a3) slices_S50x4_S50x1_0_1) shapeCasts_S50x1_S50) (Host.divf (shapeCast _ (extractStridedSlice S50x1 ![0, 3] (a3) slices_S50x4_S50x1_0_3) shapeCasts_S50x1_S50) (broadcastInDim S50 ![] bcast_S_S50 (constant S_ .f32 0x40000000#32)))) (broadcastInDim S50 ![] bcast_S_S50 (shapeCast _ (extractStridedSlice S1 ![0] (sitofp .f32 (a6)) slices_S2_S1_0) shapeCasts_S1_S_))))⟩, ⟨S50x1, (broadcastInDim S50x1 ![0] bcast_S50_S50x1_0 (Host.divf (shapeCast _ (extractStridedSlice S50x1 ![0, 2] (a3) slices_S50x4_S50x1_0_2) shapeCasts_S50x1_S50) (broadcastInDim S50 ![] bcast_S_S50 (shapeCast _ (extractStridedSlice S1 ![1] (sitofp .f32 (a6)) slices_S2_S1_1) shapeCasts_S1_S_))))⟩, ⟨S50x1, (broadcastInDim S50x1 ![0] bcast_S50_S50x1_0 (Host.divf (shapeCast _ (extractStridedSlice S50x1 ![0, 3] (a3) slices_S50x4_S50x1_0_3) shapeCasts_S50x1_S50) (broadcastInDim S50 ![] bcast_S_S50 (shapeCast _ (extractStridedSlice S1 ![0] (sitofp .f32 (a6)) slices_S2_S1_0) shapeCasts_S1_S_))))⟩] concatenates_S50x1_S50x1_S50x1_S50x1_S50x4_d1))))) (constant S_ .f32 0x00000000#32) reducesTo_S600x50x4_S600x50_d2 h_S_

/-- The weighted sum of four cost matrices, regrouped. -/
def tailOf (cc cm cd cb : (⟨S600x50, .f32⟩ : BufTy).Contents (Elt F)) : (⟨S2x300x50, .f32⟩ : BufTy).Contents (Elt F) :=
  shapeCast _ (addf (addf (addf (mulf (broadcastInDim S600x50 ![] bcast_S_S600x50 (constant S_ .f32 0x40000000#32)) (cc)) (mulf (broadcastInDim S600x50 ![] bcast_S_S600x50 (constant S_ .f32 0x40A00000#32)) (cm))) (mulf (broadcastInDim S600x50 ![] bcast_S_S600x50 (constant S_ .f32 0x40A00000#32)) (cd))) (mulf (broadcastInDim S600x50 ![] bcast_S_S600x50 (constant S_ .f32 0x40A00000#32)) (cb))) shapeCasts_S600x50_S2x300x50

/-- The class cost: minus the looked-up probability, the lookup guarded. -/
def classK (a0 : (⟨S2x300x81, .f32⟩ : BufTy).Contents (Elt F)) (a4 : (⟨S50, .i32⟩ : BufTy).Contents (Elt F)) : (⟨S600x50, .f32⟩ : BufTy).Contents (Elt F) :=
  Host.negf (select (guardK a4) (gatherK a0 a4) nanK)

set_option maxRecDepth 65536 in
/-- The tail is the weighted sum of its four components. -/
theorem tailTerm_split (cm cd : (⟨S600x128, .f32⟩ : BufTy).Contents (Elt F)) (a0 : (⟨S2x300x81, .f32⟩ : BufTy).Contents (Elt F)) (a2 : (⟨S2x300x4, .f32⟩ : BufTy).Contents (Elt F))
    (a3 : (⟨S50x4, .f32⟩ : BufTy).Contents (Elt F)) (a4 : (⟨S50, .i32⟩ : BufTy).Contents (Elt F)) (a6 : (⟨S2, .i32⟩ : BufTy).Contents (Elt F)) :
    tailTerm cm cd a0 a2 a3 a4 a6 = tailOf (classK a0 a4) (sliceK cm) (sliceK cd) (boxK a2 a3 a6) := rfl

end Components

/-! ## The guard holds -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by "and" from 1 over entries that are all 1 is 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- Adding 81 to a word that reads between -81 and -1 does not wrap. -/
theorem toInt_add81 (w : BitVec 32) (h1 : -81 ≤ w.toInt) (h2 : w.toInt < 0) : (w + 81#32).toInt = w.toInt + 81 := by
  rw [BitVec.toInt_add, show (81#32 : BitVec 32).toInt = 81 from by decide]
  exact Int.bmod_eq_of_le (by omega) (by omega)

theorem bit_eq_zero_of_ne_one : ∀ b : BitVec 1, ¬b = 1#1 → b = 0#1 := by decide

/-- Under the range -81 <= l < 81 a wrapped label lies within 0..80. -/
theorem wrapK_range (a4 : (⟨S50, .i32⟩ : BufTy).Contents (Elt Ideal)) (hlab : ∀ j : S50.Idx, -81 ≤ BitVec.toInt (a4 j) ∧ BitVec.toInt (a4 j) < 81)
    (j : S50.Idx) : 0 ≤ BitVec.toInt (wrapK (F := Ideal) a4 j) ∧ BitVec.toInt (wrapK (F := Ideal) a4 j) ≤ 80 := by
  obtain ⟨h1, h2⟩ := hlab j
  have h0 : (0#32 : BitVec 32).toInt = 0 := by decide
  have e : wrapK (F := Ideal) a4 j = Scalar.select (IntOp.cmpi .slt (a4 j) 0#32) (a4 j + 81#32) (a4 j) := rfl
  rw [e]
  by_cases hneg : BitVec.toInt (a4 j) < 0
  · have hc : IntOp.cmpi .slt (a4 j) 0#32 = 1#1 := IntOp.cmpi_slt.2 (by rw [h0]; exact hneg)
    rw [hc, select_one, toInt_add81 _ h1 hneg]
    omega
  · have hc : IntOp.cmpi .slt (a4 j) 0#32 = 0#1 :=
      bit_eq_zero_of_ne_one _ fun h => hneg (by have := IntOp.cmpi_slt.1 h; rwa [h0] at this)
    rw [hc, select_zero]
    omega

/-- So the guard is 1 everywhere. -/
theorem guardK_one (a4 : (⟨S50, .i32⟩ : BufTy).Contents (Elt Ideal)) (hlab : ∀ j : S50.Idx, -81 ≤ BitVec.toInt (a4 j) ∧ BitVec.toInt (a4 j) < 81)
    (i : S600x50.Idx) : guardK (F := Ideal) a4 i = 1#1 := by
  have h0 : (0#32 : BitVec 32).toInt = 0 := by decide
  have h80 : (80#32 : BitVec 32).toInt = 80 := by decide
  unfold guardK
  show Host.reduce IntOp.andi _ _ reducesTo_S50x1_S50_d1 h_S_ _ = 1#1
  refine reduce_andi_ones _ _ _ _ (fun y => ?_) (fun _ => rfl) _
  show IntOp.andi (IntOp.cmpi .sge (wrapK (F := Ideal) a4 _) 0#32) (IntOp.cmpi .sle (wrapK (F := Ideal) a4 _) 80#32) = 1#1
  exact IntOp.andi_eq_one.2 ⟨IntOp.cmpi_sge.2 (by rw [h0]; exact (wrapK_range a4 hlab _).1),
    IntOp.cmpi_sle.2 (by rw [h80]; exact (wrapK_range a4 hlab _).2)⟩

/-! ## The four components are the reference's four cost stages -/

/-- The lookup is the reference's. -/
theorem gatherK_eq (a0 : (⟨S2x300x81, .f32⟩ : BufTy).Contents (Elt Ideal)) (a4 : (⟨S50, .i32⟩ : BufTy).Contents (Elt Ideal)) :
    gatherK (F := Ideal) a0 a4 = Cert.ReferenceIdeal.Read.val_main_v22 (F := Ideal) a0 a4 := rfl

/-- Under the labels' range the guarded class cost is the reference's class cost. -/
theorem classK_eq (a0 : (⟨S2x300x81, .f32⟩ : BufTy).Contents (Elt Ideal)) (a4 : (⟨S50, .i32⟩ : BufTy).Contents (Elt Ideal))
    (hlab : ∀ j : S50.Idx, -81 ≤ BitVec.toInt (a4 j) ∧ BitVec.toInt (a4 j) < 81) :
    classK (F := Ideal) a0 a4 = Cert.ReferenceIdeal.Read.val_main_v23 (F := Ideal) a0 a4 := by
  have e : select (guardK (F := Ideal) a4) (gatherK (F := Ideal) a0 a4) (nanK (F := Ideal)) = gatherK (F := Ideal) a0 a4 :=
    funext fun i => by rw [select_apply, guardK_one a4 hlab i, select_one]
  unfold classK
  rw [e, gatherK_eq]
  rfl

set_option maxRecDepth 65536 in
/-- The box cost is the reference's. -/
theorem boxK_eq (a2 : (⟨S2x300x4, .f32⟩ : BufTy).Contents (Elt Ideal)) (a3 : (⟨S50x4, .f32⟩ : BufTy).Contents (Elt Ideal)) (a6 : (⟨S2, .i32⟩ : BufTy).Contents (Elt Ideal)) :
    boxK (F := Ideal) a2 a3 a6 = Cert.ReferenceIdeal.Read.val_main_v118 (F := Ideal) a2 a3 a6 := rfl

/-- The first 50 columns of an array that agrees with a [600, 50] matrix there are that matrix. -/
theorem sliceK_eq (x : (⟨S600x128, .f32⟩ : BufTy).Contents (Elt Ideal)) (y : (⟨S600x50, .f32⟩ : BufTy).Contents (Elt Ideal))
    (h : ∀ (n : Fin 600) (j : Fin 50), x (ix2 n (⟨j.val, by omega⟩ : Fin 128)) = y (ix2 n j)) : sliceK (F := Ideal) x = y := by
  funext i
  obtain ⟨n, j, rfl⟩ : ∃ (n : Fin 600) (j : Fin 50), i = ix2 n j := ⟨i 0, i 1, eq_ix2 i⟩
  unfold sliceK
  refine (extractStridedSlice_apply ![0, 0] x slices_S600x128_S600x50_0_0 (ix2 n j) (ix2 n (⟨j.val, by omega⟩ : Fin 128)) fun a => ?_).trans (h n j)
  match a with
  | ⟨0, _⟩ => exact (Nat.zero_add _).symm
  | ⟨1, _⟩ => exact (Nat.zero_add _).symm

/-- The weighted sum is the reference's. -/
theorem tailOf_eq (cc cm cd cb : (⟨S600x50, .f32⟩ : BufTy).Contents (Elt Ideal)) : tailOf (F := Ideal) cc cm cd cb = Cert.ReferenceIdeal.RefValue.RefTail cc cm cd cb := rfl

/-! ## The tail -/

/-- The kernel program's tail, at two cost arrays that agree with the reference's mask and dice costs on the first 50
    columns and under the labels' range, is the reference's tail of its four cost stages. -/
theorem tail_ref (cm cd : (⟨S600x128, .f32⟩ : BufTy).Contents (Elt Ideal)) (a0 : (⟨S2x300x81, .f32⟩ : BufTy).Contents (Elt Ideal)) (a1 : (⟨S2x300x256x256, .f32⟩ : BufTy).Contents (Elt Ideal))
    (a2 : (⟨S2x300x4, .f32⟩ : BufTy).Contents (Elt Ideal)) (a3 : (⟨S50x4, .f32⟩ : BufTy).Contents (Elt Ideal)) (a4 : (⟨S50, .i32⟩ : BufTy).Contents (Elt Ideal)) (a5 : (⟨S50x256x256, .i32⟩ : BufTy).Contents (Elt Ideal))
    (a6 : (⟨S2, .i32⟩ : BufTy).Contents (Elt Ideal))
    (hlab : ∀ j : S50.Idx, -81 ≤ BitVec.toInt (a4 j) ∧ BitVec.toInt (a4 j) < 81)
    (hcm : ∀ (n : Fin 600) (j : Fin 50), cm (ix2 n (⟨j.val, by omega⟩ : Fin 128)) = Cert.ReferenceIdeal.Read.val_main_v53 (F := Ideal) a1 a5 (ix2 n j))
    (hcd : ∀ (n : Fin 600) (j : Fin 50), cd (ix2 n (⟨j.val, by omega⟩ : Fin 128)) = Cert.ReferenceIdeal.Read.val_main_v71 (F := Ideal) a1 a5 (ix2 n j)) :
    tailTerm (F := Ideal) cm cd a0 a2 a3 a4 a6
      = Cert.ReferenceIdeal.RefValue.RefTail (Cert.ReferenceIdeal.Read.val_main_v23 (F := Ideal) a0 a4) (Cert.ReferenceIdeal.Read.val_main_v53 (F := Ideal) a1 a5)
          (Cert.ReferenceIdeal.Read.val_main_v71 (F := Ideal) a1 a5) (Cert.ReferenceIdeal.Read.val_main_v118 (F := Ideal) a2 a3 a6) := by
  rw [tailTerm_split, classK_eq a0 a4 hlab, sliceK_eq cm _ hcm, sliceK_eq cd _ hcd, boxK_eq, tailOf_eq]

end Cert.TailRef

end
-- ==== Proof.RefSide.lean ====
/-
  The reference's two costs in the kernel side's words.

  The kernel side names the inputs by three real functions: xr (query row, pixel) for the mask logits, tp (target,
  pixel) for the targets as reals and ts (target) for each target's pixel sum. Read through those, the reference's
  mask cost at (n, j) is (sum_k Af(x) t + sum_k negf(x)) / 65536 and its dice cost is
  1 - (2 sum_k sig(x) t + 1) / ((sum_k sig(x) + ts j) + 1): the reshaped logits [600, 65536] at (n, k) are the
  logit at (n / 300, n % 300, k / 256, k % 256), the float targets at (j, k) are the integer entry at
  (j, k / 256, k % 256) read signed, and the reference's own sum of a target's pixels is ts j.
-/
import proofs.«412977_j52527450030676_2_alg».proof.Proof.RefValue

noncomputable section

namespace Cert.RefSide

open Cert.ReferenceIdeal Cert.ReferenceIdeal.Gen Cert.ReferenceIdeal.Read Cert.ReferenceIdeal.RefValue
open Idealize.ShloMosaic Idealize.ShloMosaic.ValueIdx

variable (x1 : (⟨S2x300x256x256, .f32⟩ : BufTy).Contents (Elt Ideal))
variable (x5 : (⟨S50x256x256, .i32⟩ : BufTy).Contents (Elt Ideal))
variable (xr tp : ℕ → ℕ → ℝ) (ts : ℕ → ℝ)

/-- The reshaped logits at (n, k) are the logit at (n / 300, n % 300, k / 256, k % 256). -/
theorem v12_of
    (hx1 : ∀ (n : Fin 600) (k : Fin 65536), x1 (ix4 (⟨n.val / 300, by omega⟩ : Fin 2) (⟨n.val % 300, by omega⟩ : Fin 300)
      (⟨k.val / 256, by omega⟩ : Fin 256) (⟨k.val % 256, by omega⟩ : Fin 256)) = ((xr n.val k.val : ℝ) : EReal))
    (n : Fin 600) (k : Fin 65536) :
    val_main_v12 (F := Ideal) x1 (ix2 n k) = ((xr n.val k.val : ℝ) : EReal) := by
  rw [val_main_v12_apply]
  refine Eq.trans (congrArg x1 (funext fun a => Fin.ext ?_)) (hx1 n k)
  have hn := n.isLt
  have hk := k.isLt
  match a with
  | ⟨0, _⟩ => show (n.val * 65536 + k.val) / 19660800 = n.val / 300; omega
  | ⟨1, _⟩ => show (n.val * 65536 + k.val) / 65536 % 300 = n.val % 300; omega
  | ⟨2, _⟩ => show (n.val * 65536 + k.val) / 256 % 256 = k.val / 256; omega
  | ⟨3, _⟩ => show (n.val * 65536 + k.val) % 256 = k.val % 256; omega

/-- The float targets at (j, k) are the integer entry at (j, k / 256, k % 256), read signed. -/
theorem v14_of
    (htp : ∀ (j : Fin 50) (k : Fin 65536), tp j.val k.val
      = (((BitVec.toInt (x5 (ix3 j (⟨k.val / 256, by omega⟩ : Fin 256) (⟨k.val % 256, by omega⟩ : Fin 256))) : ℤ)) : ℝ))
    (j : Fin 50) (k : Fin 65536) :
    val_main_v14 (F := Ideal) x5 (ix2 j k) = ((tp j.val k.val : ℝ) : EReal) := by
  rw [ht_trOf, htp j k]
  unfold trOf
  rw [v13_at]

/-- The reference's mask cost at (n, j). -/
theorem ref_mask_eq
    (hx1 : ∀ (n : Fin 600) (k : Fin 65536), x1 (ix4 (⟨n.val / 300, by omega⟩ : Fin 2) (⟨n.val % 300, by omega⟩ : Fin 300)
      (⟨k.val / 256, by omega⟩ : Fin 256) (⟨k.val % 256, by omega⟩ : Fin 256)) = ((xr n.val k.val : ℝ) : EReal))
    (htp : ∀ (j : Fin 50) (k : Fin 65536), tp j.val k.val
      = (((BitVec.toInt (x5 (ix3 j (⟨k.val / 256, by omega⟩ : Fin 256) (⟨k.val % 256, by omega⟩ : Fin 256))) : ℤ)) : ℝ))
    (n : Fin 600) (j : Fin 50) :
    val_main_v53 (F := Ideal) x1 x5 (ix2 n j)
      = (((∑ k : Fin 65536, Spec.Af (xr n.val k.val) * tp j.val k.val : ℝ) : EReal)
          + ((∑ k : Fin 65536, Spec.negf (xr n.val k.val) : ℝ) : EReal)) * (((1 / 65536 : ℝ)) : EReal) :=
  v53_at x1 x5 (fun n k => xr n.val k.val) (fun j k => tp j.val k.val) (v12_of x1 xr hx1) (v14_of x5 tp htp) n j

/-- The reference's dice cost at (n, j). -/
theorem ref_dice_eq
    (hx1 : ∀ (n : Fin 600) (k : Fin 65536), x1 (ix4 (⟨n.val / 300, by omega⟩ : Fin 2) (⟨n.val % 300, by omega⟩ : Fin 300)
      (⟨k.val / 256, by omega⟩ : Fin 256) (⟨k.val % 256, by omega⟩ : Fin 256)) = ((xr n.val k.val : ℝ) : EReal))
    (htp : ∀ (j : Fin 50) (k : Fin 65536), tp j.val k.val
      = (((BitVec.toInt (x5 (ix3 j (⟨k.val / 256, by omega⟩ : Fin 256) (⟨k.val % 256, by omega⟩ : Fin 256))) : ℤ)) : ℝ))
    (hts : ∀ j : Fin 50, ts j.val = ∑ k : Fin 65536, tp j.val k.val)
    (n : Fin 600) (j : Fin 50) :
    val_main_v71 (F := Ideal) x1 x5 (ix2 n j)
      = (1 : EReal) - Ideal.div (2 * ((∑ k : Fin 65536, Spec.sig (xr n.val k.val) * tp j.val k.val : ℝ) : EReal) + 1)
          ((((∑ k : Fin 65536, Spec.sig (xr n.val k.val) : ℝ) : EReal) + ((ts j.val : ℝ) : EReal)) + 1) := by
  refine (v71_at x1 x5 (fun n k => xr n.val k.val) (fun j k => tp j.val k.val) (v12_of x1 xr hx1) (v14_of x5 tp htp) n j).trans ?_
  have h2 : ((2 : ℝ) : EReal) = 2 := by norm_cast
  dsimp only
  rw [← hts j, EReal.coe_one, h2]

end Cert.RefSide

end
-- ==== Proof.Bridge.lean ====
/-
  The two programs end with the same cost matrix.

  Kernel side: the valued run leaves the result buffer at the lines after the region applied to the two cost arrays
  and the arguments (tail_eq): twice the class cost plus five times each of the first fifty columns of the mask cost
  array, the first fifty columns of the dice cost array, and the box cost. Reference side: the generated run leaves
  its result at the same weighted sum of its four cost stages (res_eq_tail). The two sums are one function of their
  four costs; the box costs are the same operations; the class costs agree because every label is in range, so the
  kernel's out-of-range fill is never selected (tail_ref); and the mask and dice costs agree entry by entry: the
  kernel's array holds (final3 / final4) exactly the expression the reference's stage is (ref_mask_eq /
  ref_dice_eq), over the same real readings of the mask logits and of the binary targets (reads_exist).
-/
import proofs.«412977_j52527450030676_2_alg».proof.Defs
import proofs.«412977_j52527450030676_2_alg».proof.Proof.Gen.KernelIdeal
import proofs.«412977_j52527450030676_2_alg».proof.Proof.Gen.ReferenceIdeal
import proofs.«412977_j52527450030676_2_alg».proof.Proof.Gen.ReferenceIdeal.Run
import proofs.«412977_j52527450030676_2_alg».proof.Proof.Gen.Pre_finite_inputs
import proofs.«412977_j52527450030676_2_alg».proof.Proof.ValFrame
import proofs.«412977_j52527450030676_2_alg».proof.Proof.ReadsOf
import proofs.«412977_j52527450030676_2_alg».proof.Proof.TailArgs
import proofs.«412977_j52527450030676_2_alg».proof.Proof.TailEq
import proofs.«412977_j52527450030676_2_alg».proof.Proof.TailRef
import proofs.«412977_j52527450030676_2_alg».proof.Proof.RefValue
import proofs.«412977_j52527450030676_2_alg».proof.Proof.RefSide
import proofs.«412977_j52527450030676_2_alg».proof.Proof.PreFacts

set_option maxRecDepth 16384

noncomputable section

namespace Cert.Bridge

open Idealize.ShloMosaic Idealize.SL.Sem Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  obtain ⟨xr, tp, ts, hR, hx1, htp, htp0, hts, hts0⟩ := Cert.KernelIdeal.Val.reads_exist m hpre
  refine ⟨fun c => Cert.ReferenceIdeal.Value.res_main_v130 (F := Ideal) m' c, ?_, Cert.ReferenceIdeal.Value.run (F := Ideal) m' g'⟩
  refine (θ_run Cert.KernelIdeal.defs _ _).mono (fun r h c => ⟨?_, Cert.KernelIdeal.Hand.post_args m _ r h c⟩)
    (Cert.KernelIdeal.Val.run_main m g xr tp ts hR)
  obtain ⟨e0, e1, e2, e3, e4, e5, e6⟩ := hagree c
  rw [Cert.KernelIdeal.Hand.post_result m _ r h c, Cert.KernelIdeal.Hand.tail_eq,
    Cert.KernelIdeal.Hand.V_main_arg0, Cert.KernelIdeal.Hand.V_main_arg2, Cert.KernelIdeal.Hand.V_main_arg3,
    Cert.KernelIdeal.Hand.V_main_arg4, Cert.KernelIdeal.Hand.V_main_arg6]
  show _ = Cert.ReferenceIdeal.Value.res_main_v130 (F := Ideal) m' c
  rw [Cert.ReferenceIdeal.RefValue.res_eq_tail m' c, e0, e1, e2, e3, e4, e5, e6]
  exact Cert.TailRef.tail_ref _ _ _ (m ((c.tc : Thread Cert.KernelIdeal.nD Cert.KernelIdeal.τ).loc Cert.KernelIdeal.main_arg1)) _ _ _
    (m ((c.tc : Thread Cert.KernelIdeal.nD Cert.KernelIdeal.τ).loc Cert.KernelIdeal.main_arg5)) _
    (Cert.PreFacts.labels_range (hpre c))
    (fun n j => by
      rw [Cert.KernelIdeal.Val.final3, Cert.RefSide.ref_mask_eq _ _ xr tp (hx1 c) (htp c) n j])
    (fun n j => by
      rw [Cert.KernelIdeal.Val.final4, Cert.RefSide.ref_dice_eq _ _ xr tp ts (hx1 c) (htp c) hts n j])

end Cert.Bridge

end
-- ==== Proof.lean ====
/-
  The certificate of the matcher cost kernel: a Pallas kernel computing, for 600 queries and 50 targets, the mask
  (focal) cost and the dice cost over 65536 pixels, glued on the host to the class cost and the box cost, against
  the plain jnp cost matrix.

  Under the precondition — the four float inputs finite; every target label in [-81, 81), the range in which the
  reference's own indexing of the 81 class probabilities is in bounds (negative labels count from the end); every
  target mask entry 0 or 1, the reference's stated contract ("binary targets") — the five claims hold:

  * the three programs run to the end, fault nowhere and leave their arguments unchanged. For the two kernel
    programs this is the relational frame of Proof/FrameR.lean (and its word-level twin): the mask logits' last
    block overhangs the array by 40 rows whose words nothing names, so the accumulators' and the outputs' contents
    are not named there, only owned. The reference's frame is its run with the result dropped.
  * the idealization rewrote nothing, so there is nothing to preserve.
  * at the ideal instance both programs end with the same cost matrix. Per pixel the two sides agree by two
    identities of the reals — log(1 + e^{-x}) = max(-x, 0) + log(1 + e^{-|x|}) and its mirror for softplus(x) — and
    y^2.0 = y * y; the kernel's sixteen partial sums over blocks of 4096 pixels are the reference's one sum over
    65536; multiplying by 2^{-16} is dividing by 65536; the integer row sum of a 0/1 mask does not wrap, so it is
    the sum of the entries; and with the labels in range the kernel's out-of-range fill is never selected. The
    class cost, the box cost and the final weighted sum are the same operations in both programs.
-/
import proofs.«412977_j52527450030676_2_alg».proof.Defs
import proofs.«412977_j52527450030676_2_alg».proof.Proof.Gen.Kernel
import proofs.«412977_j52527450030676_2_alg».proof.Proof.Gen.KernelIdeal
import proofs.«412977_j52527450030676_2_alg».proof.Proof.Gen.ReferenceIdeal
import proofs.«412977_j52527450030676_2_alg».proof.Proof.Gen.ReferenceIdeal.Run
import proofs.«412977_j52527450030676_2_alg».proof.Proof.Gen.Pre_finite_inputs
import proofs.«412977_j52527450030676_2_alg».proof.Proof.FrameR
import proofs.«412977_j52527450030676_2_alg».proof.Proof.KFrameR
import proofs.«412977_j52527450030676_2_alg».proof.Proof.Bridge
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
